-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S_ : Shape := ⟨0, ![]⟩

class Facts : Prop where
  bcast_S_S512x1x256x128 : S_.BroadcastsInDim S512x1x256x128 (![] : Fin 0 → Fin S512x1x256x128.rank)
  reducesTo_S512x1x256x128_S_d0_1_2_3 : S512x1x256x128.ReducesTo [0, 1, 2, 3] S_
  h_S_ : 0 < S_.numel
  bcast_S_S128x1x5x128 : S_.BroadcastsInDim S128x1x5x128 (![] : Fin 0 → Fin S128x1x5x128.rank)
  reducesTo_S128x1x5x128_S_d0_1_2_3 : S128x1x5x128.ReducesTo [0, 1, 2, 3] S_
  bcast_S_S128 : S_.BroadcastsInDim S128 (![] : Fin 0 → Fin S128.rank)
  reducesTo_S128_S_d0 : S128.ReducesTo [0] S_
  bcast_S_S16x8064 : S_.BroadcastsInDim S16x8064 (![] : Fin 0 → Fin S16x8064.rank)
  reducesTo_S16x8064_S_d0_1 : S16x8064.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8064 1) : IVec S_ 1 :=
  let main_c_5 : IVec S_ 1 := constantI S_ 1 1#1
  let main_v17 : IVec S_ 1 := (fun x v => Host.reduce IntOp.andi x v reducesTo_S16x8064_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S512x1x256x128 .f32) (main_arg1 : FVec F S128x1x5x128 .f32) (main_arg2 : FVec F S128 .f32) (main_arg3 : FVec F S16x8064 .f32) (main_arg4 : FVec F S16 .f32) : IVec S_ 1 :=
  let main_v0 : FVec F S512x1x256x128 .f32 := Host.absf main_arg0
  let main_cst : FVec F S_ .f32 := constant S_ .f32 0x7F800000#32
  let main_v1 : FVec F S512x1x256x128 .f32 := broadcastInDim S512x1x256x128 ![] bcast_S_S512x1x256x128 main_cst
  let main_v2 : IVec S512x1x256x128 1 := cmpf .olt main_v0 main_v1
  let main_c : IVec S_ 1 := constantI S_ 1 1#1
  let main_v3 : IVec S_ 1 := (fun x v => Host.reduce IntOp.andi x v reducesTo_S512x1x256x128_S_d0_1_2_3 h_S_) main_v2 main_c
  let main_v4 : FVec F S128x1x5x128 .f32 := Host.absf main_arg1
  let main_cst_0 : FVec F S_ .f32 := constant S_ .f32 0x7F800000#32
  let main_v5 : FVec F S128x1x5x128 .f32 := broadcastInDim S128x1x5x128 ![] bcast_S_S128x1x5x128 main_cst_0
  let main_v6 : IVec S128x1x5x128 1 := cmpf .olt main_v4 main_v5
  let main_c_1 : IVec S_ 1 := constantI S_ 1 1#1
  let main_v7 : IVec S_ 1 := (fun x v => Host.reduce IntOp.andi x v reducesTo_S128x1x5x128_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x8064 .f32 := Host.absf main_arg3
  let main_cst_4 : FVec F S_ .f32 := constant S_ .f32 0x7F800000#32
  let main_v15 : FVec F S16x8064 .f32 := broadcastInDim S16x8064 ![] bcast_S_S16x8064 main_cst_4
  let main_v16 : IVec S16x8064 1 := cmpf .olt main_v14 main_v15
  fn_part1 (F := F) main_arg4 main_v13 main_v16
-- ==== Kernel.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S512x1x255x128 : Shape := ⟨4, ![512, 1, 255, 128]⟩
abbrev S512x255x128 : Shape := ⟨3, ![512, 255, 128]⟩
abbrev S_ : Shape := ⟨0, ![]⟩
abbrev S512x256x128 : Shape := ⟨3, ![512, 256, 128]⟩
abbrev S8x64x256x128 : Shape := ⟨4, ![8, 64, 256, 128]⟩
abbrev S8x256x64x128 : Shape := ⟨4, ![8, 256, 64, 128]⟩
abbrev S8x16384x128 : Shape := ⟨3, ![8, 16384, 128]⟩
abbrev S128x5x128 : Shape := ⟨3, ![128, 5, 128]⟩
abbrev S5x128x128 : Shape := ⟨3, ![5, 128, 128]⟩
abbrev S1x128x128 : Shape := ⟨3, ![1, 128, 128]⟩
abbrev S128x128 : Shape := ⟨2, ![128, 128]⟩
abbrev S128x256 : Shape := ⟨2, ![128, 256]⟩
abbrev S1x128 : Shape := ⟨2, ![1, 128]⟩
abbrev S16x128x63 : Shape := ⟨3, ![16, 128, 63]⟩
abbrev S63x128x16 : Shape := ⟨3, ![63, 128, 16]⟩
abbrev S8064x16 : Shape := ⟨2, ![8064, 16]⟩
abbrev S8064x128 : Shape := ⟨2, ![8064, 128]⟩
abbrev S1x16 : Shape := ⟨2, ![1, 16]⟩
abbrev S512x128 : Shape := ⟨2, ![512, 128]⟩
abbrev S1x16384x128 : Shape := ⟨3, ![1, 16384, 128]⟩
abbrev S64x128 : Shape := ⟨2, ![64, 128]⟩
abbrev S16384x128 : Shape := ⟨2, ![16384, 128]⟩
abbrev S16192x128 : Shape := ⟨2, ![16192, 128]⟩
abbrev S16192x256 : Shape := ⟨2, ![16192, 256]⟩
abbrev S16128x128 : Shape := ⟨2, ![16128, 128]⟩
abbrev S64x8064 : Shape := ⟨2, ![64, 8064]⟩
abbrev S512x16 : Shape := ⟨2, ![512, 16]⟩

abbrev nBuf : Space → Nat
  | .hbm => 43
  | .vmem => 10
  | .smem => 0
  | _ => 0

abbrev bufTy : (tb : Table) → Fin (tcTables nBuf tb) → BufTy
  | .hbm, ⟨0, _⟩ => ⟨S512x1x256x128, .f32⟩
  | .hbm, ⟨1, _⟩ => ⟨S128x1x5x128, .f32⟩
  | .hbm, ⟨2, _⟩ => ⟨S128, .f32⟩
  | .hbm, ⟨3, _⟩ => ⟨S16x8064, .f32⟩
  | .hbm, ⟨4, _⟩ => ⟨S16, .f32⟩
  | .hbm, ⟨5, _⟩ => ⟨S512x1x255x128, .f32⟩
  | .hbm, ⟨6, _⟩ => ⟨S512x255x128, .f32⟩
  | .hbm, ⟨7, _⟩ => ⟨S512x255x128, .bf16⟩
  | .hbm, ⟨8, _⟩ => ⟨S_, .i32⟩
  | .hbm, ⟨9, _⟩ => ⟨S_, .bf16⟩
  | .hbm, ⟨10, _⟩ => ⟨S512x256x128, .bf16⟩
  | .hbm, ⟨11, _⟩ => ⟨S8x64x256x128, .bf16⟩
  | .hbm, ⟨12, _⟩ => ⟨S8x256x64x128, .bf16⟩
  | .hbm, ⟨13, _⟩ => ⟨S8x16384x128, .bf16⟩
  | .hbm, ⟨14, _⟩ => ⟨S128x5x128, .f32⟩
  | .hbm, ⟨15, _⟩ => ⟨S5x128x128, .f32⟩
  | .hbm, ⟨16, _⟩ => ⟨S5x128x128, .bf16⟩
  | .hbm, ⟨17, _⟩ => ⟨S1x128x128, .bf16⟩
  | .hbm, ⟨18, _⟩ => ⟨S128x128, .bf16⟩
  | .hbm, ⟨19, _⟩ => ⟨S1x128x128, .bf16⟩
  | .hbm, ⟨20, _⟩ => ⟨S128x128, .bf16⟩
  | .hbm, ⟨21, _⟩ => ⟨S128x256, .bf16⟩
  | .hbm, ⟨22, _⟩ => ⟨S1x128x128, .bf16⟩
  | .hbm, ⟨23, _⟩ => ⟨S128x128, .bf16⟩
  | .hbm, ⟨24, _⟩ => ⟨S1x128x128, .bf16⟩
  | .hbm, ⟨25, _⟩ => ⟨S128x128, .bf16⟩
  | .hbm, ⟨26, _⟩ => ⟨S128x256, .bf16⟩
  | .hbm, ⟨27, _⟩ => ⟨S1x128x128, .bf16⟩
  | .hbm, ⟨28, _⟩ => ⟨S128x128, .bf16⟩
  | .hbm, ⟨29, _⟩ => ⟨S1x128, .f32⟩
  | .hbm, ⟨30, _⟩ => ⟨S16x128x63, .f32⟩
  | .hbm, ⟨31, _⟩ => ⟨S63x128x16, .f32⟩
  | .hbm, ⟨32, _⟩ => ⟨S8064x16, .f32⟩
  | .hbm, ⟨33, _⟩ => ⟨S_, .i32⟩
  | .hbm, ⟨34, _⟩ => ⟨S_, .f32⟩
  | .hbm, ⟨35, _⟩ => ⟨S8064x128, .f32⟩
  | .hbm, ⟨36, _⟩ => ⟨S8064x128, .bf16⟩
  | .hbm, ⟨37, _⟩ => ⟨S1x16, .f32⟩
  | .hbm, ⟨38, _⟩ => ⟨S_, .i32⟩
  | .hbm, ⟨39, _⟩ => ⟨S_, .f32⟩
  | .hbm, ⟨40, _⟩ => ⟨S1x128, .f32⟩
  | .hbm, ⟨41, _⟩ => ⟨S512x128, .f32⟩
  | .hbm, ⟨42, _⟩ => ⟨S512x16, .f32⟩
  | .local _ .vmem, ⟨0, _⟩ => ⟨S1x16384x128, .bf16⟩
  | .local _ .vmem, ⟨1, _⟩ => ⟨S1x16384x128, .bf16⟩
  | .local _ .vmem, ⟨2, _⟩ => ⟨S128x256, .bf16⟩
  | .local _ .vmem, ⟨3, _⟩ => ⟨S128x256, .bf16⟩
  | .local _ .vmem, ⟨4, _⟩ => ⟨S128x128, .bf16⟩
  | .local _ .vmem, ⟨5, _⟩ => ⟨S1x128, .f32⟩
  | .local _ .vmem, ⟨6, _⟩ => ⟨S8064x128, .bf16⟩
  | .local _ .vmem, ⟨7, _⟩ => ⟨S1x128, .f32⟩
  | .local _ .vmem, ⟨8, _⟩ => ⟨S64x128, .f32⟩
  | .local _ .vmem, ⟨9, _⟩ => ⟨S64x128, .f32⟩
  | _, _ => ⟨S512x1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_0 : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_call2_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8064x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x1x256x128_S512x1x255x128_0_0_0_0 : S512x1x256x128.Slices ![0, 0, 0, 0] S512x1x255x128
  shapeCasts_S512x1x255x128_S512x255x128 : S512x1x255x128.ShapeCasts S512x255x128
  bitsLt_bf16_f32 : FTy.bits .bf16 < FTy.bits .f32
  pads_S512x255x128_S512x256x128_000_100_000 : S512x255x128.Pads (![0, 1, 0] : Fin 3 → Nat) ![0, 0, 0] ![0, 0, 0] S512x256x128
  h_S_ : 0 < S_.numel
  shapeCasts_S512x256x128_S8x64x256x128 : S512x256x128.ShapeCasts S8x64x256x128
  transposes_S8x64x256x128_S8x256x64x128_0_2_1_3 : S8x64x256x128.Transposes [0, 2, 1, 3] S8x256x64x128
  shapeCasts_S8x256x64x128_S8x16384x128 : S8x256x64x128.ShapeCasts S8x16384x128
  shapeCasts_S128x1x5x128_S128x5x128 : S128x1x5x128.ShapeCasts S128x5x128
  transposes_S128x5x128_S5x128x128_1_2_0 : S128x5x128.Transposes [1, 2, 0] S5x128x128
  slices_S5x128x128_S1x128x128_0_0_0 : S5x128x128.Slices ![0, 0, 0] S1x128x128
  shapeCasts_S1x128x128_S128x128 : S1x128x128.ShapeCasts S128x128
  slices_S5x128x128_S1x128x128_1_0_0 : S5x128x128.Slices ![1, 0, 0] S1x128x128
  concatenates_S128x128_S128x128_S128x256_d1 : Shape.Concatenates [S128x128, S128x128] S128x256 1
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  shapeCasts_S128_S1x128 : S128.ShapeCasts S1x128
  shapeCasts_S16x8064_S16x128x63 : S16x8064.ShapeCasts S16x128x63
  transposes_S16x128x63_S63x128x16_2_1_0 : S16x128x63.Transposes [2, 1, 0] S63x128x16
  shapeCasts_S63x128x16_S8064x16 : S63x128x16.ShapeCasts S8064x16
  pads_S8064x16_S8064x128_000_01120 : S8064x16.Pads (![0, 0] : Fin 2 → Nat) ![0, 112] ![0, 0] S8064x128
  shapeCasts_S16_S1x16 : S16.ShapeCasts S1x16
  pads_S1x16_S1x128_000_01120 : S1x16.Pads (![0, 0] : Fin 2 → Nat) ![0, 112] ![0, 0] S1x128
  inb_S1x16384x128_S1x16384x128_0_0_0 : ∀ a, (![0, 0, 0] : Fin 3 → Nat) a + S1x16384x128.size a ≤ S1x16384x128.size a
  h_S1x16384x128 : 0 < S1x16384x128.numel
  shapeCasts_S1x16384x128_S16384x128 : S1x16384x128.ShapeCasts S16384x128
  slices_S16384x128_o0_0_S16192x128 : S16384x128.Slices ![0, 0] S16192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S16192x256_o0_0_S16128x128 : S16192x256.Slices ![0, 0] S16128x128
  slices_S16192x256_o64_128_S16128x128 : S16192x256.Slices ![64, 128] S16128x128
  slices_S16384x128_o128_0_S16192x128 : S16384x128.Slices ![128, 0] S16192x128
  slices_S16384x128_o256_0_S16128x128 : S16384x128.Slices ![256, 0] S16128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16128x128 : S1x128.Broadcasts S16128x128
  slices_S16128x128_o0_0_S64x128 : S16128x128.Slices ![0, 0] S64x128
  slices_S16128x128_o64_0_S64x128 : S16128x128.Slices ![64, 0] S64x128
  slices_S16128x128_o128_0_S64x128 : S16128x128.Slices ![128, 0] S64x128
  slices_S16128x128_o192_0_S64x128 : S16128x128.Slices ![192, 0] S64x128
  slices_S16128x128_o256_0_S64x128 : S16128x128.Slices ![256, 0] S64x128
  slices_S16128x128_o320_0_S64x128 : S16128x128.Slices ![320, 0] S64x128
  slices_S16128x128_o384_0_S64x128 : S16128x128.Slices ![384, 0] S64x128
  slices_S16128x128_o448_0_S64x128 : S16128x128.Slices ![448, 0] S64x128
  slices_S16128x128_o512_0_S64x128 : S16128x128.Slices ![512, 0] S64x128
  slices_S16128x128_o576_0_S64x128 : S16128x128.Slices ![576, 0] S64x128
  slices_S16128x128_o640_0_S64x128 : S16128x128.Slices ![640, 0] S64x128
  slices_S16128x128_o704_0_S64x128 : S16128x128.Slices ![704, 0] S64x128
  slices_S16128x128_o768_0_S64x128 : S16128x128.Slices ![768, 0] S64x128
  slices_S16128x128_o832_0_S64x128 : S16128x128.Slices ![832, 0] S64x128
  slices_S16128x128_o896_0_S64x128 : S16128x128.Slices ![896, 0] S64x128
  slices_S16128x128_o960_0_S64x128 : S16128x128.Slices ![960, 0] S64x128
  slices_S16128x128_o1024_0_S64x128 : S16128x128.Slices ![1024, 0] S64x128
  slices_S16128x128_o1088_0_S64x128 : S16128x128.Slices ![1088, 0] S64x128
  slices_S16128x128_o1152_0_S64x128 : S16128x128.Slices ![1152, 0] S64x128
  slices_S16128x128_o1216_0_S64x128 : S16128x128.Slices ![1216, 0] S64x128
  slices_S16128x128_o1280_0_S64x128 : S16128x128.Slices ![1280, 0] S64x128
  slices_S16128x128_o1344_0_S64x128 : S16128x128.Slices ![1344, 0] S64x128
  slices_S16128x128_o1408_0_S64x128 : S16128x128.Slices ![1408, 0] S64x128
  slices_S16128x128_o1472_0_S64x128 : S16128x128.Slices ![1472, 0] S64x128
  slices_S16128x128_o1536_0_S64x128 : S16128x128.Slices ![1536, 0] S64x128
  slices_S16128x128_o1600_0_S64x128 : S16128x128.Slices ![1600, 0] S64x128
  slices_S16128x128_o1664_0_S64x128 : S16128x128.Slices ![1664, 0] S64x128
  slices_S16128x128_o1728_0_S64x128 : S16128x128.Slices ![1728, 0] S64x128
  slices_S16128x128_o1792_0_S64x128 : S16128x128.Slices ![1792, 0] S64x128
  slices_S16128x128_o1856_0_S64x128 : S16128x128.Slices ![1856, 0] S64x128
  slices_S16128x128_o1920_0_S64x128 : S16128x128.Slices ![1920, 0] S64x128
  slices_S16128x128_o1984_0_S64x128 : S16128x128.Slices ![1984, 0] S64x128
  slices_S16128x128_o2048_0_S64x128 : S16128x128.Slices ![2048, 0] S64x128
  slices_S16128x128_o2112_0_S64x128 : S16128x128.Slices ![2112, 0] S64x128
  slices_S16128x128_o2176_0_S64x128 : S16128x128.Slices ![2176, 0] S64x128
  slices_S16128x128_o2240_0_S64x128 : S16128x128.Slices ![2240, 0] S64x128
  slices_S16128x128_o2304_0_S64x128 : S16128x128.Slices ![2304, 0] S64x128
  slices_S16128x128_o2368_0_S64x128 : S16128x128.Slices ![2368, 0] S64x128
  slices_S16128x128_o2432_0_S64x128 : S16128x128.Slices ![2432, 0] S64x128
  slices_S16128x128_o2496_0_S64x128 : S16128x128.Slices ![2496, 0] S64x128
  slices_S16128x128_o2560_0_S64x128 : S16128x128.Slices ![2560, 0] S64x128
  slices_S16128x128_o2624_0_S64x128 : S16128x128.Slices ![2624, 0] S64x128
  slices_S16128x128_o2688_0_S64x128 : S16128x128.Slices ![2688, 0] S64x128
  slices_S16128x128_o2752_0_S64x128 : S16128x128.Slices ![2752, 0] S64x128
  slices_S16128x128_o2816_0_S64x128 : S16128x128.Slices ![2816, 0] S64x128
  slices_S16128x128_o2880_0_S64x128 : S16128x128.Slices ![2880, 0] S64x128
  slices_S16128x128_o2944_0_S64x128 : S16128x128.Slices ![2944, 0] S64x128
  slices_S16128x128_o3008_0_S64x128 : S16128x128.Slices ![3008, 0] S64x128
  slices_S16128x128_o3072_0_S64x128 : S16128x128.Slices ![3072, 0] S64x128
  slices_S16128x128_o3136_0_S64x128 : S16128x128.Slices ![3136, 0] S64x128
  slices_S16128x128_o3200_0_S64x128 : S16128x128.Slices ![3200, 0] S64x128
  slices_S16128x128_o3264_0_S64x128 : S16128x128.Slices ![3264, 0] S64x128
  slices_S16128x128_o3328_0_S64x128 : S16128x128.Slices ![3328, 0] S64x128
  slices_S16128x128_o3392_0_S64x128 : S16128x128.Slices ![3392, 0] S64x128
  slices_S16128x128_o3456_0_S64x128 : S16128x128.Slices ![3456, 0] S64x128
  slices_S16128x128_o3520_0_S64x128 : S16128x128.Slices ![3520, 0] S64x128
  slices_S16128x128_o3584_0_S64x128 : S16128x128.Slices ![3584, 0] S64x128
  slices_S16128x128_o3648_0_S64x128 : S16128x128.Slices ![3648, 0] S64x128
  slices_S16128x128_o3712_0_S64x128 : S16128x128.Slices ![3712, 0] S64x128
  slices_S16128x128_o3776_0_S64x128 : S16128x128.Slices ![3776, 0] S64x128
  slices_S16128x128_o3840_0_S64x128 : S16128x128.Slices ![3840, 0] S64x128
  slices_S16128x128_o3904_0_S64x128 : S16128x128.Slices ![3904, 0] S64x128
  slices_S16128x128_o3968_0_S64x128 : S16128x128.Slices ![3968, 0] S64x128
  slices_S16128x128_o4032_0_S64x128 : S16128x128.Slices ![4032, 0] S64x128
  slices_S16128x128_o4096_0_S64x128 : S16128x128.Slices ![4096, 0] S64x128
  slices_S16128x128_o4160_0_S64x128 : S16128x128.Slices ![4160, 0] S64x128
  slices_S16128x128_o4224_0_S64x128 : S16128x128.Slices ![4224, 0] S64x128
  slices_S16128x128_o4288_0_S64x128 : S16128x128.Slices ![4288, 0] S64x128
  slices_S16128x128_o4352_0_S64x128 : S16128x128.Slices ![4352, 0] S64x128
  slices_S16128x128_o4416_0_S64x128 : S16128x128.Slices ![4416, 0] S64x128
  slices_S16128x128_o4480_0_S64x128 : S16128x128.Slices ![4480, 0] S64x128
  slices_S16128x128_o4544_0_S64x128 : S16128x128.Slices ![4544, 0] S64x128
  slices_S16128x128_o4608_0_S64x128 : S16128x128.Slices ![4608, 0] S64x128
  slices_S16128x128_o4672_0_S64x128 : S16128x128.Slices ![4672, 0] S64x128
  slices_S16128x128_o4736_0_S64x128 : S16128x128.Slices ![4736, 0] S64x128
  slices_S16128x128_o4800_0_S64x128 : S16128x128.Slices ![4800, 0] S64x128
  slices_S16128x128_o4864_0_S64x128 : S16128x128.Slices ![4864, 0] S64x128
  slices_S16128x128_o4928_0_S64x128 : S16128x128.Slices ![4928, 0] S64x128
  slices_S16128x128_o4992_0_S64x128 : S16128x128.Slices ![4992, 0] S64x128
  slices_S16128x128_o5056_0_S64x128 : S16128x128.Slices ![5056, 0] S64x128
  slices_S16128x128_o5120_0_S64x128 : S16128x128.Slices ![5120, 0] S64x128
  slices_S16128x128_o5184_0_S64x128 : S16128x128.Slices ![5184, 0] S64x128
  slices_S16128x128_o5248_0_S64x128 : S16128x128.Slices ![5248, 0] S64x128
  slices_S16128x128_o5312_0_S64x128 : S16128x128.Slices ![5312, 0] S64x128
  slices_S16128x128_o5376_0_S64x128 : S16128x128.Slices ![5376, 0] S64x128
  slices_S16128x128_o5440_0_S64x128 : S16128x128.Slices ![5440, 0] S64x128
  slices_S16128x128_o5504_0_S64x128 : S16128x128.Slices ![5504, 0] S64x128
  slices_S16128x128_o5568_0_S64x128 : S16128x128.Slices ![5568, 0] S64x128
  slices_S16128x128_o5632_0_S64x128 : S16128x128.Slices ![5632, 0] S64x128
  slices_S16128x128_o5696_0_S64x128 : S16128x128.Slices ![5696, 0] S64x128
  slices_S16128x128_o5760_0_S64x128 : S16128x128.Slices ![5760, 0] S64x128
  slices_S16128x128_o5824_0_S64x128 : S16128x128.Slices ![5824, 0] S64x128
  slices_S16128x128_o5888_0_S64x128 : S16128x128.Slices ![5888, 0] S64x128
  slices_S16128x128_o5952_0_S64x128 : S16128x128.Slices ![5952, 0] S64x128
  slices_S16128x128_o6016_0_S64x128 : S16128x128.Slices ![6016, 0] S64x128
  slices_S16128x128_o6080_0_S64x128 : S16128x128.Slices ![6080, 0] S64x128
  slices_S16128x128_o6144_0_S64x128 : S16128x128.Slices ![6144, 0] S64x128
  slices_S16128x128_o6208_0_S64x128 : S16128x128.Slices ![6208, 0] S64x128
  slices_S16128x128_o6272_0_S64x128 : S16128x128.Slices ![6272, 0] S64x128
  slices_S16128x128_o6336_0_S64x128 : S16128x128.Slices ![6336, 0] S64x128
  slices_S16128x128_o6400_0_S64x128 : S16128x128.Slices ![6400, 0] S64x128
  slices_S16128x128_o6464_0_S64x128 : S16128x128.Slices ![6464, 0] S64x128
  slices_S16128x128_o6528_0_S64x128 : S16128x128.Slices ![6528, 0] S64x128
  slices_S16128x128_o6592_0_S64x128 : S16128x128.Slices ![6592, 0] S64x128
  slices_S16128x128_o6656_0_S64x128 : S16128x128.Slices ![6656, 0] S64x128
  slices_S16128x128_o6720_0_S64x128 : S16128x128.Slices ![6720, 0] S64x128
  slices_S16128x128_o6784_0_S64x128 : S16128x128.Slices ![6784, 0] S64x128
  slices_S16128x128_o6848_0_S64x128 : S16128x128.Slices ![6848, 0] S64x128
  slices_S16128x128_o6912_0_S64x128 : S16128x128.Slices ![6912, 0] S64x128
  slices_S16128x128_o6976_0_S64x128 : S16128x128.Slices ![6976, 0] S64x128
  slices_S16128x128_o7040_0_S64x128 : S16128x128.Slices ![7040, 0] S64x128
  slices_S16128x128_o7104_0_S64x128 : S16128x128.Slices ![7104, 0] S64x128
  slices_S16128x128_o7168_0_S64x128 : S16128x128.Slices ![7168, 0] S64x128
  slices_S16128x128_o7232_0_S64x128 : S16128x128.Slices ![7232, 0] S64x128
  slices_S16128x128_o7296_0_S64x128 : S16128x128.Slices ![7296, 0] S64x128
  slices_S16128x128_o7360_0_S64x128 : S16128x128.Slices ![7360, 0] S64x128
  slices_S16128x128_o7424_0_S64x128 : S16128x128.Slices ![7424, 0] S64x128
  slices_S16128x128_o7488_0_S64x128 : S16128x128.Slices ![7488, 0] S64x128
  slices_S16128x128_o7552_0_S64x128 : S16128x128.Slices ![7552, 0] S64x128
  slices_S16128x128_o7616_0_S64x128 : S16128x128.Slices ![7616, 0] S64x128
  slices_S16128x128_o7680_0_S64x128 : S16128x128.Slices ![7680, 0] S64x128
  slices_S16128x128_o7744_0_S64x128 : S16128x128.Slices ![7744, 0] S64x128
  slices_S16128x128_o7808_0_S64x128 : S16128x128.Slices ![7808, 0] S64x128
  slices_S16128x128_o7872_0_S64x128 : S16128x128.Slices ![7872, 0] S64x128
  slices_S16128x128_o7936_0_S64x128 : S16128x128.Slices ![7936, 0] S64x128
  slices_S16128x128_o8000_0_S64x128 : S16128x128.Slices ![8000, 0] S64x128
  slices_S16128x128_o8064_0_S64x128 : S16128x128.Slices ![8064, 0] S64x128
  slices_S16128x128_o8128_0_S64x128 : S16128x128.Slices ![8128, 0] S64x128
  slices_S16128x128_o8192_0_S64x128 : S16128x128.Slices ![8192, 0] S64x128
  slices_S16128x128_o8256_0_S64x128 : S16128x128.Slices ![8256, 0] S64x128
  slices_S16128x128_o8320_0_S64x128 : S16128x128.Slices ![8320, 0] S64x128
  slices_S16128x128_o8384_0_S64x128 : S16128x128.Slices ![8384, 0] S64x128
  slices_S16128x128_o8448_0_S64x128 : S16128x128.Slices ![8448, 0] S64x128
  slices_S16128x128_o8512_0_S64x128 : S16128x128.Slices ![8512, 0] S64x128
  slices_S16128x128_o8576_0_S64x128 : S16128x128.Slices ![8576, 0] S64x128
  slices_S16128x128_o8640_0_S64x128 : S16128x128.Slices ![8640, 0] S64x128
  slices_S16128x128_o8704_0_S64x128 : S16128x128.Slices ![8704, 0] S64x128
  slices_S16128x128_o8768_0_S64x128 : S16128x128.Slices ![8768, 0] S64x128
  slices_S16128x128_o8832_0_S64x128 : S16128x128.Slices ![8832, 0] S64x128
  slices_S16128x128_o8896_0_S64x128 : S16128x128.Slices ![8896, 0] S64x128
  slices_S16128x128_o8960_0_S64x128 : S16128x128.Slices ![8960, 0] S64x128
  slices_S16128x128_o9024_0_S64x128 : S16128x128.Slices ![9024, 0] S64x128
  slices_S16128x128_o9088_0_S64x128 : S16128x128.Slices ![9088, 0] S64x128
  slices_S16128x128_o9152_0_S64x128 : S16128x128.Slices ![9152, 0] S64x128
  slices_S16128x128_o9216_0_S64x128 : S16128x128.Slices ![9216, 0] S64x128
  slices_S16128x128_o9280_0_S64x128 : S16128x128.Slices ![9280, 0] S64x128
  slices_S16128x128_o9344_0_S64x128 : S16128x128.Slices ![9344, 0] S64x128
  slices_S16128x128_o9408_0_S64x128 : S16128x128.Slices ![9408, 0] S64x128
  slices_S16128x128_o9472_0_S64x128 : S16128x128.Slices ![9472, 0] S64x128
  slices_S16128x128_o9536_0_S64x128 : S16128x128.Slices ![9536, 0] S64x128
  slices_S16128x128_o9600_0_S64x128 : S16128x128.Slices ![9600, 0] S64x128
  slices_S16128x128_o9664_0_S64x128 : S16128x128.Slices ![9664, 0] S64x128
  slices_S16128x128_o9728_0_S64x128 : S16128x128.Slices ![9728, 0] S64x128
  slices_S16128x128_o9792_0_S64x128 : S16128x128.Slices ![9792, 0] S64x128
  slices_S16128x128_o9856_0_S64x128 : S16128x128.Slices ![9856, 0] S64x128
  slices_S16128x128_o9920_0_S64x128 : S16128x128.Slices ![9920, 0] S64x128
  slices_S16128x128_o9984_0_S64x128 : S16128x128.Slices ![9984, 0] S64x128
  slices_S16128x128_o10048_0_S64x128 : S16128x128.Slices ![10048, 0] S64x128
  slices_S16128x128_o10112_0_S64x128 : S16128x128.Slices ![10112, 0] S64x128
  slices_S16128x128_o10176_0_S64x128 : S16128x128.Slices ![10176, 0] S64x128
  slices_S16128x128_o10240_0_S64x128 : S16128x128.Slices ![10240, 0] S64x128
  slices_S16128x128_o10304_0_S64x128 : S16128x128.Slices ![10304, 0] S64x128
  slices_S16128x128_o10368_0_S64x128 : S16128x128.Slices ![10368, 0] S64x128
  slices_S16128x128_o10432_0_S64x128 : S16128x128.Slices ![10432, 0] S64x128
  slices_S16128x128_o10496_0_S64x128 : S16128x128.Slices ![10496, 0] S64x128
  slices_S16128x128_o10560_0_S64x128 : S16128x128.Slices ![10560, 0] S64x128
  slices_S16128x128_o10624_0_S64x128 : S16128x128.Slices ![10624, 0] S64x128
  slices_S16128x128_o10688_0_S64x128 : S16128x128.Slices ![10688, 0] S64x128
  slices_S16128x128_o10752_0_S64x128 : S16128x128.Slices ![10752, 0] S64x128
  slices_S16128x128_o10816_0_S64x128 : S16128x128.Slices ![10816, 0] S64x128
  slices_S16128x128_o10880_0_S64x128 : S16128x128.Slices ![10880, 0] S64x128
  slices_S16128x128_o10944_0_S64x128 : S16128x128.Slices ![10944, 0] S64x128
  slices_S16128x128_o11008_0_S64x128 : S16128x128.Slices ![11008, 0] S64x128
  slices_S16128x128_o11072_0_S64x128 : S16128x128.Slices ![11072, 0] S64x128
  slices_S16128x128_o11136_0_S64x128 : S16128x128.Slices ![11136, 0] S64x128
  slices_S16128x128_o11200_0_S64x128 : S16128x128.Slices ![11200, 0] S64x128
  slices_S16128x128_o11264_0_S64x128 : S16128x128.Slices ![11264, 0] S64x128
  slices_S16128x128_o11328_0_S64x128 : S16128x128.Slices ![11328, 0] S64x128
  slices_S16128x128_o11392_0_S64x128 : S16128x128.Slices ![11392, 0] S64x128
  slices_S16128x128_o11456_0_S64x128 : S16128x128.Slices ![11456, 0] S64x128
  slices_S16128x128_o11520_0_S64x128 : S16128x128.Slices ![11520, 0] S64x128
  slices_S16128x128_o11584_0_S64x128 : S16128x128.Slices ![11584, 0] S64x128
  slices_S16128x128_o11648_0_S64x128 : S16128x128.Slices ![11648, 0] S64x128
  slices_S16128x128_o11712_0_S64x128 : S16128x128.Slices ![11712, 0] S64x128
  slices_S16128x128_o11776_0_S64x128 : S16128x128.Slices ![11776, 0] S64x128
  slices_S16128x128_o11840_0_S64x128 : S16128x128.Slices ![11840, 0] S64x128
  slices_S16128x128_o11904_0_S64x128 : S16128x128.Slices ![11904, 0] S64x128
  slices_S16128x128_o11968_0_S64x128 : S16128x128.Slices ![11968, 0] S64x128
  slices_S16128x128_o12032_0_S64x128 : S16128x128.Slices ![12032, 0] S64x128
  slices_S16128x128_o12096_0_S64x128 : S16128x128.Slices ![12096, 0] S64x128
  slices_S16128x128_o12160_0_S64x128 : S16128x128.Slices ![12160, 0] S64x128
  slices_S16128x128_o12224_0_S64x128 : S16128x128.Slices ![12224, 0] S64x128
  slices_S16128x128_o12288_0_S64x128 : S16128x128.Slices ![12288, 0] S64x128
  slices_S16128x128_o12352_0_S64x128 : S16128x128.Slices ![12352, 0] S64x128
  slices_S16128x128_o12416_0_S64x128 : S16128x128.Slices ![12416, 0] S64x128
  slices_S16128x128_o12480_0_S64x128 : S16128x128.Slices ![12480, 0] S64x128
  slices_S16128x128_o12544_0_S64x128 : S16128x128.Slices ![12544, 0] S64x128
  slices_S16128x128_o12608_0_S64x128 : S16128x128.Slices ![12608, 0] S64x128
  slices_S16128x128_o12672_0_S64x128 : S16128x128.Slices ![12672, 0] S64x128
  slices_S16128x128_o12736_0_S64x128 : S16128x128.Slices ![12736, 0] S64x128
  slices_S16128x128_o12800_0_S64x128 : S16128x128.Slices ![12800, 0] S64x128
  slices_S16128x128_o12864_0_S64x128 : S16128x128.Slices ![12864, 0] S64x128
  slices_S16128x128_o12928_0_S64x128 : S16128x128.Slices ![12928, 0] S64x128
  slices_S16128x128_o12992_0_S64x128 : S16128x128.Slices ![12992, 0] S64x128
  slices_S16128x128_o13056_0_S64x128 : S16128x128.Slices ![13056, 0] S64x128
  slices_S16128x128_o13120_0_S64x128 : S16128x128.Slices ![13120, 0] S64x128
  slices_S16128x128_o13184_0_S64x128 : S16128x128.Slices ![13184, 0] S64x128
  slices_S16128x128_o13248_0_S64x128 : S16128x128.Slices ![13248, 0] S64x128
  slices_S16128x128_o13312_0_S64x128 : S16128x128.Slices ![13312, 0] S64x128
  slices_S16128x128_o13376_0_S64x128 : S16128x128.Slices ![13376, 0] S64x128
  slices_S16128x128_o13440_0_S64x128 : S16128x128.Slices ![13440, 0] S64x128
  slices_S16128x128_o13504_0_S64x128 : S16128x128.Slices ![13504, 0] S64x128
  slices_S16128x128_o13568_0_S64x128 : S16128x128.Slices ![13568, 0] S64x128
  slices_S16128x128_o13632_0_S64x128 : S16128x128.Slices ![13632, 0] S64x128
  slices_S16128x128_o13696_0_S64x128 : S16128x128.Slices ![13696, 0] S64x128
  slices_S16128x128_o13760_0_S64x128 : S16128x128.Slices ![13760, 0] S64x128
  slices_S16128x128_o13824_0_S64x128 : S16128x128.Slices ![13824, 0] S64x128
  slices_S16128x128_o13888_0_S64x128 : S16128x128.Slices ![13888, 0] S64x128
  slices_S16128x128_o13952_0_S64x128 : S16128x128.Slices ![13952, 0] S64x128
  slices_S16128x128_o14016_0_S64x128 : S16128x128.Slices ![14016, 0] S64x128
  slices_S16128x128_o14080_0_S64x128 : S16128x128.Slices ![14080, 0] S64x128
  slices_S16128x128_o14144_0_S64x128 : S16128x128.Slices ![14144, 0] S64x128
  slices_S16128x128_o14208_0_S64x128 : S16128x128.Slices ![14208, 0] S64x128
  slices_S16128x128_o14272_0_S64x128 : S16128x128.Slices ![14272, 0] S64x128
  slices_S16128x128_o14336_0_S64x128 : S16128x128.Slices ![14336, 0] S64x128
  slices_S16128x128_o14400_0_S64x128 : S16128x128.Slices ![14400, 0] S64x128
  slices_S16128x128_o14464_0_S64x128 : S16128x128.Slices ![14464, 0] S64x128
  slices_S16128x128_o14528_0_S64x128 : S16128x128.Slices ![14528, 0] S64x128
  slices_S16128x128_o14592_0_S64x128 : S16128x128.Slices ![14592, 0] S64x128
  slices_S16128x128_o14656_0_S64x128 : S16128x128.Slices ![14656, 0] S64x128
  slices_S16128x128_o14720_0_S64x128 : S16128x128.Slices ![14720, 0] S64x128
  slices_S16128x128_o14784_0_S64x128 : S16128x128.Slices ![14784, 0] S64x128
  slices_S16128x128_o14848_0_S64x128 : S16128x128.Slices ![14848, 0] S64x128
  slices_S16128x128_o14912_0_S64x128 : S16128x128.Slices ![14912, 0] S64x128
  slices_S16128x128_o14976_0_S64x128 : S16128x128.Slices ![14976, 0] S64x128
  slices_S16128x128_o15040_0_S64x128 : S16128x128.Slices ![15040, 0] S64x128
  slices_S16128x128_o15104_0_S64x128 : S16128x128.Slices ![15104, 0] S64x128
  slices_S16128x128_o15168_0_S64x128 : S16128x128.Slices ![15168, 0] S64x128
  slices_S16128x128_o15232_0_S64x128 : S16128x128.Slices ![15232, 0] S64x128
  slices_S16128x128_o15296_0_S64x128 : S16128x128.Slices ![15296, 0] S64x128
  slices_S16128x128_o15360_0_S64x128 : S16128x128.Slices ![15360, 0] S64x128
  slices_S16128x128_o15424_0_S64x128 : S16128x128.Slices ![15424, 0] S64x128
  slices_S16128x128_o15488_0_S64x128 : S16128x128.Slices ![15488, 0] S64x128
  slices_S16128x128_o15552_0_S64x128 : S16128x128.Slices ![15552, 0] S64x128
  slices_S16128x128_o15616_0_S64x128 : S16128x128.Slices ![15616, 0] S64x128
  slices_S16128x128_o15680_0_S64x128 : S16128x128.Slices ![15680, 0] S64x128
  slices_S16128x128_o15744_0_S64x128 : S16128x128.Slices ![15744, 0] S64x128
  slices_S16128x128_o15808_0_S64x128 : S16128x128.Slices ![15808, 0] S64x128
  slices_S16128x128_o15872_0_S64x128 : S16128x128.Slices ![15872, 0] S64x128
  slices_S16128x128_o15936_0_S64x128 : S16128x128.Slices ![15936, 0] S64x128
  slices_S16128x128_o16000_0_S64x128 : S16128x128.Slices ![16000, 0] S64x128
  slices_S16128x128_o16064_0_S64x128 : S16128x128.Slices ![16064, 0] S64x128
  concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x8064_d1 : Shape.Concatenates (S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: S64x128 :: []) S64x8064 1
  inb_S8064x128_S8064x128_0_0 : ∀ a, (![0, 0] : Fin 2 → Nat) a + S8064x128.size a ≤ S8064x128.size a
  h_S8064x128 : 0 < S8064x128.numel
  shapeCasts_S8064x128_S8064x128 : S8064x128.ShapeCasts S8064x128
  broadcasts_S1x128_S64x128 : S1x128.Broadcasts S64x128
  inb_S64x128_S64x128_0_0 : ∀ a, (![0, 0] : Fin 2 → Nat) a + S64x128.size a ≤ S64x128.size a
  h_S64x128 : 0 < S64x128.numel
  slices_S512x128_S512x16_0_0 : S512x128.Slices ![0, 0] S512x16
  dot_S16192x128_S128x256_S16192x256_1_0_0_1_n_n_wf : DotDims.WF S16192x128 S128x256 S16192x256 [1] [0] [0] [1] [] []
  dot_S16128x128_S128x128_S16128x128_1_0_0_1_n_n_wf : DotDims.WF S16128x128 S128x128 S16128x128 [1] [0] [0] [1] [] []
  dot_S64x8064_S8064x128_S64x128_1_0_0_1_n_n_wf : DotDims.WF S64x8064 S8064x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S8x16384x128.size a
  hwx0_0 : ∀ i : grid0.Coords, EltTy.bits .bf16 = 32 ∨ (Rect.block (s := S8x16384x128) S1x16384x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8064x128.size a ≤ S8064x128.size a
  hwx0_5 : ∀ i : grid0.Coords, EltTy.bits .bf16 = 32 ∨ (Rect.block (s := S8064x128) S8064x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S512x128.size a
  hwx0_7 : ∀ i : grid0.Coords, EltTy.bits .f32 = 32 ∨ (Rect.block (s := S512x128) S64x128.size (cc0_transform_7 i) (hinb0_7 i)).WholeWords (EltTy.packing .f32)

variable [Facts₀]

def dot_S16192x128_S128x256_S16192x256_1_0_0_1_n_n : DotDims S16192x128 S128x256 S16192x256 where
  lhsContracting := [1]
  rhsContracting := [0]
  lhsNonContracting := [0]
  rhsNonContracting := [1]
  lhsBatch := []
  rhsBatch := []
  wf := dot_S16192x128_S128x256_S16192x256_1_0_0_1_n_n_wf
def dot_S16128x128_S128x128_S16128x128_1_0_0_1_n_n : DotDims S16128x128 S128x128 S16128x128 where
  lhsContracting := [1]
  rhsContracting := [0]
  lhsNonContracting := [0]
  rhsNonContracting := [1]
  lhsBatch := []
  rhsBatch := []
  wf := dot_S16128x128_S128x128_S16128x128_1_0_0_1_n_n_wf
def dot_S64x8064_S8064x128_S64x128_1_0_0_1_n_n : DotDims S64x8064 S8064x128 S64x128 where
  lhsContracting := [1]
  rhsContracting := [0]
  lhsNonContracting := [0]
  rhsNonContracting := [1]
  lhsBatch := []
  rhsBatch := []
  wf := dot_S64x8064_S8064x128_S64x128_1_0_0_1_n_n_wf

abbrev win0_0 : Pipeline.Window sig grid0 :=
  Pipeline.Window.ofSpec (Memref.whole main_v6) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S8064x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S512x1x256x128 : Shape := ⟨4, ![512, 1, 256, 128]⟩
abbrev S128x1x5x128 : Shape := ⟨4, ![128, 1, 5, 128]⟩
abbrev S128 : Shape := ⟨1, ![128]⟩
abbrev S16x8064 : Shape := ⟨2, ![16, 8064]⟩
abbrev S16 : Shape := ⟨1, ![16]⟩
abbrev S512x1x255x128 : Shape := ⟨4, ![512, 1, 255, 128]⟩
abbrev S512x255x128 : Shape := ⟨3, ![512, 255, 128]⟩
abbrev S_ : Shape := ⟨0, ![]⟩
abbrev S528x256x128 : Shape := ⟨3, ![528, 256, 128]⟩
abbrev S11x48x256x128 : Shape := ⟨4, ![11, 48, 256, 128]⟩
abbrev S11x256x48x128 : Shape := ⟨4, ![11, 256, 48, 128]⟩
abbrev S11x12288x128 : Shape := ⟨3, ![11, 12288, 128]⟩
abbrev S128x5x128 : Shape := ⟨3, ![128, 5, 128]⟩
abbrev S5x128x128 : Shape := ⟨3, ![5, 128, 128]⟩
abbrev S1x128 : Shape := ⟨2, ![1, 128]⟩
abbrev S16x128x63 : Shape := ⟨3, ![16, 128, 63]⟩
abbrev S63x128x16 : Shape := ⟨3, ![63, 128, 16]⟩
abbrev S63x128x128 : Shape := ⟨3, ![63, 128, 128]⟩
abbrev S1x16 : Shape := ⟨2, ![1, 16]⟩
abbrev S528x128 : Shape := ⟨2, ![528, 128]⟩
abbrev S1x12288x128 : Shape := ⟨3, ![1, 12288, 128]⟩
abbrev S48x128 : Shape := ⟨2, ![48, 128]⟩
abbrev S1x12096x128 : Shape := ⟨3, ![1, 12096, 128]⟩
abbrev S12096x128 : Shape := ⟨2, ![12096, 128]⟩
abbrev S1x128x128 : Shape := ⟨3, ![1, 128, 128]⟩
abbrev S128x128 : Shape := ⟨2, ![128, 128]⟩
abbrev S512x16 : Shape := ⟨2, ![512, 16]⟩

abbrev nBuf : Space → Nat
  | .hbm => 36
  | .vmem => 8
  | .smem => 0
  | _ => 0

abbrev bufTy : (tb : Table) → Fin (tcTables nBuf tb) → BufTy
  | .hbm, ⟨0, _⟩ => ⟨S512x1x256x128, .f32⟩
  | .hbm, ⟨1, _⟩ => ⟨S128x1x5x128, .f32⟩
  | .hbm, ⟨2, _⟩ => ⟨S128, .f32⟩
  | .hbm, ⟨3, _⟩ => ⟨S16x8064, .f32⟩
  | .hbm, ⟨4, _⟩ => ⟨S16, .f32⟩
  | .hbm, ⟨5, _⟩ => ⟨S512x1x255x128, .f32⟩
  | .hbm, ⟨6, _⟩ => ⟨S512x255x128, .f32⟩
  | .hbm, ⟨7, _⟩ => ⟨S512x255x128, .bf16⟩
  | .hbm, ⟨8, _⟩ => ⟨S_, .i32⟩
  | .hbm, ⟨9, _⟩ => ⟨S_, .bf16⟩
  | .hbm, ⟨10, _⟩ => ⟨S528x256x128, .bf16⟩
  | .hbm, ⟨11, _⟩ => ⟨S11x48x256x128, .bf16⟩
  | .hbm, ⟨12, _⟩ => ⟨S11x256x48x128, .bf16⟩
  | .hbm, ⟨13, _⟩ => ⟨S11x12288x128, .bf16⟩
  | .hbm, ⟨14, _⟩ => ⟨S128x5x128, .f32⟩
  | .hbm, ⟨15, _⟩ => ⟨S5x128x128, .f32⟩
  | .hbm, ⟨16, _⟩ => ⟨S_, .i32⟩
  | .hbm, ⟨17, _⟩ => ⟨S_, .f32⟩
  | .hbm, ⟨18, _⟩ => ⟨S5x128x128, .f32⟩
  | .hbm, ⟨19, _⟩ => ⟨S5x128x128, .bf16⟩
  | .hbm, ⟨20, _⟩ => ⟨S1x128, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S16x128x63, .f32⟩
  | .hbm, ⟨25, _⟩ => ⟨S63x128x16, .f32⟩
  | .hbm, ⟨26, _⟩ => ⟨S_, .i32⟩
  | .hbm, ⟨27, _⟩ => ⟨S_, .f32⟩
  | .hbm, ⟨28, _⟩ => ⟨S63x128x128, .f32⟩
  | .hbm, ⟨29, _⟩ => ⟨S63x128x128, .bf16⟩
  | .hbm, ⟨30, _⟩ => ⟨S1x16, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S528x128, .f32⟩
  | .hbm, ⟨35, _⟩ => ⟨S512x16, .f32⟩
  | .local _ .vmem, ⟨0, _⟩ => ⟨S1x12288x128, .bf16⟩
  | .local _ .vmem, ⟨1, _⟩ => ⟨S1x12288x128, .bf16⟩
  | .local _ .vmem, ⟨2, _⟩ => ⟨S5x128x128, .bf16⟩
  | .local _ .vmem, ⟨3, _⟩ => ⟨S1x128, .f32⟩
  | .local _ .vmem, ⟨4, _⟩ => ⟨S63x128x128, .bf16⟩
  | .local _ .vmem, ⟨5, _⟩ => ⟨S1x128, .f32⟩
  | .local _ .vmem, ⟨6, _⟩ => ⟨S48x128, .f32⟩
  | .local _ .vmem, ⟨7, _⟩ => ⟨S48x128, .f32⟩
  | _, _ => ⟨S512x1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call4_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x12288x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S63x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x1x256x128_S512x1x255x128_0_0_0_0 : S512x1x256x128.Slices ![0, 0, 0, 0] S512x1x255x128
  shapeCasts_S512x1x255x128_S512x255x128 : S512x1x255x128.ShapeCasts S512x255x128
  bitsLt_bf16_f32 : FTy.bits .bf16 < FTy.bits .f32
  pads_S512x255x128_S528x256x128_0160_100_000 : S512x255x128.Pads (![0, 1, 0] : Fin 3 → Nat) ![16, 0, 0] ![0, 0, 0] S528x256x128
  h_S_ : 0 < S_.numel
  shapeCasts_S528x256x128_S11x48x256x128 : S528x256x128.ShapeCasts S11x48x256x128
  transposes_S11x48x256x128_S11x256x48x128_0_2_1_3 : S11x48x256x128.Transposes [0, 2, 1, 3] S11x256x48x128
  shapeCasts_S11x256x48x128_S11x12288x128 : S11x256x48x128.ShapeCasts S11x12288x128
  shapeCasts_S128x1x5x128_S128x5x128 : S128x1x5x128.ShapeCasts S128x5x128
  transposes_S128x5x128_S5x128x128_1_2_0 : S128x5x128.Transposes [1, 2, 0] S5x128x128
  pads_S5x128x128_S5x128x128_000_000_000 : S5x128x128.Pads (![0, 0, 0] : Fin 3 → Nat) ![0, 0, 0] ![0, 0, 0] S5x128x128
  shapeCasts_S128_S1x128 : S128.ShapeCasts S1x128
  pads_S1x128_S1x128_000_000 : S1x128.Pads (![0, 0] : Fin 2 → Nat) ![0, 0] ![0, 0] S1x128
  shapeCasts_S16x8064_S16x128x63 : S16x8064.ShapeCasts S16x128x63
  transposes_S16x128x63_S63x128x16_2_1_0 : S16x128x63.Transposes [2, 1, 0] S63x128x16
  pads_S63x128x16_S63x128x128_000_000_01120 : S63x128x16.Pads (![0, 0, 0] : Fin 3 → Nat) ![0, 0, 112] ![0, 0, 0] S63x128x128
  shapeCasts_S16_S1x16 : S16.ShapeCasts S1x16
  pads_S1x16_S1x128_000_01120 : S1x16.Pads (![0, 0] : Fin 2 → Nat) ![0, 112] ![0, 0] S1x128
  inb_S1x12288x128_S1x12096x128_0_0_0 : ∀ a, (![0, 0, 0] : Fin 3 → Nat) a + S1x12096x128.size a ≤ S1x12288x128.size a
  h_S1x12096x128 : 0 < S1x12096x128.numel
  shapeCasts_S1x12096x128_S12096x128 : S1x12096x128.ShapeCasts S12096x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S1x12288x128_S1x12096x128_0_48_0 : ∀ a, (![0, 48, 0] : Fin 3 → Nat) a + S1x12096x128.size a ≤ S1x12288x128.size a
  inb_S5x128x128_S1x128x128_1_0_0 : ∀ a, (![1, 0, 0] : Fin 3 → Nat) a + S1x128x128.size a ≤ S5x128x128.size a
  inb_S1x12288x128_S1x12096x128_0_96_0 : ∀ a, (![0, 96, 0] : Fin 3 → Nat) a + S1x12096x128.size a ≤ S1x12288x128.size a
  inb_S5x128x128_S1x128x128_2_0_0 : ∀ a, (![2, 0, 0] : Fin 3 → Nat) a + S1x128x128.size a ≤ S5x128x128.size a
  inb_S1x12288x128_S1x12096x128_0_144_0 : ∀ a, (![0, 144, 0] : Fin 3 → Nat) a + S1x12096x128.size a ≤ S1x12288x128.size a
  inb_S5x128x128_S1x128x128_3_0_0 : ∀ a, (![3, 0, 0] : Fin 3 → Nat) a + S1x128x128.size a ≤ S5x128x128.size a
  inb_S1x12288x128_S1x12096x128_0_192_0 : ∀ a, (![0, 192, 0] : Fin 3 → Nat) a + S1x12096x128.size a ≤ S1x12288x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12096x128 : S1x128.Broadcasts S12096x128
  slices_S12096x128_o0_0_S48x128 : S12096x128.Slices ![0, 0] S48x128
  slices_S12096x128_o48_0_S48x128 : S12096x128.Slices ![48, 0] S48x128
  slices_S12096x128_o96_0_S48x128 : S12096x128.Slices ![96, 0] S48x128
  slices_S12096x128_o144_0_S48x128 : S12096x128.Slices ![144, 0] S48x128
  inb_S63x128x128_S1x128x128_0_0_0 : ∀ a, (![0, 0, 0] : Fin 3 → Nat) a + S1x128x128.size a ≤ S63x128x128.size a
  slices_S12096x128_o192_0_S48x128 : S12096x128.Slices ![192, 0] S48x128
  slices_S12096x128_o240_0_S48x128 : S12096x128.Slices ![240, 0] S48x128
  slices_S12096x128_o288_0_S48x128 : S12096x128.Slices ![288, 0] S48x128
  slices_S12096x128_o336_0_S48x128 : S12096x128.Slices ![336, 0] S48x128
  inb_S63x128x128_S1x128x128_1_0_0 : ∀ a, (![1, 0, 0] : Fin 3 → Nat) a + S1x128x128.size a ≤ S63x128x128.size a
  slices_S12096x128_o384_0_S48x128 : S12096x128.Slices ![384, 0] S48x128
  slices_S12096x128_o432_0_S48x128 : S12096x128.Slices ![432, 0] S48x128
  slices_S12096x128_o480_0_S48x128 : S12096x128.Slices ![480, 0] S48x128
  slices_S12096x128_o528_0_S48x128 : S12096x128.Slices ![528, 0] S48x128
  inb_S63x128x128_S1x128x128_2_0_0 : ∀ a, (![2, 0, 0] : Fin 3 → Nat) a + S1x128x128.size a ≤ S63x128x128.size a
  slices_S12096x128_o576_0_S48x128 : S12096x128.Slices ![576, 0] S48x128
  slices_S12096x128_o624_0_S48x128 : S12096x128.Slices ![624, 0] S48x128
  slices_S12096x128_o672_0_S48x128 : S12096x128.Slices ![672, 0] S48x128
  slices_S12096x128_o720_0_S48x128 : S12096x128.Slices ![720, 0] S48x128
  inb_S63x128x128_S1x128x128_3_0_0 : ∀ a, (![3, 0, 0] : Fin 3 → Nat) a + S1x128x128.size a ≤ S63x128x128.size a
  slices_S12096x128_o768_0_S48x128 : S12096x128.Slices ![768, 0] S48x128
  slices_S12096x128_o816_0_S48x128 : S12096x128.Slices ![816, 0] S48x128
  slices_S12096x128_o864_0_S48x128 : S12096x128.Slices ![864, 0] S48x128
  slices_S12096x128_o912_0_S48x128 : S12096x128.Slices ![912, 0] S48x128
  inb_S63x128x128_S1x128x128_4_0_0 : ∀ a, (![4, 0, 0] : Fin 3 → Nat) a + S1x128x128.size a ≤ S63x128x128.size a
  slices_S12096x128_o960_0_S48x128 : S12096x128.Slices ![960, 0] S48x128
  slices_S12096x128_o1008_0_S48x128 : S12096x128.Slices ![1008, 0] S48x128
  slices_S12096x128_o1056_0_S48x128 : S12096x128.Slices ![1056, 0] S48x128
  slices_S12096x128_o1104_0_S48x128 : S12096x128.Slices ![1104, 0] S48x128
  inb_S63x128x128_S1x128x128_5_0_0 : ∀ a, (![5, 0, 0] : Fin 3 → Nat) a + S1x128x128.size a ≤ S63x128x128.size a
  slices_S12096x128_o1152_0_S48x128 : S12096x128.Slices ![1152, 0] S48x128
  slices_S12096x128_o1200_0_S48x128 : S12096x128.Slices ![1200, 0] S48x128
  slices_S12096x128_o1248_0_S48x128 : S12096x128.Slices ![1248, 0] S48x128
  slices_S12096x128_o1296_0_S48x128 : S12096x128.Slices ![1296, 0] S48x128
  inb_S63x128x128_S1x128x128_6_0_0 : ∀ a, (![6, 0, 0] : Fin 3 → Nat) a + S1x128x128.size a ≤ S63x128x128.size a
  slices_S12096x128_o1344_0_S48x128 : S12096x128.Slices ![1344, 0] S48x128
  slices_S12096x128_o1392_0_S48x128 : S12096x128.Slices ![1392, 0] S48x128
  slices_S12096x128_o1440_0_S48x128 : S12096x128.Slices ![1440, 0] S48x128
  slices_S12096x128_o1488_0_S48x128 : S12096x128.Slices ![1488, 0] S48x128
  inb_S63x128x128_S1x128x128_7_0_0 : ∀ a, (![7, 0, 0] : Fin 3 → Nat) a + S1x128x128.size a ≤ S63x128x128.size a
  slices_S12096x128_o1536_0_S48x128 : S12096x128.Slices ![1536, 0] S48x128
  slices_S12096x128_o1584_0_S48x128 : S12096x128.Slices ![1584, 0] S48x128
  slices_S12096x128_o1632_0_S48x128 : S12096x128.Slices ![1632, 0] S48x128
  slices_S12096x128_o1680_0_S48x128 : S12096x128.Slices ![1680, 0] S48x128
  inb_S63x128x128_S1x128x128_8_0_0 : ∀ a, (![8, 0, 0] : Fin 3 → Nat) a + S1x128x128.size a ≤ S63x128x128.size a
  slices_S12096x128_o1728_0_S48x128 : S12096x128.Slices ![1728, 0] S48x128
  slices_S12096x128_o1776_0_S48x128 : S12096x128.Slices ![1776, 0] S48x128
  slices_S12096x128_o1824_0_S48x128 : S12096x128.Slices ![1824, 0] S48x128
  slices_S12096x128_o1872_0_S48x128 : S12096x128.Slices ![1872, 0] S48x128
  inb_S63x128x128_S1x128x128_9_0_0 : ∀ a, (![9, 0, 0] : Fin 3 → Nat) a + S1x128x128.size a ≤ S63x128x128.size a
  slices_S12096x128_o1920_0_S48x128 : S12096x128.Slices ![1920, 0] S48x128
  slices_S12096x128_o1968_0_S48x128 : S12096x128.Slices ![1968, 0] S48x128
  slices_S12096x128_o2016_0_S48x128 : S12096x128.Slices ![2016, 0] S48x128
  slices_S12096x128_o2064_0_S48x128 : S12096x128.Slices ![2064, 0] S48x128
  inb_S63x128x128_S1x128x128_10_0_0 : ∀ a, (![10, 0, 0] : Fin 3 → Nat) a + S1x128x128.size a ≤ S63x128x128.size a
  slices_S12096x128_o2112_0_S48x128 : S12096x128.Slices ![2112, 0] S48x128
  slices_S12096x128_o2160_0_S48x128 : S12096x128.Slices ![2160, 0] S48x128
  slices_S12096x128_o2208_0_S48x128 : S12096x128.Slices ![2208, 0] S48x128
  slices_S12096x128_o2256_0_S48x128 : S12096x128.Slices ![2256, 0] S48x128
  inb_S63x128x128_S1x128x128_11_0_0 : ∀ a, (![11, 0, 0] : Fin 3 → Nat) a + S1x128x128.size a ≤ S63x128x128.size a
  slices_S12096x128_o2304_0_S48x128 : S12096x128.Slices ![2304, 0] S48x128
  slices_S12096x128_o2352_0_S48x128 : S12096x128.Slices ![2352, 0] S48x128
  slices_S12096x128_o2400_0_S48x128 : S12096x128.Slices ![2400, 0] S48x128
  slices_S12096x128_o2448_0_S48x128 : S12096x128.Slices ![2448, 0] S48x128
  inb_S63x128x128_S1x128x128_12_0_0 : ∀ a, (![12, 0, 0] : Fin 3 → Nat) a + S1x128x128.size a ≤ S63x128x128.size a
  slices_S12096x128_o2496_0_S48x128 : S12096x128.Slices ![2496, 0] S48x128
  slices_S12096x128_o2544_0_S48x128 : S12096x128.Slices ![2544, 0] S48x128
  slices_S12096x128_o2592_0_S48x128 : S12096x128.Slices ![2592, 0] S48x128
  slices_S12096x128_o2640_0_S48x128 : S12096x128.Slices ![2640, 0] S48x128
  inb_S63x128x128_S1x128x128_13_0_0 : ∀ a, (![13, 0, 0] : Fin 3 → Nat) a + S1x128x128.size a ≤ S63x128x128.size a
  slices_S12096x128_o2688_0_S48x128 : S12096x128.Slices ![2688, 0] S48x128
  slices_S12096x128_o2736_0_S48x128 : S12096x128.Slices ![2736, 0] S48x128
  slices_S12096x128_o2784_0_S48x128 : S12096x128.Slices ![2784, 0] S48x128
  slices_S12096x128_o2832_0_S48x128 : S12096x128.Slices ![2832, 0] S48x128
  inb_S63x128x128_S1x128x128_14_0_0 : ∀ a, (![14, 0, 0] : Fin 3 → Nat) a + S1x128x128.size a ≤ S63x128x128.size a
  slices_S12096x128_o2880_0_S48x128 : S12096x128.Slices ![2880, 0] S48x128
  slices_S12096x128_o2928_0_S48x128 : S12096x128.Slices ![2928, 0] S48x128
  slices_S12096x128_o2976_0_S48x128 : S12096x128.Slices ![2976, 0] S48x128
  slices_S12096x128_o3024_0_S48x128 : S12096x128.Slices ![3024, 0] S48x128
  inb_S63x128x128_S1x128x128_15_0_0 : ∀ a, (![15, 0, 0] : Fin 3 → Nat) a + S1x128x128.size a ≤ S63x128x128.size a
  slices_S12096x128_o3072_0_S48x128 : S12096x128.Slices ![3072, 0] S48x128
  slices_S12096x128_o3120_0_S48x128 : S12096x128.Slices ![3120, 0] S48x128
  slices_S12096x128_o3168_0_S48x128 : S12096x128.Slices ![3168, 0] S48x128
  slices_S12096x128_o3216_0_S48x128 : S12096x128.Slices ![3216, 0] S48x128
  inb_S63x128x128_S1x128x128_16_0_0 : ∀ a, (![16, 0, 0] : Fin 3 → Nat) a + S1x128x128.size a ≤ S63x128x128.size a
  slices_S12096x128_o3264_0_S48x128 : S12096x128.Slices ![3264, 0] S48x128
  slices_S12096x128_o3312_0_S48x128 : S12096x128.Slices ![3312, 0] S48x128
  slices_S12096x128_o3360_0_S48x128 : S12096x128.Slices ![3360, 0] S48x128
  slices_S12096x128_o3408_0_S48x128 : S12096x128.Slices ![3408, 0] S48x128
  inb_S63x128x128_S1x128x128_17_0_0 : ∀ a, (![17, 0, 0] : Fin 3 → Nat) a + S1x128x128.size a ≤ S63x128x128.size a
  slices_S12096x128_o3456_0_S48x128 : S12096x128.Slices ![3456, 0] S48x128
  slices_S12096x128_o3504_0_S48x128 : S12096x128.Slices ![3504, 0] S48x128
  slices_S12096x128_o3552_0_S48x128 : S12096x128.Slices ![3552, 0] S48x128
  slices_S12096x128_o3600_0_S48x128 : S12096x128.Slices ![3600, 0] S48x128
  inb_S63x128x128_S1x128x128_18_0_0 : ∀ a, (![18, 0, 0] : Fin 3 → Nat) a + S1x128x128.size a ≤ S63x128x128.size a
  slices_S12096x128_o3648_0_S48x128 : S12096x128.Slices ![3648, 0] S48x128
  slices_S12096x128_o3696_0_S48x128 : S12096x128.Slices ![3696, 0] S48x128
  slices_S12096x128_o3744_0_S48x128 : S12096x128.Slices ![3744, 0] S48x128
  slices_S12096x128_o3792_0_S48x128 : S12096x128.Slices ![3792, 0] S48x128
  inb_S63x128x128_S1x128x128_19_0_0 : ∀ a, (![19, 0, 0] : Fin 3 → Nat) a + S1x128x128.size a ≤ S63x128x128.size a
  slices_S12096x128_o3840_0_S48x128 : S12096x128.Slices ![3840, 0] S48x128
  slices_S12096x128_o3888_0_S48x128 : S12096x128.Slices ![3888, 0] S48x128
  slices_S12096x128_o3936_0_S48x128 : S12096x128.Slices ![3936, 0] S48x128
  slices_S12096x128_o3984_0_S48x128 : S12096x128.Slices ![3984, 0] S48x128
  inb_S63x128x128_S1x128x128_20_0_0 : ∀ a, (![20, 0, 0] : Fin 3 → Nat) a + S1x128x128.size a ≤ S63x128x128.size a
  slices_S12096x128_o4032_0_S48x128 : S12096x128.Slices ![4032, 0] S48x128
  slices_S12096x128_o4080_0_S48x128 : S12096x128.Slices ![4080, 0] S48x128
  slices_S12096x128_o4128_0_S48x128 : S12096x128.Slices ![4128, 0] S48x128
  slices_S12096x128_o4176_0_S48x128 : S12096x128.Slices ![4176, 0] S48x128
  inb_S63x128x128_S1x128x128_21_0_0 : ∀ a, (![21, 0, 0] : Fin 3 → Nat) a + S1x128x128.size a ≤ S63x128x128.size a
  slices_S12096x128_o4224_0_S48x128 : S12096x128.Slices ![4224, 0] S48x128
  slices_S12096x128_o4272_0_S48x128 : S12096x128.Slices ![4272, 0] S48x128
  slices_S12096x128_o4320_0_S48x128 : S12096x128.Slices ![4320, 0] S48x128
  slices_S12096x128_o4368_0_S48x128 : S12096x128.Slices ![4368, 0] S48x128
  inb_S63x128x128_S1x128x128_22_0_0 : ∀ a, (![22, 0, 0] : Fin 3 → Nat) a + S1x128x128.size a ≤ S63x128x128.size a
  slices_S12096x128_o4416_0_S48x128 : S12096x128.Slices ![4416, 0] S48x128
  slices_S12096x128_o4464_0_S48x128 : S12096x128.Slices ![4464, 0] S48x128
  slices_S12096x128_o4512_0_S48x128 : S12096x128.Slices ![4512, 0] S48x128
  slices_S12096x128_o4560_0_S48x128 : S12096x128.Slices ![4560, 0] S48x128
  inb_S63x128x128_S1x128x128_23_0_0 : ∀ a, (![23, 0, 0] : Fin 3 → Nat) a + S1x128x128.size a ≤ S63x128x128.size a
  slices_S12096x128_o4608_0_S48x128 : S12096x128.Slices ![4608, 0] S48x128
  slices_S12096x128_o4656_0_S48x128 : S12096x128.Slices ![4656, 0] S48x128
  slices_S12096x128_o4704_0_S48x128 : S12096x128.Slices ![4704, 0] S48x128
  slices_S12096x128_o4752_0_S48x128 : S12096x128.Slices ![4752, 0] S48x128
  inb_S63x128x128_S1x128x128_24_0_0 : ∀ a, (![24, 0, 0] : Fin 3 → Nat) a + S1x128x128.size a ≤ S63x128x128.size a
  slices_S12096x128_o4800_0_S48x128 : S12096x128.Slices ![4800, 0] S48x128
  slices_S12096x128_o4848_0_S48x128 : S12096x128.Slices ![4848, 0] S48x128
  slices_S12096x128_o4896_0_S48x128 : S12096x128.Slices ![4896, 0] S48x128
  slices_S12096x128_o4944_0_S48x128 : S12096x128.Slices ![4944, 0] S48x128
  inb_S63x128x128_S1x128x128_25_0_0 : ∀ a, (![25, 0, 0] : Fin 3 → Nat) a + S1x128x128.size a ≤ S63x128x128.size a
  slices_S12096x128_o4992_0_S48x128 : S12096x128.Slices ![4992, 0] S48x128
  slices_S12096x128_o5040_0_S48x128 : S12096x128.Slices ![5040, 0] S48x128
  slices_S12096x128_o5088_0_S48x128 : S12096x128.Slices ![5088, 0] S48x128
  slices_S12096x128_o5136_0_S48x128 : S12096x128.Slices ![5136, 0] S48x128
  inb_S63x128x128_S1x128x128_26_0_0 : ∀ a, (![26, 0, 0] : Fin 3 → Nat) a + S1x128x128.size a ≤ S63x128x128.size a
  slices_S12096x128_o5184_0_S48x128 : S12096x128.Slices ![5184, 0] S48x128
  slices_S12096x128_o5232_0_S48x128 : S12096x128.Slices ![5232, 0] S48x128
  slices_S12096x128_o5280_0_S48x128 : S12096x128.Slices ![5280, 0] S48x128
  slices_S12096x128_o5328_0_S48x128 : S12096x128.Slices ![5328, 0] S48x128
  inb_S63x128x128_S1x128x128_27_0_0 : ∀ a, (![27, 0, 0] : Fin 3 → Nat) a + S1x128x128.size a ≤ S63x128x128.size a
  slices_S12096x128_o5376_0_S48x128 : S12096x128.Slices ![5376, 0] S48x128
  slices_S12096x128_o5424_0_S48x128 : S12096x128.Slices ![5424, 0] S48x128
  slices_S12096x128_o5472_0_S48x128 : S12096x128.Slices ![5472, 0] S48x128
  slices_S12096x128_o5520_0_S48x128 : S12096x128.Slices ![5520, 0] S48x128
  inb_S63x128x128_S1x128x128_28_0_0 : ∀ a, (![28, 0, 0] : Fin 3 → Nat) a + S1x128x128.size a ≤ S63x128x128.size a
  slices_S12096x128_o5568_0_S48x128 : S12096x128.Slices ![5568, 0] S48x128
  slices_S12096x128_o5616_0_S48x128 : S12096x128.Slices ![5616, 0] S48x128
  slices_S12096x128_o5664_0_S48x128 : S12096x128.Slices ![5664, 0] S48x128
  slices_S12096x128_o5712_0_S48x128 : S12096x128.Slices ![5712, 0] S48x128
  inb_S63x128x128_S1x128x128_29_0_0 : ∀ a, (![29, 0, 0] : Fin 3 → Nat) a + S1x128x128.size a ≤ S63x128x128.size a
  slices_S12096x128_o5760_0_S48x128 : S12096x128.Slices ![5760, 0] S48x128
  slices_S12096x128_o5808_0_S48x128 : S12096x128.Slices ![5808, 0] S48x128
  slices_S12096x128_o5856_0_S48x128 : S12096x128.Slices ![5856, 0] S48x128
  slices_S12096x128_o5904_0_S48x128 : S12096x128.Slices ![5904, 0] S48x128
  inb_S63x128x128_S1x128x128_30_0_0 : ∀ a, (![30, 0, 0] : Fin 3 → Nat) a + S1x128x128.size a ≤ S63x128x128.size a
  slices_S12096x128_o5952_0_S48x128 : S12096x128.Slices ![5952, 0] S48x128
  slices_S12096x128_o6000_0_S48x128 : S12096x128.Slices ![6000, 0] S48x128
  slices_S12096x128_o6048_0_S48x128 : S12096x128.Slices ![6048, 0] S48x128
  slices_S12096x128_o6096_0_S48x128 : S12096x128.Slices ![6096, 0] S48x128
  inb_S63x128x128_S1x128x128_31_0_0 : ∀ a, (![31, 0, 0] : Fin 3 → Nat) a + S1x128x128.size a ≤ S63x128x128.size a
  slices_S12096x128_o6144_0_S48x128 : S12096x128.Slices ![6144, 0] S48x128
  slices_S12096x128_o6192_0_S48x128 : S12096x128.Slices ![6192, 0] S48x128
  slices_S12096x128_o6240_0_S48x128 : S12096x128.Slices ![6240, 0] S48x128
  slices_S12096x128_o6288_0_S48x128 : S12096x128.Slices ![6288, 0] S48x128
  inb_S63x128x128_S1x128x128_32_0_0 : ∀ a, (![32, 0, 0] : Fin 3 → Nat) a + S1x128x128.size a ≤ S63x128x128.size a
  slices_S12096x128_o6336_0_S48x128 : S12096x128.Slices ![6336, 0] S48x128
  slices_S12096x128_o6384_0_S48x128 : S12096x128.Slices ![6384, 0] S48x128
  slices_S12096x128_o6432_0_S48x128 : S12096x128.Slices ![6432, 0] S48x128
  slices_S12096x128_o6480_0_S48x128 : S12096x128.Slices ![6480, 0] S48x128
  inb_S63x128x128_S1x128x128_33_0_0 : ∀ a, (![33, 0, 0] : Fin 3 → Nat) a + S1x128x128.size a ≤ S63x128x128.size a
  slices_S12096x128_o6528_0_S48x128 : S12096x128.Slices ![6528, 0] S48x128
  slices_S12096x128_o6576_0_S48x128 : S12096x128.Slices ![6576, 0] S48x128
  slices_S12096x128_o6624_0_S48x128 : S12096x128.Slices ![6624, 0] S48x128
  slices_S12096x128_o6672_0_S48x128 : S12096x128.Slices ![6672, 0] S48x128
  inb_S63x128x128_S1x128x128_34_0_0 : ∀ a, (![34, 0, 0] : Fin 3 → Nat) a + S1x128x128.size a ≤ S63x128x128.size a
  slices_S12096x128_o6720_0_S48x128 : S12096x128.Slices ![6720, 0] S48x128
  slices_S12096x128_o6768_0_S48x128 : S12096x128.Slices ![6768, 0] S48x128
  slices_S12096x128_o6816_0_S48x128 : S12096x128.Slices ![6816, 0] S48x128
  slices_S12096x128_o6864_0_S48x128 : S12096x128.Slices ![6864, 0] S48x128
  inb_S63x128x128_S1x128x128_35_0_0 : ∀ a, (![35, 0, 0] : Fin 3 → Nat) a + S1x128x128.size a ≤ S63x128x128.size a
  slices_S12096x128_o6912_0_S48x128 : S12096x128.Slices ![6912, 0] S48x128
  slices_S12096x128_o6960_0_S48x128 : S12096x128.Slices ![6960, 0] S48x128
  slices_S12096x128_o7008_0_S48x128 : S12096x128.Slices ![7008, 0] S48x128
  slices_S12096x128_o7056_0_S48x128 : S12096x128.Slices ![7056, 0] S48x128
  inb_S63x128x128_S1x128x128_36_0_0 : ∀ a, (![36, 0, 0] : Fin 3 → Nat) a + S1x128x128.size a ≤ S63x128x128.size a
  slices_S12096x128_o7104_0_S48x128 : S12096x128.Slices ![7104, 0] S48x128
  slices_S12096x128_o7152_0_S48x128 : S12096x128.Slices ![7152, 0] S48x128
  slices_S12096x128_o7200_0_S48x128 : S12096x128.Slices ![7200, 0] S48x128
  slices_S12096x128_o7248_0_S48x128 : S12096x128.Slices ![7248, 0] S48x128
  inb_S63x128x128_S1x128x128_37_0_0 : ∀ a, (![37, 0, 0] : Fin 3 → Nat) a + S1x128x128.size a ≤ S63x128x128.size a
  slices_S12096x128_o7296_0_S48x128 : S12096x128.Slices ![7296, 0] S48x128
  slices_S12096x128_o7344_0_S48x128 : S12096x128.Slices ![7344, 0] S48x128
  slices_S12096x128_o7392_0_S48x128 : S12096x128.Slices ![7392, 0] S48x128
  slices_S12096x128_o7440_0_S48x128 : S12096x128.Slices ![7440, 0] S48x128
  inb_S63x128x128_S1x128x128_38_0_0 : ∀ a, (![38, 0, 0] : Fin 3 → Nat) a + S1x128x128.size a ≤ S63x128x128.size a
  slices_S12096x128_o7488_0_S48x128 : S12096x128.Slices ![7488, 0] S48x128
  slices_S12096x128_o7536_0_S48x128 : S12096x128.Slices ![7536, 0] S48x128
  slices_S12096x128_o7584_0_S48x128 : S12096x128.Slices ![7584, 0] S48x128
  slices_S12096x128_o7632_0_S48x128 : S12096x128.Slices ![7632, 0] S48x128
  inb_S63x128x128_S1x128x128_39_0_0 : ∀ a, (![39, 0, 0] : Fin 3 → Nat) a + S1x128x128.size a ≤ S63x128x128.size a
  slices_S12096x128_o7680_0_S48x128 : S12096x128.Slices ![7680, 0] S48x128
  slices_S12096x128_o7728_0_S48x128 : S12096x128.Slices ![7728, 0] S48x128
  slices_S12096x128_o7776_0_S48x128 : S12096x128.Slices ![7776, 0] S48x128
  slices_S12096x128_o7824_0_S48x128 : S12096x128.Slices ![7824, 0] S48x128
  inb_S63x128x128_S1x128x128_40_0_0 : ∀ a, (![40, 0, 0] : Fin 3 → Nat) a + S1x128x128.size a ≤ S63x128x128.size a
  slices_S12096x128_o7872_0_S48x128 : S12096x128.Slices ![7872, 0] S48x128
  slices_S12096x128_o7920_0_S48x128 : S12096x128.Slices ![7920, 0] S48x128
  slices_S12096x128_o7968_0_S48x128 : S12096x128.Slices ![7968, 0] S48x128
  slices_S12096x128_o8016_0_S48x128 : S12096x128.Slices ![8016, 0] S48x128
  inb_S63x128x128_S1x128x128_41_0_0 : ∀ a, (![41, 0, 0] : Fin 3 → Nat) a + S1x128x128.size a ≤ S63x128x128.size a
  slices_S12096x128_o8064_0_S48x128 : S12096x128.Slices ![8064, 0] S48x128
  slices_S12096x128_o8112_0_S48x128 : S12096x128.Slices ![8112, 0] S48x128
  slices_S12096x128_o8160_0_S48x128 : S12096x128.Slices ![8160, 0] S48x128
  slices_S12096x128_o8208_0_S48x128 : S12096x128.Slices ![8208, 0] S48x128
  inb_S63x128x128_S1x128x128_42_0_0 : ∀ a, (![42, 0, 0] : Fin 3 → Nat) a + S1x128x128.size a ≤ S63x128x128.size a
  slices_S12096x128_o8256_0_S48x128 : S12096x128.Slices ![8256, 0] S48x128
  slices_S12096x128_o8304_0_S48x128 : S12096x128.Slices ![8304, 0] S48x128
  slices_S12096x128_o8352_0_S48x128 : S12096x128.Slices ![8352, 0] S48x128
  slices_S12096x128_o8400_0_S48x128 : S12096x128.Slices ![8400, 0] S48x128
  inb_S63x128x128_S1x128x128_43_0_0 : ∀ a, (![43, 0, 0] : Fin 3 → Nat) a + S1x128x128.size a ≤ S63x128x128.size a
  slices_S12096x128_o8448_0_S48x128 : S12096x128.Slices ![8448, 0] S48x128
  slices_S12096x128_o8496_0_S48x128 : S12096x128.Slices ![8496, 0] S48x128
  slices_S12096x128_o8544_0_S48x128 : S12096x128.Slices ![8544, 0] S48x128
  slices_S12096x128_o8592_0_S48x128 : S12096x128.Slices ![8592, 0] S48x128
  inb_S63x128x128_S1x128x128_44_0_0 : ∀ a, (![44, 0, 0] : Fin 3 → Nat) a + S1x128x128.size a ≤ S63x128x128.size a
  slices_S12096x128_o8640_0_S48x128 : S12096x128.Slices ![8640, 0] S48x128
  slices_S12096x128_o8688_0_S48x128 : S12096x128.Slices ![8688, 0] S48x128
  slices_S12096x128_o8736_0_S48x128 : S12096x128.Slices ![8736, 0] S48x128
  slices_S12096x128_o8784_0_S48x128 : S12096x128.Slices ![8784, 0] S48x128
  inb_S63x128x128_S1x128x128_45_0_0 : ∀ a, (![45, 0, 0] : Fin 3 → Nat) a + S1x128x128.size a ≤ S63x128x128.size a
  slices_S12096x128_o8832_0_S48x128 : S12096x128.Slices ![8832, 0] S48x128
  slices_S12096x128_o8880_0_S48x128 : S12096x128.Slices ![8880, 0] S48x128
  slices_S12096x128_o8928_0_S48x128 : S12096x128.Slices ![8928, 0] S48x128
  slices_S12096x128_o8976_0_S48x128 : S12096x128.Slices ![8976, 0] S48x128
  inb_S63x128x128_S1x128x128_46_0_0 : ∀ a, (![46, 0, 0] : Fin 3 → Nat) a + S1x128x128.size a ≤ S63x128x128.size a
  slices_S12096x128_o9024_0_S48x128 : S12096x128.Slices ![9024, 0] S48x128
  slices_S12096x128_o9072_0_S48x128 : S12096x128.Slices ![9072, 0] S48x128
  slices_S12096x128_o9120_0_S48x128 : S12096x128.Slices ![9120, 0] S48x128
  slices_S12096x128_o9168_0_S48x128 : S12096x128.Slices ![9168, 0] S48x128
  inb_S63x128x128_S1x128x128_47_0_0 : ∀ a, (![47, 0, 0] : Fin 3 → Nat) a + S1x128x128.size a ≤ S63x128x128.size a
  slices_S12096x128_o9216_0_S48x128 : S12096x128.Slices ![9216, 0] S48x128
  slices_S12096x128_o9264_0_S48x128 : S12096x128.Slices ![9264, 0] S48x128
  slices_S12096x128_o9312_0_S48x128 : S12096x128.Slices ![9312, 0] S48x128
  slices_S12096x128_o9360_0_S48x128 : S12096x128.Slices ![9360, 0] S48x128
  inb_S63x128x128_S1x128x128_48_0_0 : ∀ a, (![48, 0, 0] : Fin 3 → Nat) a + S1x128x128.size a ≤ S63x128x128.size a
  slices_S12096x128_o9408_0_S48x128 : S12096x128.Slices ![9408, 0] S48x128
  slices_S12096x128_o9456_0_S48x128 : S12096x128.Slices ![9456, 0] S48x128
  slices_S12096x128_o9504_0_S48x128 : S12096x128.Slices ![9504, 0] S48x128
  slices_S12096x128_o9552_0_S48x128 : S12096x128.Slices ![9552, 0] S48x128
  inb_S63x128x128_S1x128x128_49_0_0 : ∀ a, (![49, 0, 0] : Fin 3 → Nat) a + S1x128x128.size a ≤ S63x128x128.size a
  slices_S12096x128_o9600_0_S48x128 : S12096x128.Slices ![9600, 0] S48x128
  slices_S12096x128_o9648_0_S48x128 : S12096x128.Slices ![9648, 0] S48x128
  slices_S12096x128_o9696_0_S48x128 : S12096x128.Slices ![9696, 0] S48x128
  slices_S12096x128_o9744_0_S48x128 : S12096x128.Slices ![9744, 0] S48x128
  inb_S63x128x128_S1x128x128_50_0_0 : ∀ a, (![50, 0, 0] : Fin 3 → Nat) a + S1x128x128.size a ≤ S63x128x128.size a
  slices_S12096x128_o9792_0_S48x128 : S12096x128.Slices ![9792, 0] S48x128
  slices_S12096x128_o9840_0_S48x128 : S12096x128.Slices ![9840, 0] S48x128
  slices_S12096x128_o9888_0_S48x128 : S12096x128.Slices ![9888, 0] S48x128
  slices_S12096x128_o9936_0_S48x128 : S12096x128.Slices ![9936, 0] S48x128
  inb_S63x128x128_S1x128x128_51_0_0 : ∀ a, (![51, 0, 0] : Fin 3 → Nat) a + S1x128x128.size a ≤ S63x128x128.size a
  slices_S12096x128_o9984_0_S48x128 : S12096x128.Slices ![9984, 0] S48x128
  slices_S12096x128_o10032_0_S48x128 : S12096x128.Slices ![10032, 0] S48x128
  slices_S12096x128_o10080_0_S48x128 : S12096x128.Slices ![10080, 0] S48x128
  slices_S12096x128_o10128_0_S48x128 : S12096x128.Slices ![10128, 0] S48x128
  inb_S63x128x128_S1x128x128_52_0_0 : ∀ a, (![52, 0, 0] : Fin 3 → Nat) a + S1x128x128.size a ≤ S63x128x128.size a
  slices_S12096x128_o10176_0_S48x128 : S12096x128.Slices ![10176, 0] S48x128
  slices_S12096x128_o10224_0_S48x128 : S12096x128.Slices ![10224, 0] S48x128
  slices_S12096x128_o10272_0_S48x128 : S12096x128.Slices ![10272, 0] S48x128
  slices_S12096x128_o10320_0_S48x128 : S12096x128.Slices ![10320, 0] S48x128
  inb_S63x128x128_S1x128x128_53_0_0 : ∀ a, (![53, 0, 0] : Fin 3 → Nat) a + S1x128x128.size a ≤ S63x128x128.size a
  slices_S12096x128_o10368_0_S48x128 : S12096x128.Slices ![10368, 0] S48x128
  slices_S12096x128_o10416_0_S48x128 : S12096x128.Slices ![10416, 0] S48x128
  slices_S12096x128_o10464_0_S48x128 : S12096x128.Slices ![10464, 0] S48x128
  slices_S12096x128_o10512_0_S48x128 : S12096x128.Slices ![10512, 0] S48x128
  inb_S63x128x128_S1x128x128_54_0_0 : ∀ a, (![54, 0, 0] : Fin 3 → Nat) a + S1x128x128.size a ≤ S63x128x128.size a
  slices_S12096x128_o10560_0_S48x128 : S12096x128.Slices ![10560, 0] S48x128
  slices_S12096x128_o10608_0_S48x128 : S12096x128.Slices ![10608, 0] S48x128
  slices_S12096x128_o10656_0_S48x128 : S12096x128.Slices ![10656, 0] S48x128
  slices_S12096x128_o10704_0_S48x128 : S12096x128.Slices ![10704, 0] S48x128
  inb_S63x128x128_S1x128x128_55_0_0 : ∀ a, (![55, 0, 0] : Fin 3 → Nat) a + S1x128x128.size a ≤ S63x128x128.size a
  slices_S12096x128_o10752_0_S48x128 : S12096x128.Slices ![10752, 0] S48x128
  slices_S12096x128_o10800_0_S48x128 : S12096x128.Slices ![10800, 0] S48x128
  slices_S12096x128_o10848_0_S48x128 : S12096x128.Slices ![10848, 0] S48x128
  slices_S12096x128_o10896_0_S48x128 : S12096x128.Slices ![10896, 0] S48x128
  inb_S63x128x128_S1x128x128_56_0_0 : ∀ a, (![56, 0, 0] : Fin 3 → Nat) a + S1x128x128.size a ≤ S63x128x128.size a
  slices_S12096x128_o10944_0_S48x128 : S12096x128.Slices ![10944, 0] S48x128
  slices_S12096x128_o10992_0_S48x128 : S12096x128.Slices ![10992, 0] S48x128
  slices_S12096x128_o11040_0_S48x128 : S12096x128.Slices ![11040, 0] S48x128
  slices_S12096x128_o11088_0_S48x128 : S12096x128.Slices ![11088, 0] S48x128
  inb_S63x128x128_S1x128x128_57_0_0 : ∀ a, (![57, 0, 0] : Fin 3 → Nat) a + S1x128x128.size a ≤ S63x128x128.size a
  slices_S12096x128_o11136_0_S48x128 : S12096x128.Slices ![11136, 0] S48x128
  slices_S12096x128_o11184_0_S48x128 : S12096x128.Slices ![11184, 0] S48x128
  slices_S12096x128_o11232_0_S48x128 : S12096x128.Slices ![11232, 0] S48x128
  slices_S12096x128_o11280_0_S48x128 : S12096x128.Slices ![11280, 0] S48x128
  inb_S63x128x128_S1x128x128_58_0_0 : ∀ a, (![58, 0, 0] : Fin 3 → Nat) a + S1x128x128.size a ≤ S63x128x128.size a
  slices_S12096x128_o11328_0_S48x128 : S12096x128.Slices ![11328, 0] S48x128
  slices_S12096x128_o11376_0_S48x128 : S12096x128.Slices ![11376, 0] S48x128
  slices_S12096x128_o11424_0_S48x128 : S12096x128.Slices ![11424, 0] S48x128
  slices_S12096x128_o11472_0_S48x128 : S12096x128.Slices ![11472, 0] S48x128
  inb_S63x128x128_S1x128x128_59_0_0 : ∀ a, (![59, 0, 0] : Fin 3 → Nat) a + S1x128x128.size a ≤ S63x128x128.size a
  slices_S12096x128_o11520_0_S48x128 : S12096x128.Slices ![11520, 0] S48x128
  slices_S12096x128_o11568_0_S48x128 : S12096x128.Slices ![11568, 0] S48x128
  slices_S12096x128_o11616_0_S48x128 : S12096x128.Slices ![11616, 0] S48x128
  slices_S12096x128_o11664_0_S48x128 : S12096x128.Slices ![11664, 0] S48x128
  inb_S63x128x128_S1x128x128_60_0_0 : ∀ a, (![60, 0, 0] : Fin 3 → Nat) a + S1x128x128.size a ≤ S63x128x128.size a
  slices_S12096x128_o11712_0_S48x128 : S12096x128.Slices ![11712, 0] S48x128
  slices_S12096x128_o11760_0_S48x128 : S12096x128.Slices ![11760, 0] S48x128
  slices_S12096x128_o11808_0_S48x128 : S12096x128.Slices ![11808, 0] S48x128
  slices_S12096x128_o11856_0_S48x128 : S12096x128.Slices ![11856, 0] S48x128
  inb_S63x128x128_S1x128x128_61_0_0 : ∀ a, (![61, 0, 0] : Fin 3 → Nat) a + S1x128x128.size a ≤ S63x128x128.size a
  slices_S12096x128_o11904_0_S48x128 : S12096x128.Slices ![11904, 0] S48x128
  slices_S12096x128_o11952_0_S48x128 : S12096x128.Slices ![11952, 0] S48x128
  slices_S12096x128_o12000_0_S48x128 : S12096x128.Slices ![12000, 0] S48x128
  slices_S12096x128_o12048_0_S48x128 : S12096x128.Slices ![12048, 0] S48x128
  inb_S63x128x128_S1x128x128_62_0_0 : ∀ a, (![62, 0, 0] : Fin 3 → Nat) a + S1x128x128.size a ≤ S63x128x128.size a
  broadcasts_S1x128_S48x128 : S1x128.Broadcasts S48x128
  inb_S48x128_S48x128_0_0 : ∀ a, (![0, 0] : Fin 2 → Nat) a + S48x128.size a ≤ S48x128.size a
  h_S48x128 : 0 < S48x128.numel
  slices_S528x128_S512x16_0_0 : S528x128.Slices ![0, 0] S512x16
  dot_S12096x128_S128x128_S12096x128_1_0_0_1_n_n_wf : DotDims.WF S12096x128 S128x128 S12096x128 [1] [0] [0] [1] [] []
  dot_S48x128_S128x128_S48x128_1_0_0_1_n_n_wf : DotDims.WF S48x128 S128x128 S48x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12288x128.size a ≤ S11x12288x128.size a
  hwx0_0 : ∀ i : grid0.Coords, EltTy.bits .bf16 = 32 ∨ (Rect.block (s := S11x12288x128) S1x12288x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128x128.size a ≤ S5x128x128.size a
  hwx0_1 : ∀ i : grid0.Coords, EltTy.bits .bf16 = 32 ∨ (Rect.block (s := S5x128x128) S5x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S63x128x128.size a ≤ S63x128x128.size a
  hwx0_3 : ∀ i : grid0.Coords, EltTy.bits .bf16 = 32 ∨ (Rect.block (s := S63x128x128) S63x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S48x128.size a ≤ S528x128.size a
  hwx0_5 : ∀ i : grid0.Coords, EltTy.bits .f32 = 32 ∨ (Rect.block (s := S528x128) S48x128.size (cc0_transform_5 i) (hinb0_5 i)).WholeWords (EltTy.packing .f32)

variable [Facts₀]

def dot_S12096x128_S128x128_S12096x128_1_0_0_1_n_n : DotDims S12096x128 S128x128 S12096x128 where
  lhsContracting := [1]
  rhsContracting := [0]
  lhsNonContracting := [0]
  rhsNonContracting := [1]
  lhsBatch := []
  rhsBatch := []
  wf := dot_S12096x128_S128x128_S12096x128_1_0_0_1_n_n_wf
def dot_S48x128_S128x128_S48x128_1_0_0_1_n_n : DotDims S48x128 S128x128 S48x128 where
  lhsContracting := [1]
  rhsContracting := [0]
  lhsNonContracting := [0]
  rhsNonContracting := [1]
  lhsBatch := []
  rhsBatch := []
  wf := dot_S48x128_S128x128_S48x128_1_0_0_1_n_n_wf

abbrev win0_0 : Pipeline.Window sig grid0 :=
  Pipeline.Window.ofSpec (Memref.whole main_v6) S1x12288x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S63x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S48x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KMirror.lean ====
/-
  The kernel's block computation restated with the pooled slab as ONE definition in the slab number.

  The body computes, per batch tile of 64 samples, the 16128 x 128 array of rectified convolution
  outputs (row (t, b) = output position t of sample b), then for each of the 63 pooling windows j the
  elementwise maximum of the four 64-row slabs 4j .. 4j+3, lays the 63 pooled slabs side by side along
  the lanes into a 64 x 8064 operand, and multiplies it by the 8064 x 128 linear weight.
  Here slab j is written as a function of j (rows 256 j + 64 p + b, p = 0..3), and the block the body
  stores is shown to be the product of the side-by-side slabs with the weight, plus the bias.
-/
import proofs.«118798_g2000302331999779_pallasbulk_1131_2_alg».proof.Proof.Gen.KernelIdeal.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe
open Cert.KernelIdeal Cert.KernelIdeal.Gen

variable {F : FTy → Type} [FloatOps F]

/-- A 64-row slab starting at row `o` lies inside the 16128 rows when `o + 64 ≤ 16128`. -/
theorem slab_slices (o : Nat) (ho : o + 64 ≤ 16128) : S16128x128.Slices ![o, 0] S64x128 :=
  ⟨rfl, fun a => by
    match a with
    | ⟨0, _⟩ => exact ho
    | ⟨1, _⟩ => exact Nat.le_refl _⟩

/-- Pooled slab `n`: the elementwise maximum of the four consecutive 64-row slabs of window `n`. -/
def slabV (v27 : FVec F S16128x128 .f32) (n : Fin 63) : FVec F S64x128 .bf16 :=
  truncf .bf16 (maximumf (maximumf (maximumf
    (extractStridedSlice S64x128 ![256 * n.val, 0] v27 (slab_slices _ (by omega)))
    (extractStridedSlice S64x128 ![256 * n.val + 64, 0] v27 (slab_slices _ (by omega))))
    (extractStridedSlice S64x128 ![256 * n.val + 128, 0] v27 (slab_slices _ (by omega))))
    (extractStridedSlice S64x128 ![256 * n.val + 192, 0] v27 (slab_slices _ (by omega)))) bitsLt_bf16_f32

/-- The 63 pooled slabs as the list the concatenation takes. -/
def slabList (v27 : FVec F S16128x128 .f32) : List ((s : Shape) × (s.Idx → F .bf16)) :=
  List.ofFn fun n : Fin 63 => (⟨S64x128, slabV v27 n⟩ : (s : Shape) × (s.Idx → F .bf16))

theorem slabList_concatenates (v27 : FVec F S16128x128 .f32) :
    Shape.Concatenates ((slabList v27).map (·.1)) S64x8064 1 := by
  have : (slabList v27).map (·.1) = List.replicate 63 S64x128 := by
    unfold slabList
    rw [List.map_ofFn]
    exact List.ofFn_const _ _
  rw [this]
  decide

/-- The rectified convolution outputs of one tile, from the loaded blocks. -/
abbrev actV (x0 : Vec F S1x16384x128 .bf16) (x1 x2 : Vec F S128x256 .bf16) (x3 : Vec F S128x128 .bf16) (x4 : Vec F S1x128 .f32) :
    FVec F S16128x128 .f32 :=
  k0_pay3 (View.ld x0 r0_0) (View.ld x1 r0_1) (View.ld x2 r0_1) (View.ld x3 r0_2) (View.ld x4 r0_3)

/-- The block the body stores: the side-by-side pooled slabs times the linear weight, plus the bias row. -/
def headV (v27 : FVec F S16128x128 .f32) (x5 : Vec F S8064x128 .bf16) (x6 : Vec F S1x128 .f32) : FVec F S64x128 .f32 :=
  addf (matmul dot_S64x8064_S8064x128_S64x128_1_0_0_1_n_n none
      (concatenate S64x8064 1 (slabList v27) (slabList_concatenates v27))
      (shapeCast S8064x128 (View.ld x5 r0_4) shapeCasts_S8064x128_S8064x128) (constant S64x128 .f32 0x00000000#32))
    (broadcastTo S64x128 (shapeCast S1x128 (View.ld x6 r0_3) shapeCasts_S1x128_S1x128) broadcasts_S1x128_S64x128)

/-- What the body leaves in the output block is `headV` of the tile's activations. -/
theorem out0_7_eq (x0 : Vec F S1x16384x128 .bf16) (x1 x2 : Vec F S128x256 .bf16) (x3 : Vec F S128x128 .bf16) (x4 : Vec F S1x128 .f32)
    (x5 : Vec F S8064x128 .bf16) (x6 : Vec F S1x128 .f32) :
    out0_7 x0 x1 x2 x3 x4 x5 x6 = View.canon [⟨r0_5, headV (actV x0 x1 x2 x3 x4) x5 x6⟩] := by
  rfl

end Cert.KernelIdeal.Hand

end
-- ==== Proof.Spec.lean ====
/-
  The network both programs compute, per sample and per class, over the extended reals.

  A sample is a 256 x 128 matrix of rows `xr h` (row 0 is the zero row put in front of the input, rows
  1 .. 255 the input's rows 0 .. 254). The convolution output at position t and feature f is the sum over
  the five taps k of the inner product of row t + k with tap k's weight column f, the taps added in order;
  the activation adds the feature's bias and takes the maximum with zero; the pooled value of window j is
  the maximum of the four activations 4j .. 4j+3; the class score is the sum over windows j and features f
  of pooled value times weight, plus the class bias.
-/
import Idealize.ShloMosaic.PureOps.Ideal
import Idealize.ShloMosaic.PureOps.Ideal.Laws
import Idealize.ShloMosaic.Lib.ValueIdx

noncomputable section

namespace TextCnn

open Idealize.ShloMosaic Idealize.ShloMosaic.ValueIdx

/-- The argument arrays' shapes. -/
abbrev SX : Shape := ⟨4, ![512, 1, 256, 128]⟩
abbrev SCW : Shape := ⟨4, ![128, 1, 5, 128]⟩
abbrev SCB : Shape := ⟨1, ![128]⟩
abbrev SLW : Shape := ⟨2, ![16, 8064]⟩
abbrev SLB : Shape := ⟨1, ![16]⟩
abbrev SOUT : Shape := ⟨2, ![512, 16]⟩

/-- The convolution output at position `t`, feature `f`: five taps, added in order. -/
def conv (xr : Nat → Fin 128 → EReal) (w : Fin 5 → Fin 128 → Fin 128 → EReal) (t : Nat) (f : Fin 128) : EReal :=
  ((((∑ d : Fin 128, xr t d * w 0 d f) + ∑ d : Fin 128, xr (t + 1) d * w 1 d f) + ∑ d : Fin 128, xr (t + 2) d * w 2 d f)
    + ∑ d : Fin 128, xr (t + 3) d * w 3 d f) + ∑ d : Fin 128, xr (t + 4) d * w 4 d f

/-- The rectified activation. -/
def act (xr : Nat → Fin 128 → EReal) (w : Fin 5 → Fin 128 → Fin 128 → EReal) (bc : Fin 128 → EReal) (t : Nat) (f : Fin 128) : EReal :=
  max (conv xr w t f + bc f) 0

/-- The pooled value of window `j`: the maximum of four consecutive activations. -/
def pool (xr : Nat → Fin 128 → EReal) (w : Fin 5 → Fin 128 → Fin 128 → EReal) (bc : Fin 128 → EReal) (j : Nat) (f : Fin 128) : EReal :=
  max (max (max (act xr w bc (4 * j) f) (act xr w bc (4 * j + 1) f)) (act xr w bc (4 * j + 2) f)) (act xr w bc (4 * j + 3) f)

/-- The class score from the pooled values. -/
def head (p : Nat → Fin 128 → EReal) (wl : Nat → Fin 128 → EReal) (bl : EReal) : EReal :=
  (∑ j ∈ Finset.range 63, ∑ f : Fin 128, p j f * wl j f) + bl

/-- One sample's score for one class. -/
def sample (xr : Nat → Fin 128 → EReal) (w : Fin 5 → Fin 128 → Fin 128 → EReal) (bc : Fin 128 → EReal)
    (wl : Nat → Fin 128 → EReal) (bl : EReal) : EReal :=
  head (pool xr w bc) wl bl

/-- Row `h` of sample `B` with the zero row in front: row 0 and rows past 255 are zero. -/
def xrow (x : SX.Idx → EReal) (B : Fin 512) (h : Nat) (d : Fin 128) : EReal :=
  if hh : 1 ≤ h ∧ h < 256 then x (ix4 B 0 ⟨h - 1, by omega⟩ d) else 0

/-- Tap `k`'s weight, input lane `d`, feature `f`. -/
def wtap (cw : SCW.Idx → EReal) (k : Fin 5) (d : Fin 128) (f : Fin 128) : EReal := cw (ix4 f 0 k d)

/-- The linear weight of class `c` at window `j`, feature `f` (the flattened position is `f * 63 + j`). -/
def wlin (lw : SLW.Idx → EReal) (c : Fin 16) (j : Nat) (f : Fin 128) : EReal :=
  if hj : j < 63 then lw (ix2 c ⟨f.val * 63 + j, by have := f.isLt; omega⟩) else 0

/-- The whole result: sample `i 0`'s score for class `i 1`. -/
def G (x : SX.Idx → EReal) (cw : SCW.Idx → EReal) (cb : SCB.Idx → EReal) (lw : SLW.Idx → EReal) (lb : SLB.Idx → EReal) :
    SOUT.Idx → EReal :=
  fun i => sample (xrow x (i 0)) (wtap cw) (fun f => cb (ix1 f)) (wlin lw (i 1)) (lb (ix1 (i 1)))

/-- The score reads rows `0 .. 255` of the sample only, windows `0 .. 62` of the weight only. -/
theorem sample_congr {xr xr' : Nat → Fin 128 → EReal} {w w' : Fin 5 → Fin 128 → Fin 128 → EReal} {bc bc' : Fin 128 → EReal}
    {wl wl' : Nat → Fin 128 → EReal} {bl bl' : EReal}
    (hx : ∀ h, h < 256 → ∀ d, xr h d = xr' h d) (hw : ∀ k d f, w k d f = w' k d f) (hb : ∀ f, bc f = bc' f)
    (hl : ∀ j, j < 63 → ∀ f, wl j f = wl' j f) (hbl : bl = bl') :
    sample xr w bc wl bl = sample xr' w' bc' wl' bl' := by
  -- One tap's inner product reads one row below 256 and one tap of the weight.
  have htap : ∀ (k : Fin 5) (s : Nat), s < 256 → ∀ f : Fin 128,
      (∑ d : Fin 128, xr s d * w k d f) = ∑ d : Fin 128, xr' s d * w' k d f := by
    intro k s hs f
    exact Finset.sum_congr rfl (fun d _ => by rw [hx s hs d, hw k d f])
  -- Position t reads rows t .. t + 4.
  have hconv : ∀ t, t + 4 < 256 → ∀ f, conv xr w t f = conv xr' w' t f := by
    intro t ht f
    unfold conv
    rw [htap 0 t (by omega) f, htap 1 (t + 1) (by omega) f, htap 2 (t + 2) (by omega) f,
      htap 3 (t + 3) (by omega) f, htap 4 (t + 4) (by omega) f]
  have hact : ∀ t, t + 4 < 256 → ∀ f, act xr w bc t f = act xr' w' bc' t f := by
    intro t ht f
    unfold act
    rw [hconv t ht f, hb f]
  -- Window j < 63 reads positions 4j .. 4j + 3, hence rows up to 4j + 7 ≤ 255.
  have hpool : ∀ j, j < 63 → ∀ f, pool xr w bc j f = pool xr' w' bc' j f := by
    intro j hj f
    unfold pool
    rw [hact (4 * j) (by omega) f, hact (4 * j + 1) (by omega) f, hact (4 * j + 2) (by omega) f,
      hact (4 * j + 3) (by omega) f]
  unfold sample head
  rw [hbl]
  congr 1
  refine Finset.sum_congr rfl (fun j hj => ?_)
  have hj' : j < 63 := Finset.mem_range.mp hj
  refine Finset.sum_congr rfl (fun f _ => ?_)
  rw [hpool j hj' f, hl j hj' f]

/-- A sum over the 8064 lanes of the side-by-side slabs is the sum over the 63 slabs of the sums over each
    slab's 128 lanes. -/
theorem sum_lanes (g : Nat → Fin 128 → EReal) :
    (∑ k : Fin 8064, g (k.val / 128) ⟨k.val % 128, Nat.mod_lt _ (by decide)⟩) = ∑ j ∈ Finset.range 63, ∑ f : Fin 128, g j f := by
  -- Lane k = f + 128 j of the flattened axis is lane f of slab j.
  have key : ∀ (k : Nat) (hk : k % 128 < 128) (j : Nat) (f : Fin 128), k = f.val + 128 * j →
      g (k / 128) ⟨k % 128, hk⟩ = g j f := by
    intro k hk j f h
    have hf := f.isLt
    have h2 : k / 128 = j := by omega
    have h3 : (⟨k % 128, hk⟩ : Fin 128) = f := by
      apply Fin.ext
      show k % 128 = f.val
      omega
    rw [h2, h3]
  symm
  rw [Finset.sum_range]
  rw [← Fintype.sum_prod_type' (f := fun (j : Fin 63) (f : Fin 128) => g j.val f)]
  refine Fintype.sum_equiv (finProdFinEquiv.trans (finCongr (by norm_num : 63 * 128 = 8064))) _ _ ?_
  rintro ⟨j, f⟩
  exact (key _ _ j.val f rfl).symm

end TextCnn

end
-- ==== Proof.KIndex.lean ====
/-
  The kernel's output block, entry by entry, as the network's score.

  Entry (b, c) of the block a tile stores is the score of the tile's sample b for the (lane-padded) class c:
  the activations' array is read at row (t, b) = 64 t + b, the pooled slab j at lane f is the maximum over
  the window's four positions, the product with the linear weight is a sum over the 8064 lanes
  128 j + f, and the paired taps sit in the two lane halves of the two double-width weights.
-/
import proofs.«118798_g2000302331999779_pallasbulk_1131_2_alg».proof.Proof.KMirror
import proofs.«118798_g2000302331999779_pallasbulk_1131_2_alg».proof.Proof.Spec
import Idealize.ShloMosaic.PureOps.Ideal.Laws
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

/-- Row `r` of the tile's input block (zero past the block). -/
def rowK (x0 : Vec Ideal S1x16384x128 .bf16) (r : Nat) (d : Fin 128) : EReal :=
  if h : r < 16384 then x0 (ix3 0 ⟨r, h⟩ d) else 0

/-- The five taps' weights out of the two double-width weights (taps 0,1 and 2,3 in the lane halves) and
    the single last one. -/
def tapK (x1 x2 : Vec Ideal S128x256 .bf16) (x3 : Vec Ideal S128x128 .bf16) (k : Fin 5) (d f : Fin 128) : EReal :=
  match k with
  | 0 => x1 (ix2 d ⟨f.val, by have := f.isLt; omega⟩)
  | 1 => x1 (ix2 d ⟨128 + f.val, by have := f.isLt; omega⟩)
  | 2 => x2 (ix2 d ⟨f.val, by have := f.isLt; omega⟩)
  | 3 => x2 (ix2 d ⟨128 + f.val, by have := f.isLt; omega⟩)
  | 4 => x3 (ix2 d f)

/-- The linear weight's row of window `j`, feature `f`, at class lane `c`. -/
def wlK (x5 : Vec Ideal S8064x128 .bf16) (c : Fin 128) (j : Nat) (f : Fin 128) : EReal :=
  if h : j < 63 then x5 (ix2 ⟨128 * j + f.val, by have := f.isLt; omega⟩ c) else 0

/-! ### The three products' index maps, coordinate by coordinate -/

private abbrev D1 := dot_S16192x128_S128x256_S16192x256_1_0_0_1_n_n

private theorem lhs1_0 (j : S16192x256.Idx) (k : D1.contr.Idx) : (D1.lhsIdx j k 0 : ℕ) = j 0 := by
  simp [DotDims.lhsIdx, D1, dot_S16192x128_S128x256_S16192x256_1_0_0_1_n_n]; rfl
private theorem lhs1_1 (j : S16192x256.Idx) (k : D1.contr.Idx) : (D1.lhsIdx j k 1 : ℕ) = k ⟨0, by decide⟩ := by
  simp [DotDims.lhsIdx, D1, dot_S16192x128_S128x256_S16192x256_1_0_0_1_n_n]; rfl
private theorem rhs1_0 (j : S16192x256.Idx) (k : D1.contr.Idx) : (D1.rhsIdx j k 0 : ℕ) = k ⟨0, by decide⟩ := by
  simp [DotDims.rhsIdx, D1, dot_S16192x128_S128x256_S16192x256_1_0_0_1_n_n]; rfl
private theorem rhs1_1 (j : S16192x256.Idx) (k : D1.contr.Idx) : (D1.rhsIdx j k 1 : ℕ) = j 1 := by
  simp [DotDims.rhsIdx, D1, dot_S16192x128_S128x256_S16192x256_1_0_0_1_n_n]; rfl

/-- The product into the zero accumulator, entry (r, c): the sum over the 128 contracted lanes. -/
private theorem mm1_apply (lhs : FVec Ideal S16192x128 .bf16) (rhs : FVec Ideal S128x256 .bf16) (r : Fin 16192) (c : Fin 256) :
    matmul D1 none lhs rhs (constant (F := Ideal) S16192x256 .f32 0x00000000#32) (ix2 r c)
      = ∑ d : Fin 128, lhs (ix2 r d) * rhs (ix2 d c) := by
  show FloatOps.matmul D1 none lhs rhs (constant (F := Ideal) S16192x256 .f32 0x00000000#32) (ix2 r c) = _
  rw [Ideal.matmul_constant_zero_apply, ← Equiv.sum_comp (contrEquiv1 D1 128 rfl rfl).symm]
  refine Finset.sum_congr rfl fun d _ => ?_
  congr 2
  · apply Shape.idx_ext₂
    · rw [lhs1_0]
    · rw [lhs1_1]; exact contrEquiv1_symm_val D1 128 rfl rfl d
  · apply Shape.idx_ext₂
    · rw [rhs1_0]; exact contrEquiv1_symm_val D1 128 rfl rfl d
    · rw [rhs1_1]

private abbrev D2 := dot_S16128x128_S128x128_S16128x128_1_0_0_1_n_n

private theorem lhs2_0 (j : S16128x128.Idx) (k : D2.contr.Idx) : (D2.lhsIdx j k 0 : ℕ) = j 0 := by
  simp [DotDims.lhsIdx, D2, dot_S16128x128_S128x128_S16128x128_1_0_0_1_n_n]; rfl
private theorem lhs2_1 (j : S16128x128.Idx) (k : D2.contr.Idx) : (D2.lhsIdx j k 1 : ℕ) = k ⟨0, by decide⟩ := by
  simp [DotDims.lhsIdx, D2, dot_S16128x128_S128x128_S16128x128_1_0_0_1_n_n]; rfl
private theorem rhs2_0 (j : S16128x128.Idx) (k : D2.contr.Idx) : (D2.rhsIdx j k 0 : ℕ) = k ⟨0, by decide⟩ := by
  simp [DotDims.rhsIdx, D2, dot_S16128x128_S128x128_S16128x128_1_0_0_1_n_n]; rfl
private theorem rhs2_1 (j : S16128x128.Idx) (k : D2.contr.Idx) : (D2.rhsIdx j k 1 : ℕ) = j 1 := by
  simp [DotDims.rhsIdx, D2, dot_S16128x128_S128x128_S16128x128_1_0_0_1_n_n]; rfl

/-- The product into the zero accumulator, entry (r, c): the sum over the 128 contracted lanes. -/
private theorem mm2_apply (lhs : FVec Ideal S16128x128 .bf16) (rhs : FVec Ideal S128x128 .bf16) (r : Fin 16128) (c : Fin 128) :
    matmul D2 none lhs rhs (constant (F := Ideal) S16128x128 .f32 0x00000000#32) (ix2 r c)
      = ∑ d : Fin 128, lhs (ix2 r d) * rhs (ix2 d c) := by
  show FloatOps.matmul D2 none lhs rhs (constant (F := Ideal) S16128x128 .f32 0x00000000#32) (ix2 r c) = _
  rw [Ideal.matmul_constant_zero_apply, ← Equiv.sum_comp (contrEquiv1 D2 128 rfl rfl).symm]
  refine Finset.sum_congr rfl fun d _ => ?_
  congr 2
  · apply Shape.idx_ext₂
    · rw [lhs2_0]
    · rw [lhs2_1]; exact contrEquiv1_symm_val D2 128 rfl rfl d
  · apply Shape.idx_ext₂
    · rw [rhs2_0]; exact contrEquiv1_symm_val D2 128 rfl rfl d
    · rw [rhs2_1]

private abbrev D3 := dot_S64x8064_S8064x128_S64x128_1_0_0_1_n_n

private theorem lhs3_0 (j : S64x128.Idx) (k : D3.contr.Idx) : (D3.lhsIdx j k 0 : ℕ) = j 0 := by
  simp [DotDims.lhsIdx, D3, dot_S64x8064_S8064x128_S64x128_1_0_0_1_n_n]; rfl
private theorem lhs3_1 (j : S64x128.Idx) (k : D3.contr.Idx) : (D3.lhsIdx j k 1 : ℕ) = k ⟨0, by decide⟩ := by
  simp [DotDims.lhsIdx, D3, dot_S64x8064_S8064x128_S64x128_1_0_0_1_n_n]; rfl
private theorem rhs3_0 (j : S64x128.Idx) (k : D3.contr.Idx) : (D3.rhsIdx j k 0 : ℕ) = k ⟨0, by decide⟩ := by
  simp [DotDims.rhsIdx, D3, dot_S64x8064_S8064x128_S64x128_1_0_0_1_n_n]; rfl
private theorem rhs3_1 (j : S64x128.Idx) (k : D3.contr.Idx) : (D3.rhsIdx j k 1 : ℕ) = j 1 := by
  simp [DotDims.rhsIdx, D3, dot_S64x8064_S8064x128_S64x128_1_0_0_1_n_n]; rfl

/-- The product into the zero accumulator, entry (r, c): the sum over the 8064 contracted lanes. -/
private theorem mm3_apply (lhs : FVec Ideal S64x8064 .bf16) (rhs : FVec Ideal S8064x128 .bf16) (r : Fin 64) (c : Fin 128) :
    matmul D3 none lhs rhs (constant (F := Ideal) S64x128 .f32 0x00000000#32) (ix2 r c)
      = ∑ d : Fin 8064, lhs (ix2 r d) * rhs (ix2 d c) := by
  show FloatOps.matmul D3 none lhs rhs (constant (F := Ideal) S64x128 .f32 0x00000000#32) (ix2 r c) = _
  rw [Ideal.matmul_constant_zero_apply, ← Equiv.sum_comp (contrEquiv1 D3 8064 rfl rfl).symm]
  refine Finset.sum_congr rfl fun d _ => ?_
  congr 2
  · apply Shape.idx_ext₂
    · rw [lhs3_0]
    · rw [lhs3_1]; exact contrEquiv1_symm_val D3 8064 rfl rfl d
  · apply Shape.idx_ext₂
    · rw [rhs3_0]; exact contrEquiv1_symm_val D3 8064 rfl rfl d
    · rw [rhs3_1]

/-! ### Layout operations at explicit coordinates -/

/-- Inside the block, `rowK` reads the block's row. -/
private theorem rowK_of_lt (x0 : Vec Ideal S1x16384x128 .bf16) (n : Nat) (h : n < 16384) (d : Fin 128) :
    rowK x0 n d = x0 (ix3 0 ⟨n, h⟩ d) := dif_pos h

/-- A unit-stride slice of a matrix at explicit coordinates. -/
private theorem slice2_apply {α : Type} {m n m' n' : Nat} (o p : Nat) (x : (⟨2, ![m, n]⟩ : Shape).Idx → α)
    (h : (⟨2, ![m, n]⟩ : Shape).Slices ![o, p] ⟨2, ![m', n']⟩) (r : Fin m') (c : Fin n') (hr : o + r.val < m) (hc : p + c.val < n) :
    extractStridedSlice ⟨2, ![m', n']⟩ ![o, p] x h (ix2 r c) = x (ix2 ⟨o + r.val, hr⟩ ⟨p + c.val, hc⟩) :=
  extractStridedSlice_apply _ x h _ _ (fun a => by
    match a with
    | ⟨0, _⟩ => rfl
    | ⟨1, _⟩ => rfl)

/-- A single row laid along every row of a matrix. -/
private theorem brow_apply {α : Type} {m : Nat} (v : S1x128.Idx → α) (hb : S1x128.Broadcasts ⟨2, ![m, 128]⟩) (r : Fin m) (f : Fin 128) :
    broadcastTo ⟨2, ![m, 128]⟩ v hb (ix2 r f) = v (ix2 0 f) :=
  broadcastTo_apply v hb _ _ (fun a => by
    match a with
    | ⟨0, _⟩ => rfl
    | ⟨1, _⟩ => rfl)

private theorem hz2 : (![0, 0] : Fin 2 → Nat) = fun _ => 0 := by
  funext a; match a with | ⟨0, _⟩ => rfl | ⟨1, _⟩ => rfl
private theorem hz3 : (![0, 0, 0] : Fin 3 → Nat) = fun _ => 0 := by
  funext a; match a with | ⟨0, _⟩ => rfl | ⟨1, _⟩ => rfl | ⟨2, _⟩ => rfl

/-- A slice of whole rows of a matrix, at explicit coordinates. -/
private theorem rows_apply {α : Type} {m n m' : Nat} (o : Nat) (x : (⟨2, ![m, n]⟩ : Shape).Idx → α)
    (h : (⟨2, ![m, n]⟩ : Shape).Slices ![o, 0] ⟨2, ![m', n]⟩) (r : Fin m') (c : Fin n) (hr : o + r.val < m) :
    extractStridedSlice ⟨2, ![m', n]⟩ ![o, 0] x h (ix2 r c) = x (ix2 ⟨o + r.val, hr⟩ c) :=
  extractStridedSlice_apply _ x h _ _ (fun a => by
    match a with
    | ⟨0, _⟩ => rfl
    | ⟨1, _⟩ => exact (Nat.zero_add _).symm)

/-- The double-width product at (r, c): rows `o ..` of the block against the weight's column `c`. -/
private theorem z_apply (v0 : Vec Ideal S1x16384x128 .bf16) (w : FVec Ideal S128x256 .bf16) (o : Nat) (ho : o ≤ 192)
    (h : S16384x128.Slices ![o, 0] S16192x128) (r : Fin 16192) (c : Fin 256) :
    matmul D1 none
        (extractStridedSlice S16192x128 ![o, 0] (shapeCast S16384x128 v0 shapeCasts_S1x16384x128_S16384x128) h : FVec Ideal S16192x128 .bf16)
        w (constant (F := Ideal) S16192x256 .f32 0x00000000#32) (ix2 r c)
      = ∑ d : Fin 128, rowK v0 (o + r.val) d * w (ix2 d c) := by
  have hr : o + r.val < 16384 := by have := r.isLt; omega
  rw [mm1_apply]
  refine Finset.sum_congr rfl fun d _ => ?_
  rw [rows_apply o _ h r d hr, rowK_of_lt v0 _ hr, shapeCast_1ab_ab_apply]

/-- The last tap's product at (r, f). -/
private theorem z4_apply (v0 : Vec Ideal S1x16384x128 .bf16) (w : FVec Ideal S128x128 .bf16) (r : Fin 16128) (c : Fin 128) :
    matmul D2 none
        (extractStridedSlice S16128x128 ![256, 0] (shapeCast S16384x128 v0 shapeCasts_S1x16384x128_S16384x128)
          slices_S16384x128_o256_0_S16128x128 : FVec Ideal S16128x128 .bf16)
        w (constant (F := Ideal) S16128x128 .f32 0x00000000#32) (ix2 r c)
      = ∑ d : Fin 128, rowK v0 (256 + r.val) d * w (ix2 d c) := by
  have hr : 256 + r.val < 16384 := by have := r.isLt; omega
  rw [mm2_apply]
  refine Finset.sum_congr rfl fun d _ => ?_
  rw [rows_apply 256 _ slices_S16384x128_o256_0_S16128x128 r d hr, rowK_of_lt v0 _ hr, shapeCast_1ab_ab_apply]

/-- The rectified convolution output at row `r`, feature `f`: the five taps read rows `r + 64 k`. -/
theorem act_apply (x0 : Vec Ideal S1x16384x128 .bf16) (x1 x2 : Vec Ideal S128x256 .bf16) (x3 : Vec Ideal S128x128 .bf16)
    (x4 : Vec Ideal S1x128 .f32) (r : Fin 16128) (f : Fin 128) :
    actV x0 x1 x2 x3 x4 (ix2 r f)
      = max ((((((∑ d : Fin 128, rowK x0 r.val d * tapK x1 x2 x3 0 d f)
          + ∑ d : Fin 128, rowK x0 (64 + r.val) d * tapK x1 x2 x3 1 d f)
          + ∑ d : Fin 128, rowK x0 (128 + r.val) d * tapK x1 x2 x3 2 d f)
          + ∑ d : Fin 128, rowK x0 (128 + (64 + r.val)) d * tapK x1 x2 x3 3 d f)
          + ∑ d : Fin 128, rowK x0 (256 + r.val) d * tapK x1 x2 x3 4 d f)
          + x4 (ix2 0 f)) 0 := by
  have hr := r.isLt
  have hf := f.isLt
  unfold actV k0_pay3
  simp only [maximumf_apply, addf_apply, broadcast_apply]
  rw [View.ld_unit_zero hz3 _ x0, View.ld_unit_zero hz2 _ x1, View.ld_unit_zero hz2 _ x2, View.ld_unit_zero hz2 _ x3,
    View.ld_unit_zero hz2 _ x4]
  rw [shapeCast_self x1, shapeCast_self x2, shapeCast_self x3, shapeCast_self x4]
  rw [slice2_apply 0 0 _ slices_S16192x256_o0_0_S16128x128 r f (by omega) (by omega),
    slice2_apply 0 0 _ slices_S16192x256_o0_0_S16128x128 r f (by omega) (by omega),
    slice2_apply 64 128 _ slices_S16192x256_o64_128_S16128x128 r f (by omega) (by omega),
    slice2_apply 64 128 _ slices_S16192x256_o64_128_S16128x128 r f (by omega) (by omega)]
  rw [z_apply x0 x1 0 (by omega), z_apply x0 x1 0 (by omega), z_apply x0 x2 128 (by omega), z_apply x0 x2 128 (by omega),
    z4_apply, brow_apply]
  simp only [Nat.zero_add]
  exact congrArg₂ max rfl Ideal.ofBits_zero_f32

/-! ### Rows of the activations, pooled slabs, and the side-by-side operand -/

/-- Activation row 64 t + b is output position `t` of sample `b`. -/
theorem act_eq (x0 : Vec Ideal S1x16384x128 .bf16) (x1 x2 : Vec Ideal S128x256 .bf16) (x3 : Vec Ideal S128x128 .bf16)
    (x4 : Vec Ideal S1x128 .f32) (r : Fin 16128) (t : Nat) (b : Fin 64) (hr : r.val = 64 * t + b.val) (f : Fin 128) :
    actV x0 x1 x2 x3 x4 (ix2 r f)
      = TextCnn.act (fun h d => rowK x0 (h * 64 + b.val) d) (tapK x1 x2 x3) (fun f => x4 (ix2 0 f)) t f := by
  rw [act_apply, hr]
  rw [show 128 + (64 + (64 * t + b.val)) = (t + 3) * 64 + b.val from by omega,
    show 256 + (64 * t + b.val) = (t + 4) * 64 + b.val from by omega,
    show 128 + (64 * t + b.val) = (t + 2) * 64 + b.val from by omega,
    show 64 + (64 * t + b.val) = (t + 1) * 64 + b.val from by omega,
    show 64 * t + b.val = t * 64 + b.val from by omega]
  rfl

/-- Pooled slab `n` at (b, f): the maximum over the activations at rows 256 n + 64 p + b, p = 0 .. 3. -/
theorem slab_apply (v27 : FVec Ideal S16128x128 .f32) (n : Fin 63) (b : Fin 64) (f : Fin 128) :
    slabV v27 n (ix2 b f)
      = max (max (max (v27 (ix2 ⟨256 * n.val + b.val, by have := n.isLt; have := b.isLt; omega⟩ f))
            (v27 (ix2 ⟨256 * n.val + 64 + b.val, by have := n.isLt; have := b.isLt; omega⟩ f)))
          (v27 (ix2 ⟨256 * n.val + 128 + b.val, by have := n.isLt; have := b.isLt; omega⟩ f)))
        (v27 (ix2 ⟨256 * n.val + 192 + b.val, by have := n.isLt; have := b.isLt; omega⟩ f)) := by
  have hn := n.isLt
  have hb := b.isLt
  unfold slabV
  simp only [truncf_apply, maximumf_apply]
  rw [rows_apply (256 * n.val) v27 _ b f (by omega), rows_apply (256 * n.val + 64) v27 _ b f (by omega),
    rows_apply (256 * n.val + 128) v27 _ b f (by omega), rows_apply (256 * n.val + 192) v27 _ b f (by omega)]

/-- The pooled slab of the tile's activations is the pooled value of window `n` of sample `b`. -/
theorem pool_eq (x0 : Vec Ideal S1x16384x128 .bf16) (x1 x2 : Vec Ideal S128x256 .bf16) (x3 : Vec Ideal S128x128 .bf16)
    (x4 : Vec Ideal S1x128 .f32) (n : Fin 63) (b : Fin 64) (f : Fin 128) :
    slabV (actV x0 x1 x2 x3 x4) n (ix2 b f)
      = TextCnn.pool (fun h d => rowK x0 (h * 64 + b.val) d) (tapK x1 x2 x3) (fun f => x4 (ix2 0 f)) n.val f := by
  rw [slab_apply]
  unfold TextCnn.pool
  rw [act_eq x0 x1 x2 x3 x4 _ (4 * n.val) b (by show 256 * n.val + b.val = 64 * (4 * n.val) + b.val; omega),
    act_eq x0 x1 x2 x3 x4 _ (4 * n.val + 1) b (by show 256 * n.val + 64 + b.val = 64 * (4 * n.val + 1) + b.val; omega),
    act_eq x0 x1 x2 x3 x4 _ (4 * n.val + 2) b (by show 256 * n.val + 128 + b.val = 64 * (4 * n.val + 2) + b.val; omega),
    act_eq x0 x1 x2 x3 x4 _ (4 * n.val + 3) b (by show 256 * n.val + 192 + b.val = 64 * (4 * n.val + 3) + b.val; omega)]

/-- The side-by-side slabs at (b, k): slab k / 128 at lane k % 128. -/
theorem cat_apply (v27 : FVec Ideal S16128x128 .f32) (b : Fin 64) (k : Fin 8064) :
    concatenate S64x8064 1 (slabList v27) (slabList_concatenates v27) (ix2 b k)
      = slabV v27 ⟨k.val / 128, by have := k.isLt; omega⟩ (ix2 b ⟨k.val % 128, Nat.mod_lt _ (by decide)⟩) :=
  concatenate_ofFn_apply (t := S64x8064) (s₁ := S64x128) 1 (fun n : Fin 63 => slabV v27 n) (slabList_concatenates v27) rfl 128 rfl
    (ix2 b k) ⟨k.val / 128, by have := k.isLt; omega⟩ rfl (ix2 b ⟨k.val % 128, Nat.mod_lt _ (by decide)⟩) rfl
    (fun a ha => by
      match a with
      | ⟨0, _⟩ => rfl
      | ⟨1, _⟩ => exact absurd rfl ha)

/-- The stored block at (b, c): the 8064 lanes of the side-by-side slabs against the weight's column, plus the bias. -/
theorem head_apply (v27 : FVec Ideal S16128x128 .f32) (x5 : Vec Ideal S8064x128 .bf16) (x6 : Vec Ideal S1x128 .f32)
    (b : Fin 64) (c : Fin 128) :
    headV v27 x5 x6 (ix2 b c)
      = (∑ k : Fin 8064, slabV v27 ⟨k.val / 128, by have := k.isLt; omega⟩ (ix2 b ⟨k.val % 128, Nat.mod_lt _ (by decide)⟩)
            * x5 (ix2 k c)) + x6 (ix2 0 c) := by
  unfold headV
  rw [addf_apply, View.ld_unit_zero hz2 _ x5, View.ld_unit_zero hz2 _ x6, shapeCast_self x5, shapeCast_self x6, mm3_apply,
    brow_apply]
  refine congrArg (· + x6 (ix2 0 c)) (Finset.sum_congr rfl fun k _ => ?_)
  rw [cat_apply]

/-- Entry `(b, c)` of the stored block is the score of the tile's sample `b` at class lane `c`. -/
theorem block_apply (x0 : Vec Ideal S1x16384x128 .bf16) (x1 x2 : Vec Ideal S128x256 .bf16) (x3 : Vec Ideal S128x128 .bf16)
    (x4 : Vec Ideal S1x128 .f32) (x5 : Vec Ideal S8064x128 .bf16) (x6 : Vec Ideal S1x128 .f32) (b : Fin 64) (c : Fin 128) :
    out0_7 x0 x1 x2 x3 x4 x5 x6 (ix2 b c)
      = TextCnn.sample (fun h d => rowK x0 (h * 64 + b.val) d) (tapK x1 x2 x3) (fun f => x4 (ix2 0 f)) (wlK x5 c) (x6 (ix2 0 c)) := by
  rw [out0_7_eq, View.canon_unit_zero hz2, head_apply]
  unfold TextCnn.sample TextCnn.head
  refine congrArg (· + x6 (ix2 0 c)) ?_
  refine Eq.trans ?_ (TextCnn.sum_lanes (fun j f =>
    TextCnn.pool (fun h d => rowK x0 (h * 64 + b.val) d) (tapK x1 x2 x3) (fun f => x4 (ix2 0 f)) j f * wlK x5 c j f))
  refine Finset.sum_congr rfl fun k _ => ?_
  have hk := k.isLt
  have hj : k.val / 128 < 63 := by omega
  refine congrArg₂ (· * ·) (pool_eq x0 x1 x2 x3 x4 ⟨k.val / 128, hj⟩ b ⟨k.val % 128, Nat.mod_lt _ (by decide)⟩) ?_
  unfold wlK
  rw [dif_pos hj]
  exact congrArg (fun i => x5 (ix2 i c)) (Fin.ext (by show k.val = 128 * (k.val / 128) + k.val % 128; omega))

end Cert.KernelIdeal.Hand

end
-- ==== Proof.KHostX.lean ====
/-
  The kernel's laid-out input, entry by entry.

  The program drops the input's last row, puts a zero row in front, splits the 512 samples into 8 tiles
  of 64 and orders a tile's rows by (row, sample): tile t, row h * 64 + bl, lane d is row h of sample
  64 t + bl of the input with the zero row in front.
-/
import proofs.«118798_g2000302331999779_pallasbulk_1131_2_alg».proof.Proof.Gen.KernelIdeal.Frame
import proofs.«118798_g2000302331999779_pallasbulk_1131_2_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ### The input's layout, one operation at a time -/

/-- The input with its last row dropped. -/
private theorem v0_eq (c : Dev nD) : (V m c main_v0 : S512x1x255x128.Idx → EReal) = extractStridedSlice S512x1x255x128 ![0, 0, 0, 0] (m ((c.tc : Thread nD τ).loc main_arg0) : TextCnn.SX.Idx → EReal) slices_S512x1x256x128_S512x1x255x128_0_0_0_0 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... with the unit axis dropped. -/
private theorem v1_eq (c : Dev nD) : (V m c main_v1 : S512x255x128.Idx → EReal) = shapeCast S512x255x128 (V m c main_v0 : S512x1x255x128.Idx → EReal) shapeCasts_S512x1x255x128_S512x255x128 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... converted to 16-bit precision (the identity over the extended reals). -/
private theorem v2_eq (c : Dev nD) : (V m c main_v2 : S512x255x128.Idx → EReal) = truncf (F := Ideal) .bf16 (V m c main_v1 : S512x255x128.Idx → EReal) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... padded with one zero row in front of each sample. -/
private theorem v3_eq (c : Dev nD) : (V m c main_v3 : S512x256x128.Idx → EReal) = pad S512x256x128 ![0, 1, 0] ![0, 0, 0] ![0, 0, 0] (V m c main_v2 : S512x255x128.Idx → EReal) (sitofp (F := Ideal) .bf16 (constantI S_ 32 0#32)) pads_S512x255x128_S512x256x128_000_100_000 h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... split into 8 tiles of 64 samples. -/
private theorem v4_eq (c : Dev nD) : (V m c main_v4 : S8x64x256x128.Idx → EReal) = shapeCast S8x64x256x128 (V m c main_v3 : S512x256x128.Idx → EReal) shapeCasts_S512x256x128_S8x64x256x128 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... each tile ordered by (row, sample). -/
private theorem v5_eq (c : Dev nD) : (V m c main_v5 : S8x256x64x128.Idx → EReal) = transpose S8x256x64x128 [0, 2, 1, 3] (V m c main_v4 : S8x64x256x128.Idx → EReal) transposes_S8x64x256x128_S8x256x64x128_0_2_1_3 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- ... and (row, sample) flattened to one axis of 256 * 64 rows. -/
private theorem v6_eq (c : Dev nD) : (V m c main_v6 : S8x16384x128.Idx → EReal) = shapeCast S8x16384x128 (V m c main_v5 : S8x256x64x128.Idx → EReal) shapeCasts_S8x256x64x128_S8x16384x128 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  all_goals rfl

/-- The input with its last row dropped, as a rank-3 array in 16-bit precision: sample `B`, row `r`, lane `d`. -/
private theorem v2_apply (c : Dev nD) (B : Fin 512) (r : Fin 255) (d : Fin 128) :
    (V m c main_v2 : S512x255x128.Idx → EReal) (ix3 B r d)
      = (m ((c.tc : Thread nD τ).loc main_arg0) : TextCnn.SX.Idx → EReal) (ix4 B 0 ⟨r.val, by have := r.isLt; omega⟩ d) := by
  have hr := r.isLt
  rw [v2_eq, truncf_apply, v1_eq]
  refine (shapeCast_apply _ _ _ (ix4 B (0 : Fin 1) r d) (by
    rw [Shape.rowMajor_val_four, Shape.rowMajor_val_three]
    show ((B.val * 1 + 0) * 255 + r.val) * 128 + d.val = (B.val * 255 + r.val) * 128 + d.val
    omega)).trans ?_
  rw [v0_eq]
  exact extractStridedSlice_apply _ _ _ _ (ix4 B (0 : Fin 1) (⟨r.val, by omega⟩ : Fin 256) d) (fun a => match a with
    | ⟨0, _⟩ => by show B.val = 0 + B.val; omega
    | ⟨1, _⟩ => by show (0 : Nat) = 0 + 0; rfl
    | ⟨2, _⟩ => by show r.val = 0 + r.val; omega
    | ⟨3, _⟩ => by show d.val = 0 + d.val; omega)

/-- The padded batch: row `h ≥ 1` of sample `B` is the input's row `h - 1`. -/
private theorem v3_apply_pos (c : Dev nD) (B : Fin 512) (h : Fin 256) (d : Fin 128) (h0 : 1 ≤ h.val) :
    (V m c main_v3 : S512x256x128.Idx → EReal) (ix3 B h d)
      = (m ((c.tc : Thread nD τ).loc main_arg0) : TextCnn.SX.Idx → EReal) (ix4 B 0 ⟨h.val - 1, by have := h.isLt; omega⟩ d) := by
  have hh := h.isLt
  rw [v3_eq]
  refine (pad_apply_of_inside _ _ _ _ _ _ _ _ (ix3 B (⟨h.val - 1, by omega⟩ : Fin 255) d) (fun a => match a with
    | ⟨0, _⟩ => by show B.val = 0 + B.val * (0 + 1); omega
    | ⟨1, _⟩ => by show h.val = 1 + (h.val - 1) * (0 + 1); omega
    | ⟨2, _⟩ => by show d.val = 0 + d.val * (0 + 1); omega)).trans ?_
  exact v2_apply m c _ _ _

/-- The padded batch at row 0: the zero row put in front. -/
private theorem v3_apply_zero (c : Dev nD) (B : Fin 512) (h : Fin 256) (d : Fin 128) (h0 : ¬ 1 ≤ h.val) :
    (V m c main_v3 : S512x256x128.Idx → EReal) (ix3 B h d) = (0 : EReal) := by
  rw [v3_eq]
  refine (pad_apply_of_not_inside _ _ _ _ _ _ _ _ (1 : Fin 3) (fun hin => h0 hin.1)).trans ?_
  rw [sitofp_apply]
  show (((0#32 : BitVec 32).toInt : ℝ) : EReal) = 0
  rw [BitVec.toInt_zero, Int.cast_zero, EReal.coe_zero]

/-- The laid-out input at tile `t`, row `h * 64 + bl` is the padded batch at sample `64 t + bl`, row `h`. -/
private theorem v6_apply_v3 (c : Dev nD) (t : Fin 8) (h : Fin 256) (bl : Fin 64) (d : Fin 128) :
    (V m c main_v6 : S8x16384x128.Idx → EReal) (ix3 t ⟨h.val * 64 + bl.val, by have := h.isLt; have := bl.isLt; omega⟩ d)
      = (V m c main_v3 : S512x256x128.Idx → EReal) (ix3 ⟨64 * t.val + bl.val, by have := t.isLt; have := bl.isLt; omega⟩ h d) := by
  have ht := t.isLt
  have hh := h.isLt
  have hbl := bl.isLt
  rw [v6_eq]
  -- row h * 64 + bl of tile t is entry (t, h, bl) of the tile split by (row, sample)
  refine (shapeCast_apply _ _ _ (ix4 t h bl d) (by
    rw [Shape.rowMajor_val_four, Shape.rowMajor_val_three]
    show ((t.val * 256 + h.val) * 64 + bl.val) * 128 + d.val = (t.val * 16384 + (h.val * 64 + bl.val)) * 128 + d.val
    omega)).trans ?_
  rw [v5_eq]
  -- the transpose swaps (row, sample) back to (sample, row)
  refine (transpose_apply _ _ _ _ (ix4 t bl h d) (fun b => match b with
    | ⟨0, _⟩ => rfl | ⟨1, _⟩ => rfl | ⟨2, _⟩ => rfl | ⟨3, _⟩ => rfl)).trans ?_
  rw [v4_eq]
  -- sample bl of tile t is sample 64 t + bl of the batch
  exact shapeCast_apply _ _ _ (ix3 (⟨64 * t.val + bl.val, by omega⟩ : Fin 512) h d) (by
    rw [Shape.rowMajor_val_three, Shape.rowMajor_val_four]
    show ((64 * t.val + bl.val) * 256 + h.val) * 128 + d.val = ((t.val * 64 + bl.val) * 256 + h.val) * 128 + d.val
    omega)

/-- Tile `t`, row `h * 64 + bl`, lane `d` of the laid-out input is row `h` of sample `64 t + bl` with the zero row in front. -/
theorem v6_read (c : Dev nD) (t : Fin 8) (h : Fin 256) (bl : Fin 64) (d : Fin 128) :
    (V m c main_v6 : S8x16384x128.Idx → EReal) (ix3 t ⟨h.val * 64 + bl.val, by have := h.isLt; have := bl.isLt; omega⟩ d)
      = TextCnn.xrow (m ((c.tc : Thread nD τ).loc main_arg0) : TextCnn.SX.Idx → EReal)
          ⟨64 * t.val + bl.val, by have := t.isLt; have := bl.isLt; omega⟩ h.val d := by
  rw [v6_apply_v3]
  unfold TextCnn.xrow
  by_cases h0 : 1 ≤ h.val
  · rw [dif_pos ⟨h0, h.isLt⟩]
    exact v3_apply_pos m c _ h d h0
  · rw [dif_neg (fun hh' => h0 hh'.1)]
    exact v3_apply_zero m c _ h d h0

end Cert.KernelIdeal.Hand

end
-- ==== Proof.KHost.lean ====
/-
  The arrays the kernel's region is launched on, entry by entry, as the program's arguments.

  Before the region the program lays the input out tile by tile (drop the last row, put a zero row in
  front, split the 512 samples into 8 tiles of 64, and order a tile's rows by (row, sample)), puts the
  convolution weight tap by tap with the input lane first (taps 0,1 and 2,3 side by side along the lanes),
  and lays the linear weight out with row 128 j + f = (window j, feature f), the 16 classes padded to 128 lanes.

  Each array is first written as the composition of the operations that produce it from the argument
  arrays; that composition is then read at an index, outermost operation first: a reshape keeps the
  row-major position, a transpose permutes the coordinates, a slice adds its offset, a format change
  keeps the extended real, a pad is its operand inside and the pad value outside, and two matrices
  side by side are the left one below lane 128 and the right one from lane 128 on.
-/
import proofs.«118798_g2000302331999779_pallasbulk_1131_2_alg».proof.Proof.KHostX
import proofs.«118798_g2000302331999779_pallasbulk_1131_2_alg».proof.Proof.Gen.KernelIdeal.Frame
import proofs.«118798_g2000302331999779_pallasbulk_1131_2_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The five argument arrays on core `c`. -/
abbrev argX (c : Dev nD) : TextCnn.SX.Idx → EReal := m ((c.tc : Thread nD τ).loc main_arg0)
abbrev argCW (c : Dev nD) : TextCnn.SCW.Idx → EReal := m ((c.tc : Thread nD τ).loc main_arg1)
abbrev argCB (c : Dev nD) : TextCnn.SCB.Idx → EReal := m ((c.tc : Thread nD τ).loc main_arg2)
abbrev argLW (c : Dev nD) : TextCnn.SLW.Idx → EReal := m ((c.tc : Thread nD τ).loc main_arg3)
abbrev argLB (c : Dev nD) : TextCnn.SLB.Idx → EReal := m ((c.tc : Thread nD τ).loc main_arg4)

/-! ## The input, tile by tile -/

/-- The laid-out input: tile `t`, row `h * 64 + bl`, lane `d` is row `h` of sample `64 t + bl` with the zero row in front. -/
theorem v6_apply (c : Dev nD) (t : Fin 8) (h : Fin 256) (bl : Fin 64) (d : Fin 128) :
    (V m c main_v6 : S8x16384x128.Idx → EReal) (ix3 t ⟨h.val * 64 + bl.val, by have := h.isLt; have := bl.isLt; omega⟩ d)
      = TextCnn.xrow (argX m c) ⟨64 * t.val + bl.val, by have := t.isLt; have := bl.isLt; omega⟩ h.val d :=
  v6_read m c t h bl d

/-! ## The two bias rows -/

private theorem v22_e (c : Dev nD) :
    (V m c main_v22 : S1x128.Idx → EReal) = shapeCast S1x128 (argCB m c) shapeCasts_S128_S1x128 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The convolution bias as a row. -/
theorem v22_apply (c : Dev nD) (f : Fin 128) :
    (V m c main_v22 : S1x128.Idx → EReal) (ix2 0 f) = argCB m c (ix1 f) := by
  rw [v22_e]
  exact shapeCast_a_1a_apply _ _ 0 f

private theorem v29_e (c : Dev nD) :
    (V m c main_v29 : S1x128.Idx → EReal)
      = pad S1x128 ![0, 0] ![0, 112] ![0, 0] (shapeCast S1x16 (argLB m c) shapeCasts_S16_S1x16)
          (sitofp (F := Ideal) .f32 (constantI S_ 32 0#32)) pads_S1x16_S1x128_000_01120 h_S_ := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The class bias as a row, at a class lane below 16. -/
theorem v29_apply (c : Dev nD) (cc : Fin 16) :
    (V m c main_v29 : S1x128.Idx → EReal) (ix2 0 ⟨cc.val, by have := cc.isLt; omega⟩) = argLB m c (ix1 cc) := by
  rw [v29_e]
  -- lane cc < 16 lies inside the unpadded row
  refine (pad_apply_of_inside _ _ _ _ _ _ _ _ (ix2 (0 : Fin 1) cc) fun a => ?_).trans ?_
  · match a with
    | ⟨0, _⟩ => rfl
    | ⟨1, _⟩ => show cc.val = 0 + cc.val * (0 + 1); omega
  · exact shapeCast_a_1a_apply _ _ 0 cc

/-! ## The convolution weight, tap by tap -/

/-- The weight with the tap first, then the input lane, then the feature. -/
private abbrev w9 (c : Dev nD) : S5x128x128.Idx → EReal :=
  truncf (F := Ideal) .bf16 (transpose S5x128x128 [1, 2, 0]
    (shapeCast S128x5x128 (argCW m c) shapeCasts_S128x1x5x128_S128x5x128)
    transposes_S128x5x128_S5x128x128_1_2_0) bitsLt_bf16_f32

/-- Entry (tap k, lane d, feature f) of the reordered weight is entry (f, 0, k, d) of the argument. -/
private theorem w9_apply (c : Dev nD) (k : Fin 5) (d f : Fin 128) :
    w9 m c (ix3 k d f) = TextCnn.wtap (argCW m c) k d f := by
  unfold TextCnn.wtap
  show transpose S5x128x128 [1, 2, 0] (shapeCast S128x5x128 (argCW m c) shapeCasts_S128x1x5x128_S128x5x128)
    transposes_S128x5x128_S5x128x128_1_2_0 (ix3 k d f) = _
  -- the transpose sends source axes (feature, tap, lane) to (tap, lane, feature)
  refine (transpose_apply _ _ _ _ (ix3 f k d) fun b => ?_).trans ?_
  · match b with
    | ⟨0, _⟩ => rfl
    | ⟨1, _⟩ => rfl
    | ⟨2, _⟩ => rfl
  -- dropping the unit axis keeps the row-major position
  · refine shapeCast_apply _ _ _ (ix4 f (0 : Fin 1) k d) ?_
    rw [Shape.rowMajor_val_four, Shape.rowMajor_val_three]
    show ((f.val * 1 + 0) * 5 + k.val) * 128 + d.val = (f.val * 5 + k.val) * 128 + d.val
    omega

/-- One tap cut out of the reordered weight and flattened to a 128 x 128 matrix. -/
private theorem tap_apply (c : Dev nD) (t : Nat) (ht : t < 5) (h : S5x128x128.Slices ![t, 0, 0] S1x128x128)
    (d f : Fin 128) :
    shapeCast S128x128 (extractStridedSlice S1x128x128 ![t, 0, 0] (w9 m c) h) shapeCasts_S1x128x128_S128x128 (ix2 d f)
      = TextCnn.wtap (argCW m c) ⟨t, ht⟩ d f := by
  refine (shapeCast_1ab_ab_apply _ _ d f).trans ?_
  refine (extractStridedSlice_apply _ _ _ _ (ix3 (⟨t, ht⟩ : Fin 5) d f) fun a => ?_).trans (w9_apply m c ⟨t, ht⟩ d f)
  match a with
  | ⟨0, _⟩ => show t = t + 0; omega
  | ⟨1, _⟩ => show d.val = 0 + d.val; omega
  | ⟨2, _⟩ => show f.val = 0 + f.val; omega

/-- Two 128 x 128 matrices side by side along the lanes: the left one at lane f, the right one at lane 128 + f. -/
private theorem pair_apply (x₁ x₂ : S128x128.Idx → EReal) (d f : Fin 128) :
    concatenate S128x256 1 [⟨S128x128, x₁⟩, ⟨S128x128, x₂⟩] concatenates_S128x128_S128x128_S128x256_d1
        (ix2 d ⟨f.val, by have := f.isLt; omega⟩) = x₁ (ix2 d f)
    ∧ concatenate S128x256 1 [⟨S128x128, x₁⟩, ⟨S128x128, x₂⟩] concatenates_S128x128_S128x128_S128x256_d1
        (ix2 d ⟨128 + f.val, by have := f.isLt; omega⟩) = x₂ (ix2 d f) := by
  constructor
  · refine concatenate_pair_apply_left (t := S128x256) (s₁ := S128x128) (s₂ := S128x128) 1 x₁ x₂
      concatenates_S128x128_S128x128_S128x256_d1 _ rfl (ix2 d f) fun b => ?_
    match b with
    | ⟨0, _⟩ => rfl
    | ⟨1, _⟩ => rfl
  · refine concatenate_pair_apply_right (t := S128x256) (s₁ := S128x128) (s₂ := S128x128) 1 x₁ x₂
      concatenates_S128x128_S128x128_S128x256_d1 _ rfl rfl (ix2 d f) (fun b hb => ?_) ?_
    · match b with
      | ⟨0, _⟩ => rfl
      | ⟨1, _⟩ => exact absurd rfl hb
    · show f.val + 128 = 128 + f.val
      omega

private theorem v14_e (c : Dev nD) :
    (V m c main_v14 : S128x256.Idx → EReal)
      = concatenate S128x256 1
          [⟨S128x128, shapeCast S128x128 (extractStridedSlice S1x128x128 ![0, 0, 0] (w9 m c) slices_S5x128x128_S1x128x128_0_0_0) shapeCasts_S1x128x128_S128x128⟩,
           ⟨S128x128, shapeCast S128x128 (extractStridedSlice S1x128x128 ![1, 0, 0] (w9 m c) slices_S5x128x128_S1x128x128_1_0_0) shapeCasts_S1x128x128_S128x128⟩]
          concatenates_S128x128_S128x128_S128x256_d1 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- Taps 0 and 1 side by side along the lanes. -/
theorem v14_apply (c : Dev nD) (d f : Fin 128) :
    (V m c main_v14 : S128x256.Idx → EReal) (ix2 d ⟨f.val, by have := f.isLt; omega⟩) = TextCnn.wtap (argCW m c) 0 d f
    ∧ (V m c main_v14 : S128x256.Idx → EReal) (ix2 d ⟨128 + f.val, by have := f.isLt; omega⟩) = TextCnn.wtap (argCW m c) 1 d f := by
  rw [v14_e]
  obtain ⟨hl, hr⟩ := pair_apply _ _ d f
  exact ⟨hl.trans (tap_apply m c 0 (by omega) _ d f), hr.trans (tap_apply m c 1 (by omega) _ d f)⟩

private theorem v19_e (c : Dev nD) :
    (V m c main_v19 : S128x256.Idx → EReal)
      = concatenate S128x256 1
          [⟨S128x128, shapeCast S128x128 (extractStridedSlice S1x128x128 ![2, 0, 0] (w9 m c) slices_S5x128x128_S1x128x128_2_0_0) shapeCasts_S1x128x128_S128x128⟩,
           ⟨S128x128, shapeCast S128x128 (extractStridedSlice S1x128x128 ![3, 0, 0] (w9 m c) slices_S5x128x128_S1x128x128_3_0_0) shapeCasts_S1x128x128_S128x128⟩]
          concatenates_S128x128_S128x128_S128x256_d1 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- Taps 2 and 3 side by side along the lanes. -/
theorem v19_apply (c : Dev nD) (d f : Fin 128) :
    (V m c main_v19 : S128x256.Idx → EReal) (ix2 d ⟨f.val, by have := f.isLt; omega⟩) = TextCnn.wtap (argCW m c) 2 d f
    ∧ (V m c main_v19 : S128x256.Idx → EReal) (ix2 d ⟨128 + f.val, by have := f.isLt; omega⟩) = TextCnn.wtap (argCW m c) 3 d f := by
  rw [v19_e]
  obtain ⟨hl, hr⟩ := pair_apply _ _ d f
  exact ⟨hl.trans (tap_apply m c 2 (by omega) _ d f), hr.trans (tap_apply m c 3 (by omega) _ d f)⟩

private theorem v21_e (c : Dev nD) :
    (V m c main_v21 : S128x128.Idx → EReal)
      = shapeCast S128x128 (extractStridedSlice S1x128x128 ![4, 0, 0] (w9 m c) slices_S5x128x128_S1x128x128_4_0_0) shapeCasts_S1x128x128_S128x128 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- Tap 4. -/
theorem v21_apply (c : Dev nD) (d f : Fin 128) :
    (V m c main_v21 : S128x128.Idx → EReal) (ix2 d f) = TextCnn.wtap (argCW m c) 4 d f := by
  rw [v21_e]
  exact tap_apply m c 4 (by omega) _ d f

/-! ## The linear weight -/

private theorem v27_e (c : Dev nD) :
    (V m c main_v27 : S8064x128.Idx → EReal)
      = truncf (F := Ideal) .bf16 (pad S8064x128 ![0, 0] ![0, 112] ![0, 0]
          (shapeCast S8064x16 (transpose S63x128x16 [2, 1, 0]
            (shapeCast S16x128x63 (argLW m c) shapeCasts_S16x8064_S16x128x63)
            transposes_S16x128x63_S63x128x16_2_1_0) shapeCasts_S63x128x16_S8064x16)
          (sitofp (F := Ideal) .f32 (constantI S_ 32 0#32)) pads_S8064x16_S8064x128_000_01120 h_S_) bitsLt_bf16_f32 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The laid-out linear weight at a class lane below 16. -/
theorem v27_apply (c : Dev nD) (j : Fin 63) (f : Fin 128) (cc : Fin 16) :
    (V m c main_v27 : S8064x128.Idx → EReal) (ix2 ⟨128 * j.val + f.val, by have := j.isLt; have := f.isLt; omega⟩ ⟨cc.val, by have := cc.isLt; omega⟩)
      = argLW m c (ix2 cc ⟨f.val * 63 + j.val, by have := j.isLt; have := f.isLt; omega⟩) := by
  rw [v27_e]
  have hj := j.isLt
  have hf := f.isLt
  -- the format change keeps the value
  refine (truncf_apply (ψ := .bf16) _ bitsLt_bf16_f32 _).trans ?_
  -- lane cc < 16 lies inside the unpadded rows
  refine (pad_apply_of_inside _ _ _ _ _ _ _ _ (ix2 (⟨128 * j.val + f.val, by omega⟩ : Fin 8064) cc) fun a => ?_).trans ?_
  · match a with
    | ⟨0, _⟩ => show 128 * j.val + f.val = 0 + (128 * j.val + f.val) * (0 + 1); omega
    | ⟨1, _⟩ => show cc.val = 0 + cc.val * (0 + 1); omega
  -- row 128 j + f of the flattened array is (window j, feature f)
  refine (shapeCast_apply _ _ _ (ix3 j f cc) ?_).trans ?_
  · rw [Shape.rowMajor_val_three, Shape.rowMajor_val_two]
    show (j.val * 128 + f.val) * 16 + cc.val = (128 * j.val + f.val) * 16 + cc.val
    omega
  -- the transpose reverses the three axes
  refine (transpose_apply _ _ _ _ (ix3 cc f j) fun b => ?_).trans ?_
  · match b with
    | ⟨0, _⟩ => rfl
    | ⟨1, _⟩ => rfl
    | ⟨2, _⟩ => rfl
  -- position f * 63 + j of the class's 8064 weights is (feature f, window j)
  refine shapeCast_apply _ _ _ (ix2 cc (⟨f.val * 63 + j.val, by omega⟩ : Fin 8064)) ?_
  rw [Shape.rowMajor_val_two, Shape.rowMajor_val_three]
  show cc.val * 8064 + (f.val * 63 + j.val) = (cc.val * 128 + f.val) * 63 + j.val
  omega

end Cert.KernelIdeal.Hand

end
-- ==== Proof.KValue.lean ====
/-
  A tile's stored block, entry by entry, as the network's scores of the program's arguments.

  Tile t, local sample b is sample B = 64 t + b: the rows of the tile's input block are that sample's
  rows with the zero row in front, the taps, biases and linear weight the region is launched on are the
  arguments' entries, so entry (b, c) of the block is `TextCnn.G` at (B, c) for a class c below 16.
-/
import proofs.«118798_g2000302331999779_pallasbulk_1131_2_alg».proof.Proof.KIndex
import proofs.«118798_g2000302331999779_pallasbulk_1131_2_alg».proof.Proof.KHost
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ### The windows' blocks: which entries of the launched arrays a point's blocks hold -/

/-- The grid has 8 points. -/
private theorem t_lt (t : Fin cfg0.N) : t.val < 8 :=
  Nat.lt_of_lt_of_eq t.isLt N_0

/-- The activations' window moves with the tile; every other input window stays on its whole array. -/
private theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Reading any 8 x 16384 x 128 array through tile `t`'s block reads its slab `t`. -/
private theorem read_blk0 (G : S8x16384x128.Idx → EReal) (t : Fin cfg0.N) (r : Fin 16384) (d : Fin 128) :
    ((cfg0.win 0).blk t).view.read (Elt Ideal) G (ix3 0 r d) = G (ix3 ⟨t.val, t_lt t⟩ r d) := by
  obtain ⟨e0, e1, e2⟩ := idx0 t
  rw [View.read_apply]
  show G _ = G _
  congr 1
  funext a
  apply Fin.ext
  match a with
  | ⟨0, _⟩ => show win0_0.index t 0 * 1 + 1 * 0 = t.val; rw [e0]; omega
  | ⟨1, _⟩ => show win0_0.index t 1 * 16384 + 1 * r.val = r.val; rw [e1]; omega
  | ⟨2, _⟩ => show win0_0.index t 2 * 128 + 1 * d.val = d.val; rw [e2]; omega

private theorem idx1 : ∀ t : Fin cfg0.N, win0_1.index t 0 = 0 ∧ win0_1.index t 1 = 0 :=
  (by decide +kernel : ∀ t : Fin grid0.N, win0_1.index t 0 = 0 ∧ win0_1.index t 1 = 0)

/-- Window 1's block is its whole array at every point: reading any array through it reads the array. -/
private theorem read_blk1 (G : S128x256.Idx → EReal) (t : Fin cfg0.N) (p : Fin 128) (q : Fin 256) :
    ((cfg0.win 1).blk t).view.read (Elt Ideal) G (ix2 p q) = G (ix2 p q) := by
  obtain ⟨e0, e1⟩ := idx1 t
  rw [View.read_apply]
  show G _ = G _
  congr 1
  funext a
  apply Fin.ext
  match a with
  | ⟨0, _⟩ => show win0_1.index t 0 * 128 + 1 * p.val = p.val; rw [e0]; omega
  | ⟨1, _⟩ => show win0_1.index t 1 * 256 + 1 * q.val = q.val; rw [e1]; omega

private theorem idx2 : ∀ t : Fin cfg0.N, win0_2.index t 0 = 0 ∧ win0_2.index t 1 = 0 :=
  (by decide +kernel : ∀ t : Fin grid0.N, win0_2.index t 0 = 0 ∧ win0_2.index t 1 = 0)

/-- Window 2's block is its whole array at every point: reading any array through it reads the array. -/
private theorem read_blk2 (G : S128x256.Idx → EReal) (t : Fin cfg0.N) (p : Fin 128) (q : Fin 256) :
    ((cfg0.win 2).blk t).view.read (Elt Ideal) G (ix2 p q) = G (ix2 p q) := by
  obtain ⟨e0, e1⟩ := idx2 t
  rw [View.read_apply]
  show G _ = G _
  congr 1
  funext a
  apply Fin.ext
  match a with
  | ⟨0, _⟩ => show win0_2.index t 0 * 128 + 1 * p.val = p.val; rw [e0]; omega
  | ⟨1, _⟩ => show win0_2.index t 1 * 256 + 1 * q.val = q.val; rw [e1]; omega

private theorem idx3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array at every point: reading any array through it reads the array. -/
private theorem read_blk3 (G : S128x128.Idx → EReal) (t : Fin cfg0.N) (p : Fin 128) (q : Fin 128) :
    ((cfg0.win 3).blk t).view.read (Elt Ideal) G (ix2 p q) = G (ix2 p q) := by
  obtain ⟨e0, e1⟩ := idx3 t
  rw [View.read_apply]
  show G _ = G _
  congr 1
  funext a
  apply Fin.ext
  match a with
  | ⟨0, _⟩ => show win0_3.index t 0 * 128 + 1 * p.val = p.val; rw [e0]; omega
  | ⟨1, _⟩ => show win0_3.index t 1 * 128 + 1 * q.val = q.val; rw [e1]; omega

private theorem idx4 : ∀ t : Fin cfg0.N, win0_4.index t 0 = 0 ∧ win0_4.index t 1 = 0 :=
  (by decide +kernel : ∀ t : Fin grid0.N, win0_4.index t 0 = 0 ∧ win0_4.index t 1 = 0)

/-- Window 4's block is its whole array at every point: reading any array through it reads the array. -/
private theorem read_blk4 (G : S1x128.Idx → EReal) (t : Fin cfg0.N) (p : Fin 1) (q : Fin 128) :
    ((cfg0.win 4).blk t).view.read (Elt Ideal) G (ix2 p q) = G (ix2 p q) := by
  obtain ⟨e0, e1⟩ := idx4 t
  rw [View.read_apply]
  show G _ = G _
  congr 1
  funext a
  apply Fin.ext
  match a with
  | ⟨0, _⟩ => show win0_4.index t 0 * 1 + 1 * p.val = p.val; rw [e0]; omega
  | ⟨1, _⟩ => show win0_4.index t 1 * 128 + 1 * q.val = q.val; rw [e1]; omega

private theorem idx5 : ∀ t : Fin cfg0.N, win0_5.index t 0 = 0 ∧ win0_5.index t 1 = 0 :=
  (by decide +kernel : ∀ t : Fin grid0.N, win0_5.index t 0 = 0 ∧ win0_5.index t 1 = 0)

/-- Window 5's block is its whole array at every point: reading any array through it reads the array. -/
private theorem read_blk5 (G : S8064x128.Idx → EReal) (t : Fin cfg0.N) (p : Fin 8064) (q : Fin 128) :
    ((cfg0.win 5).blk t).view.read (Elt Ideal) G (ix2 p q) = G (ix2 p q) := by
  obtain ⟨e0, e1⟩ := idx5 t
  rw [View.read_apply]
  show G _ = G _
  congr 1
  funext a
  apply Fin.ext
  match a with
  | ⟨0, _⟩ => show win0_5.index t 0 * 8064 + 1 * p.val = p.val; rw [e0]; omega
  | ⟨1, _⟩ => show win0_5.index t 1 * 128 + 1 * q.val = q.val; rw [e1]; omega

private theorem idx6 : ∀ t : Fin cfg0.N, win0_6.index t 0 = 0 ∧ win0_6.index t 1 = 0 :=
  (by decide +kernel : ∀ t : Fin grid0.N, win0_6.index t 0 = 0 ∧ win0_6.index t 1 = 0)

/-- Window 6's block is its whole array at every point: reading any array through it reads the array. -/
private theorem read_blk6 (G : S1x128.Idx → EReal) (t : Fin cfg0.N) (p : Fin 1) (q : Fin 128) :
    ((cfg0.win 6).blk t).view.read (Elt Ideal) G (ix2 p q) = G (ix2 p q) := by
  obtain ⟨e0, e1⟩ := idx6 t
  rw [View.read_apply]
  show G _ = G _
  congr 1
  funext a
  apply Fin.ext
  match a with
  | ⟨0, _⟩ => show win0_6.index t 0 * 1 + 1 * p.val = p.val; rw [e0]; omega
  | ⟨1, _⟩ => show win0_6.index t 1 * 128 + 1 * q.val = q.val; rw [e1]; omega

/-! ### The blocks the body is run on, as the launched arrays -/

/-- Tile `t`'s input block is slab `t` of the laid-out input. -/
private theorem iblk0_apply (c : Dev nD) (t : Fin cfg0.N) (r : Fin 16384) (d : Fin 128) :
    (iblk m c 0 t : Vec Ideal S1x16384x128 .bf16) (ix3 0 r d)
      = (V m c main_v6 : S8x16384x128.Idx → EReal) (ix3 ⟨t.val, t_lt t⟩ r d) :=
  read_blk0 (V m c main_v6) t r d

private theorem iblk1_apply (c : Dev nD) (t : Fin cfg0.N) (p : Fin 128) (q : Fin 256) :
    (iblk m c 1 t : Vec Ideal S128x256 .bf16) (ix2 p q) = (V m c main_v14 : S128x256.Idx → EReal) (ix2 p q) :=
  read_blk1 (V m c main_v14) t p q

private theorem iblk2_apply (c : Dev nD) (t : Fin cfg0.N) (p : Fin 128) (q : Fin 256) :
    (iblk m c 2 t : Vec Ideal S128x256 .bf16) (ix2 p q) = (V m c main_v19 : S128x256.Idx → EReal) (ix2 p q) :=
  read_blk2 (V m c main_v19) t p q

private theorem iblk3_apply (c : Dev nD) (t : Fin cfg0.N) (p : Fin 128) (q : Fin 128) :
    (iblk m c 3 t : Vec Ideal S128x128 .bf16) (ix2 p q) = (V m c main_v21 : S128x128.Idx → EReal) (ix2 p q) :=
  read_blk3 (V m c main_v21) t p q

private theorem iblk4_apply (c : Dev nD) (t : Fin cfg0.N) (p : Fin 1) (q : Fin 128) :
    (iblk m c 4 t : Vec Ideal S1x128 .f32) (ix2 p q) = (V m c main_v22 : S1x128.Idx → EReal) (ix2 p q) :=
  read_blk4 (V m c main_v22) t p q

private theorem iblk5_apply (c : Dev nD) (t : Fin cfg0.N) (p : Fin 8064) (q : Fin 128) :
    (iblk m c 5 t : Vec Ideal S8064x128 .bf16) (ix2 p q) = (V m c main_v27 : S8064x128.Idx → EReal) (ix2 p q) :=
  read_blk5 (V m c main_v27) t p q

private theorem iblk6_apply (c : Dev nD) (t : Fin cfg0.N) (p : Fin 1) (q : Fin 128) :
    (iblk m c 6 t : Vec Ideal S1x128 .f32) (ix2 p q) = (V m c main_v29 : S1x128.Idx → EReal) (ix2 p q) :=
  read_blk6 (V m c main_v29) t p q

/-- Entry `(b, cc)` of the block point `t` stores is the score of sample `B = 64 t + b` for class `cc`. -/
theorem block_value (c : Dev nD) (t : Fin cfg0.N) (b : Fin 64) (cc : Fin 16) (B : Fin 512) (hB : B.val = 64 * t.val + b.val) :
    out0_7 (iblk m c 0 t) (iblk m c 1 t) (iblk m c 2 t) (iblk m c 3 t) (iblk m c 4 t) (iblk m c 5 t) (iblk m c 6 t)
        (ix2 b ⟨cc.val, by have := cc.isLt; omega⟩)
      = TextCnn.G (argX m c) (argCW m c) (argCB m c) (argLW m c) (argLB m c) (ix2 B cc) := by
  have ht := t_lt t
  have hb := b.isLt
  have hcc := cc.isLt
  have hlt : 64 * t.val + b.val < 512 := by omega
  have eB : (⟨64 * t.val + b.val, hlt⟩ : Fin 512) = B := Fin.ext hB.symm
  refine (block_apply (iblk m c 0 t) (iblk m c 1 t) (iblk m c 2 t) (iblk m c 3 t) (iblk m c 4 t) (iblk m c 5 t)
    (iblk m c 6 t) b ⟨cc.val, by omega⟩).trans ?_
  unfold TextCnn.G
  show _ = TextCnn.sample (TextCnn.xrow (argX m c) B) (TextCnn.wtap (argCW m c))
    (fun f => argCB m c (ix1 f)) (TextCnn.wlin (argLW m c) cc) (argLB m c (ix1 cc))
  refine TextCnn.sample_congr ?_ ?_ ?_ ?_ ?_
  · intro h hh d
    unfold rowK
    rw [dif_pos (by omega)]
    exact ((iblk0_apply m c t ⟨h * 64 + b.val, by omega⟩ d).trans (v6_apply m c ⟨t.val, ht⟩ ⟨h, hh⟩ b d)).trans
      (congrArg (fun X => TextCnn.xrow (argX m c) X h d) eB)
  · intro k d f
    have hf := f.isLt
    match k with
    | ⟨0, _⟩ => exact (iblk1_apply m c t d ⟨f.val, by omega⟩).trans (v14_apply m c d f).1
    | ⟨1, _⟩ => exact (iblk1_apply m c t d ⟨128 + f.val, by omega⟩).trans (v14_apply m c d f).2
    | ⟨2, _⟩ => exact (iblk2_apply m c t d ⟨f.val, by omega⟩).trans (v19_apply m c d f).1
    | ⟨3, _⟩ => exact (iblk2_apply m c t d ⟨128 + f.val, by omega⟩).trans (v19_apply m c d f).2
    | ⟨4, _⟩ => exact (iblk3_apply m c t d f).trans (v21_apply m c d f)
  · intro f
    exact (iblk4_apply m c t 0 f).trans (v22_apply m c f)
  · intro j hj f
    have hf := f.isLt
    unfold wlK TextCnn.wlin
    rw [dif_pos hj, dif_pos hj]
    exact (iblk5_apply m c t ⟨128 * j + f.val, by omega⟩ ⟨cc.val, by omega⟩).trans (v27_apply m c ⟨j, hj⟩ f cc)
  · exact (iblk6_apply m c t 0 ⟨cc.val, by omega⟩).trans (v29_apply m c cc)

end Cert.KernelIdeal.Hand

end
-- ==== Proof.KFinal.lean ====
/-
  The kernel's whole run, read: the result array holds the network's scores.

  Tile t's output block is rows 64 t .. 64 t + 63 of the 512 x 128 array the region writes, the eight
  blocks cover it, and each block's entry (b, c) is the score of sample 64 t + b at class lane c; the
  program then keeps the first 16 lanes.
-/
import proofs.«118798_g2000302331999779_pallasbulk_1131_2_alg».proof.Proof.KIndex
import proofs.«118798_g2000302331999779_pallasbulk_1131_2_alg».proof.Proof.KHost
import proofs.«118798_g2000302331999779_pallasbulk_1131_2_alg».proof.Proof.KValue
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Grid point number `n`. -/
def pt (n : Nat) (h : n < 8) : Fin cfg0.N := ⟨n, by rw [show cfg0.N = 8 from N_0]; exact h⟩

/-- Its number. -/
theorem pt_val (n : Nat) (h : n < 8) : (pt n h).val = n := rfl

/-- Entry `(b, l)` of the block tile `t` stores. -/
def Gat (c : Dev nD) (t : Fin cfg0.N) (b : Fin 64) (l : Fin 128) : EReal :=
  out0_7 (iblk m c 0 t) (iblk m c 1 t) (iblk m c 2 t) (iblk m c 3 t) (iblk m c 4 t) (iblk m c 5 t) (iblk m c 6 t) (ix2 b l)

/-- The whole 512 x 128 array the region writes: row `B` is row `B % 64` of tile `B / 64`'s block. -/
def Gfull (c : Dev nD) : S512x128.Idx → EReal := fun i =>
  Gat m c (pt ((i 0).val / 64) (by have h : (i 0).val < 512 := (i 0).isLt; omega))
    ⟨(i 0).val % 64, Nat.mod_lt _ (by decide)⟩ ⟨(i 1).val, (i 1).isLt⟩

/-- The array at an index whose row is row `b` of tile `t`. -/
theorem Gfull_apply (c : Dev nD) (i : S512x128.Idx) (t : Fin cfg0.N) (b : Fin 64) (l : Fin 128)
    (h0 : (i 0).val = t.val * 64 + b.val) (h1 : (i 1).val = l.val) : Gfull m c i = Gat m c t b l := by
  have hb := b.isLt
  unfold Gfull
  congr 1
  · apply Fin.ext; show (i 0).val / 64 = t.val; omega
  · apply Fin.ext; show (i 0).val % 64 = b.val; omega
  · apply Fin.ext; exact h1

/-- The output window's index map: tile `t` writes block row `t`, block column 0. -/
theorem idx7 : ∀ t : Fin cfg0.N, win0_7.index t 0 = t.val ∧ win0_7.index t 1 = 0 :=
  (by decide +kernel : ∀ t : Fin grid0.N, win0_7.index t 0 = t.val ∧ win0_7.index t 1 = 0)

/-- What tile `t` writes back is its block of the whole array `Gfull`. -/
theorem flushed_eq (c : Dev nD) (t : Fin cfg0.N) :
    (dats m 0 c).flushed 7 t = ((cfg0.win 7).blk t).view.read (Elt Ideal) (Gfull m c) := by
  show (cfg0.win 7).cut (grid0.coords t) ((dats m 0 c).after 7 t) = _
  rw [after0_7]
  funext y
  rw [View.read_apply]
  obtain ⟨e0, e1⟩ := idx7 t
  have hy0 : (y 0).val < 64 := (y 0).isLt
  have hy1 : (y 1).val < 128 := (y 1).isLt
  show (out0_7 (F := Ideal) _ _ _ _ _ _ _ (win0_7.xinj (grid0.coords t) y) : EReal) = Gfull m c (((cfg0.win 7).blk t).view.emb y)
  rw [Gfull_apply m c (((cfg0.win 7).blk t).view.emb y) t ⟨(y 0).val, hy0⟩ ⟨(y 1).val, hy1⟩
    (by show win0_7.index t 0 * 64 + 1 * (y 0).val = _; rw [e0]; show _ = t.val * 64 + (y 0).val; omega)
    (by show win0_7.index t 1 * 128 + 1 * (y 1).val = _; rw [e1]; show _ = (y 1).val; omega)]
  unfold Gat
  congr 1
  funext a
  match a with
  | ⟨0, _⟩ => rfl
  | ⟨1, _⟩ => rfl

/-- An index of the array is in tile `t`'s block iff each coordinate is in the block's range on its axis. -/
theorem mem_blk (c : Dev nD) (t : Fin cfg0.N) (i : ((cfg0.win 7).arr.view.loc (c.tc : Thread nD τ)).2.ty.Idx) :
    i ∈ ((cfg0.win 7).blk t).view.set ↔ ∀ a : Fin 2, win0_7.index t a * S64x128.size a ≤ (i a).val ∧ (i a).val < win0_7.index t a * S64x128.size a + S64x128.size a := by
  show i ∈ ((View.whole main_v30).slice (win0_7.rect t)).set ↔ _
  rw [View.set_slice_whole, Rect.mem_set_unit]
  exact Iff.rfl

/-- Every index of the array lies in the block of the tile its row belongs to. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0).val < 512 := (i 0).isLt
  have h1 : (i 1).val < 128 := (i 1).isLt
  refine ⟨pt ((i 0).val / 64) (by omega), flush0_7 _, ?_⟩
  obtain ⟨e0, e1⟩ := idx7 (pt ((i 0).val / 64) (by omega))
  rw [mem_blk]
  intro a
  match a with
  | ⟨0, _⟩ =>
    show win0_7.index _ 0 * 64 ≤ (i 0).val ∧ (i 0).val < win0_7.index _ 0 * 64 + 64
    rw [e0, pt_val]; omega
  | ⟨1, _⟩ =>
    show win0_7.index _ 1 * 128 ≤ (i 1).val ∧ (i 1).val < win0_7.index _ 1 * 128 + 128
    rw [e1]; omega

/-- So the array the region writes ends holding `Gfull`. -/
theorem final (c : Dev nD) : (dats m 0 c).arrAt 7 cfg0.N = Gfull m c :=
  (dats m 0 c).arrAt_eq_of_cover 7 (Gfull m c) (fun t _ => flushed_eq m c t) (cover c)

/-- Every weakly fair execution of the kernel's program ends with the result array at the network's
    scores of the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v31) = TextCnn.G (argX m c) (argCW m c) (argCB m c) (argLW m c) (argLB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)
  -- the result is the final slice of the array the region wrote
  refine ((h c).2 main_v31 (Pipeline.mem_restRefs_of main_v31 (by decide) (by decide))).trans ?_
  unfold Pipeline.afterTail₀
  show StableHlo.after hostOps1 _ (Proc.devRef .tc main_v31) = _
  after_results
  rw [show Pipeline.withArrays (cfgs 0).spec c (V0 m c) (fun w => (dats m 0 c).arrAt w (cfgs 0).N) (Proc.devRef .tc main_v30) = Gfull m c from
    (Pipeline.withArrays_arr spec0 launch0.win.arr_inj c _ _ 7).trans (final m c)]
  -- entry (B, cc) of the slice is entry (B, cc) of the array, in tile B / 64's block at row B % 64
  funext i
  obtain ⟨B, cc, rfl⟩ : ∃ (B : Fin 512) (cc : Fin 16), i = ix2 B cc := ⟨i 0, i 1, eq_ix2 i⟩
  have hB := B.isLt
  have hcc := cc.isLt
  refine (extractStridedSlice_apply _ _ _ (ix2 B cc) (ix2 B ⟨cc.val, by omega⟩) (fun a => ?_)).trans ?_
  · match a with
    | ⟨0, _⟩ => show B.val = 0 + B.val; omega
    | ⟨1, _⟩ => show cc.val = 0 + cc.val; omega
  rw [Gfull_apply m c (ix2 B ⟨cc.val, by omega⟩) (pt (B.val / 64) (by omega)) ⟨B.val % 64, Nat.mod_lt _ (by decide)⟩ ⟨cc.val, by omega⟩
    (by show B.val = B.val / 64 * 64 + B.val % 64; omega) rfl]
  unfold Gat
  exact block_value m c (pt (B.val / 64) (by omega)) ⟨B.val % 64, Nat.mod_lt _ (by decide)⟩ cc B
    (by show B.val = 64 * (B.val / 64) + B.val % 64; omega)

end Cert.KernelIdeal.Hand

end
-- ==== Proof.RMirror.lean ====
/-
  The reference's block computation restated with the pooled slab, the weight slab and the running
  sum as definitions in the pooling-window number.

  Per batch tile of 48 samples the body computes the 12096 x 128 array of rectified convolution outputs
  (row (t, b) = output position t of sample b), then for each of the 63 pooling windows j the elementwise
  maximum of the four 48-row slabs 4j .. 4j+3, multiplies it by slab j of the 63 x 128 x 128 linear weight
  and adds the 63 products up in order; the bias row is added last.
-/
import proofs.«118798_g2000302331999779_pallasbulk_1131_2_alg».proof.Proof.Gen.ReferenceIdeal.Frame
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe
open Cert.ReferenceIdeal Cert.ReferenceIdeal.Gen

variable {F : FTy → Type} [FloatOps F]

/-- A 48-row slab starting at row `o` lies inside the 12096 rows when `o + 48 ≤ 12096`. -/
theorem slab_slices (o : Nat) (ho : o + 48 ≤ 12096) : S12096x128.Slices ![o, 0] S48x128 :=
  ⟨rfl, fun a => by
    match a with
    | ⟨0, _⟩ => exact ho
    | ⟨1, _⟩ => exact Nat.le_refl _⟩

/-- Pooled slab `n`: the elementwise maximum of the four consecutive 48-row slabs of window `n`. -/
def slabV (v34 : FVec F S12096x128 .f32) (n : Fin 63) : FVec F S48x128 .bf16 :=
  truncf .bf16 (maximumf (maximumf (maximumf
    (extractStridedSlice S48x128 ![192 * n.val, 0] v34 (slab_slices _ (by omega)))
    (extractStridedSlice S48x128 ![192 * n.val + 48, 0] v34 (slab_slices _ (by omega))))
    (extractStridedSlice S48x128 ![192 * n.val + 96, 0] v34 (slab_slices _ (by omega))))
    (extractStridedSlice S48x128 ![192 * n.val + 144, 0] v34 (slab_slices _ (by omega)))) bitsLt_bf16_f32

/-- Slab `n` of the linear weight is inside its 63 slabs. -/
theorem wrect_inb (n : Fin 63) : ∀ a, (![n.val, 0, 0] : Fin 3 → Nat) a + S1x128x128.size a ≤ S63x128x128.size a := fun a => by
  match a with
  | ⟨0, _⟩ => show n.val + 1 ≤ 63; omega
  | ⟨1, _⟩ => exact Nat.le_refl _
  | ⟨2, _⟩ => exact Nat.le_refl _

/-- The rectangle of slab `n` of the linear weight. -/
def wRect (n : Fin 63) : Rect S63x128x128 := Rect.unit (s := S63x128x128) ![n.val, 0, 0] S1x128x128.size (wrect_inb n)

/-- Window `n`'s product: its pooled slab times slab `n` of the linear weight. -/
def partV (v34 : FVec F S12096x128 .f32) (x3 : Vec F S63x128x128 .bf16) (n : Fin 63) : FVec F S48x128 .f32 :=
  matmul dot_S48x128_S128x128_S48x128_1_0_0_1_n_n none (slabV v34 n)
    (shapeCast S128x128 (View.ld x3 (wRect n)) shapeCasts_S1x128x128_S128x128) (constant S48x128 .f32 0x00000000#32)

/-- The products of windows `0 .. n` added up in order. -/
def accV (v34 : FVec F S12096x128 .f32) (x3 : Vec F S63x128x128 .bf16) : (n : Nat) → n < 63 → FVec F S48x128 .f32
  | 0, h => partV v34 x3 ⟨0, h⟩
  | n + 1, h => addf (accV v34 x3 n (Nat.lt_of_succ_lt h)) (partV v34 x3 ⟨n + 1, h⟩)

/-- The rectified convolution outputs of one tile, from the loaded blocks. -/
abbrev actV (x0 : Vec F S1x12288x128 .bf16) (x1 : Vec F S5x128x128 .bf16) (x2 : Vec F S1x128 .f32) : FVec F S12096x128 .f32 :=
  k0_pay4 (k0_pay2 (View.ld x0 r0_0) (View.ld x1 r0_1) (View.ld x0 r0_2) (View.ld x1 r0_3) (View.ld x0 r0_4) (View.ld x1 r0_5) (View.ld x0 r0_6) (View.ld x1 r0_7))
    (k0_pay3 (View.ld x0 r0_8)) (View.ld x1 r0_9) (View.ld x2 r0_10)

/-- The block the body stores: the 63 products added up, plus the bias row. -/
def headV (v34 : FVec F S12096x128 .f32) (x3 : Vec F S63x128x128 .bf16) (x4 : Vec F S1x128 .f32) : FVec F S48x128 .f32 :=
  addf (accV v34 x3 62 (by decide))
    (broadcastTo S48x128 (shapeCast S1x128 (View.ld x4 r0_10) shapeCasts_S1x128_S1x128) broadcasts_S1x128_S48x128)

/-- What the body leaves in the output block is `headV` of the tile's activations. -/
theorem out0_5_eq (x0 : Vec F S1x12288x128 .bf16) (x1 : Vec F S5x128x128 .bf16) (x2 : Vec F S1x128 .f32)
    (x3 : Vec F S63x128x128 .bf16) (x4 : Vec F S1x128 .f32) :
    out0_5 x0 x1 x2 x3 x4 = View.canon [⟨r0_74, headV (actV x0 x1 x2) x3 x4⟩] := by
  rfl

end Cert.ReferenceIdeal.Hand

end
-- ==== Proof.RIndex.lean ====
/-
  The reference's output block, entry by entry, as the network's score.

  Entry (b, c) of the block a tile stores is the score of the tile's sample b for the (lane-padded) class c:
  the activations' array is read at row (t, b) = 48 t + b, the pooled slab j at lane f is the maximum over
  the window's four positions, and the 63 per-window products with the weight's slabs are added in order.
-/
import proofs.«118798_g2000302331999779_pallasbulk_1131_2_alg».proof.Proof.RMirror
import proofs.«118798_g2000302331999779_pallasbulk_1131_2_alg».proof.Proof.Spec
import Idealize.ShloMosaic.PureOps.Ideal.Laws
import Idealize.ShloMosaic.Lib.ValueLayout

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen

/-- Row `r` of the tile's input block (zero past the block). -/
def rowR (x0 : Vec Ideal S1x12288x128 .bf16) (r : Nat) (d : Fin 128) : EReal :=
  if h : r < 12288 then x0 (ix3 0 ⟨r, h⟩ d) else 0

/-- The five taps' weights. -/
def tapR (x1 : Vec Ideal S5x128x128 .bf16) (k : Fin 5) (d f : Fin 128) : EReal := x1 (ix3 k d f)

/-- The linear weight's slab of window `j`, feature `f`, at class lane `c`. -/
def wlR (x3 : Vec Ideal S63x128x128 .bf16) (c : Fin 128) (j : Nat) (f : Fin 128) : EReal :=
  if h : j < 63 then x3 (ix3 ⟨j, h⟩ f c) else 0

/-- A plain M x K by K x N block product into the zero accumulator, read at (a, b). -/
private theorem mm_apply {M K N : Nat} {φ₁ φ₂ : FTy}
    (w : DotDims.WF ⟨2, ![M, K]⟩ ⟨2, ![K, N]⟩ ⟨2, ![M, N]⟩ [1] [0] [0] [1] [] [])
    (L : FVec Ideal ⟨2, ![M, K]⟩ φ₁) (R : FVec Ideal ⟨2, ![K, N]⟩ φ₂) (a : Fin M) (b : Fin N) :
    matmul (⟨[1], [0], [0], [1], [], [], w⟩ : DotDims _ _ _) none L R (constant (F := Ideal) ⟨2, ![M, N]⟩ .f32 0x00000000#32) (ix2 a b)
      = ∑ c : Fin K, L (ix2 a c) * R (ix2 c b) := by
  show FloatOps.matmul _ none L R _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

private theorem mm1_apply (L : FVec Ideal S12096x128 .bf16) (R : FVec Ideal S128x128 .bf16) (a : Fin 12096) (b : Fin 128) :
    matmul dot_S12096x128_S128x128_S12096x128_1_0_0_1_n_n none L R (constant (F := Ideal) S12096x128 .f32 0x00000000#32) (ix2 a b)
      = ∑ c : Fin 128, L (ix2 a c) * R (ix2 c b) :=
  mm_apply dot_S12096x128_S128x128_S12096x128_1_0_0_1_n_n_wf L R a b

private theorem mm2_apply (L : FVec Ideal S48x128 .bf16) (R : FVec Ideal S128x128 .bf16) (a : Fin 48) (b : Fin 128) :
    matmul dot_S48x128_S128x128_S48x128_1_0_0_1_n_n none L R (constant (F := Ideal) S48x128 .f32 0x00000000#32) (ix2 a b)
      = ∑ c : Fin 128, L (ix2 a c) * R (ix2 c b) :=
  mm_apply dot_S48x128_S128x128_S48x128_1_0_0_1_n_n_wf L R a b

/-- The 12096-row window of the input block at row offset `o`, with its unit axis dropped, read at (r, d):
    row `r + o` of the block. -/
private theorem xld_apply (x0 : Vec Ideal S1x12288x128 .bf16) (o : Nat)
    (inb : ∀ a, (![0, o, 0] : Fin 3 → Nat) a + S1x12096x128.size a ≤ S1x12288x128.size a) (r : Fin 12096) (d : Fin 128) :
    shapeCast S12096x128 (View.ld x0 (Rect.unit (s := S1x12288x128) ![0, o, 0] S1x12096x128.size inb))
      shapeCasts_S1x12096x128_S12096x128 (ix2 r d) = rowR x0 (r.val + o) d := by
  have ho : o + 12096 ≤ 12288 := inb 1
  have hlt : r.val + o < 12288 := by have := r.isLt; omega
  rw [rowR, dif_pos hlt]
  refine (shapeCast_1ab_ab_apply _ shapeCasts_S1x12096x128_S12096x128 r d).trans ?_
  show x0 _ = x0 _
  congr 1
  funext a; apply Fin.ext
  match a with
  | ⟨0, _⟩ => rfl
  | ⟨1, _⟩ => show o + 1 * r.val = r.val + o; omega
  | ⟨2, _⟩ => show 0 + 1 * d.val = d.val; omega

/-- Slab `k` of the tap weight, with its unit axis dropped, read at (d, f). -/
private theorem tld_apply (x1 : Vec Ideal S5x128x128 .bf16) (k : Nat)
    (inb : ∀ a, (![k, 0, 0] : Fin 3 → Nat) a + S1x128x128.size a ≤ S5x128x128.size a) (d f : Fin 128) :
    shapeCast S128x128 (View.ld x1 (Rect.unit (s := S5x128x128) ![k, 0, 0] S1x128x128.size inb))
      shapeCasts_S1x128x128_S128x128 (ix2 d f) = tapR x1 ⟨k, by have : k + 1 ≤ 5 := inb 0; omega⟩ d f := by
  rw [tapR]
  refine (shapeCast_1ab_ab_apply _ shapeCasts_S1x128x128_S128x128 d f).trans ?_
  show x1 _ = x1 _
  congr 1
  funext a; apply Fin.ext
  match a with
  | ⟨0, _⟩ => show k + 1 * 0 = k; omega
  | ⟨1, _⟩ => show 0 + 1 * d.val = d.val; omega
  | ⟨2, _⟩ => show 0 + 1 * f.val = f.val; omega

/-- Slab `n` of the linear weight, with its unit axis dropped, read at (f, c). -/
private theorem wld_apply (x3 : Vec Ideal S63x128x128 .bf16) (n : Fin 63) (f c : Fin 128) :
    shapeCast S128x128 (View.ld x3 (wRect n)) shapeCasts_S1x128x128_S128x128 (ix2 f c) = wlR x3 c n.val f := by
  rw [wlR, dif_pos n.isLt]
  refine (shapeCast_1ab_ab_apply _ shapeCasts_S1x128x128_S128x128 f c).trans ?_
  show x3 _ = x3 _
  congr 1
  funext a; apply Fin.ext
  match a with
  | ⟨0, _⟩ => show n.val + 1 * 0 = n.val; omega
  | ⟨1, _⟩ => show 0 + 1 * f.val = f.val; omega
  | ⟨2, _⟩ => show 0 + 1 * c.val = c.val; omega

/-- A bias row broadcast over `M` rows, read at (r, f). -/
private theorem bias_apply {M : Nat} (v : Vec Ideal S1x128 .f32) (hb : S1x128.Broadcasts ⟨2, ![M, 128]⟩) (r : Fin M) (f : Fin 128) :
    broadcastTo ⟨2, ![M, 128]⟩ (shapeCast S1x128 (View.ld v r0_10) shapeCasts_S1x128_S1x128) hb (ix2 r f) = v (ix2 0 f) := by
  have e : shapeCast S1x128 (View.ld v r0_10) shapeCasts_S1x128_S1x128 = v :=
    (shapeCast_self (s := S1x128) (View.ld v r0_10) shapeCasts_S1x128_S1x128).trans
      (View.ld_unit_zero (by funext a; match a with | ⟨0, _⟩ => rfl | ⟨1, _⟩ => rfl) _ v)
  rw [e]
  exact broadcastTo_apply _ _ _ (ix2 0 f) (fun a => by
    match a with
    | ⟨0, _⟩ => rfl
    | ⟨1, _⟩ => rfl)

/-- A 48-row slab of the activations at row offset `o`, read at (b, f). -/
private theorem ess_apply (v34 : FVec Ideal S12096x128 .f32) (o : Nat) (h : S12096x128.Slices ![o, 0] S48x128) (b : Fin 48) (f : Fin 128)
    (hb : o + b.val < 12096) :
    extractStridedSlice S48x128 ![o, 0] v34 h (ix2 b f) = v34 (ix2 ⟨o + b.val, hb⟩ f) :=
  extractStridedSlice_apply _ _ _ _ _ (fun a => by
    match a with
    | ⟨0, _⟩ => rfl
    | ⟨1, _⟩ => show f.val = 0 + f.val; omega)

/-- One tap's block product at (r, f): the inner product of row `r + o` of the input block with tap `k`'s column `f`. -/
private theorem conv_term (x0 : Vec Ideal S1x12288x128 .bf16) (x1 : Vec Ideal S5x128x128 .bf16) (o k : Nat) (hk : k < 5)
    (inbx : ∀ a, (![0, o, 0] : Fin 3 → Nat) a + S1x12096x128.size a ≤ S1x12288x128.size a)
    (inbt : ∀ a, (![k, 0, 0] : Fin 3 → Nat) a + S1x128x128.size a ≤ S5x128x128.size a) (r : Fin 12096) (f : Fin 128) :
    (∑ c : Fin 128,
        shapeCast S12096x128 (View.ld x0 (Rect.unit (s := S1x12288x128) ![0, o, 0] S1x12096x128.size inbx))
            shapeCasts_S1x12096x128_S12096x128 (ix2 r c)
          * shapeCast S128x128 (View.ld x1 (Rect.unit (s := S5x128x128) ![k, 0, 0] S1x128x128.size inbt))
            shapeCasts_S1x128x128_S128x128 (ix2 c f))
      = ∑ d : Fin 128, rowR x0 (r.val + o) d * tapR x1 ⟨k, hk⟩ d f :=
  Finset.sum_congr rfl fun d _ => by rw [xld_apply, tld_apply]

/-- The activations' array at row `r = 48 t + b`, lane `f`: the activation of the tile's sample `b` at position `t`. -/
theorem act_apply (x0 : Vec Ideal S1x12288x128 .bf16) (x1 : Vec Ideal S5x128x128 .bf16) (x2 : Vec Ideal S1x128 .f32)
    (r : Fin 12096) (t : Nat) (b : Fin 48) (f : Fin 128) (hr : r.val = t * 48 + b.val) :
    actV x0 x1 x2 (ix2 r f)
      = TextCnn.act (fun h d => rowR x0 (h * 48 + b.val) d) (tapR x1) (fun f => x2 (ix2 0 f)) t f := by
  have e1 : (t + 1) * 48 + b.val = t * 48 + b.val + 48 := by omega
  have e2 : (t + 2) * 48 + b.val = t * 48 + b.val + 96 := by omega
  have e3 : (t + 3) * 48 + b.val = t * 48 + b.val + 144 := by omega
  have e4 : (t + 4) * 48 + b.val = t * 48 + b.val + 192 := by omega
  simp only [TextCnn.act, TextCnn.conv, e1, e2, e3, e4]
  simp only [k0_pay4, k0_pay2, k0_pay3, maximumf_apply, addf_apply, broadcast_apply, mm1_apply]
  rw [conv_term x0 x1 0 0 (by decide) _ _ r f, conv_term x0 x1 48 1 (by decide) _ _ r f,
    conv_term x0 x1 96 2 (by decide) _ _ r f, conv_term x0 x1 144 3 (by decide) _ _ r f,
    conv_term x0 x1 192 4 (by decide) _ _ r f, bias_apply, hr, Nat.add_zero]
  show max _ (Ideal.ofBits .f32 0x00000000#32) = _
  rw [Ideal.ofBits_zero_f32]
  rfl

/-- Pooled slab `n` at (b, f): the maximum of the activations' rows `192 n + 48 p + b`, `p = 0 .. 3`, at lane `f`. -/
theorem slab_apply (v34 : FVec Ideal S12096x128 .f32) (n : Fin 63) (b : Fin 48) (f : Fin 128) :
    slabV v34 n (ix2 b f)
      = max (max (max (v34 (ix2 ⟨192 * n.val + b.val, by omega⟩ f)) (v34 (ix2 ⟨192 * n.val + 48 + b.val, by omega⟩ f)))
          (v34 (ix2 ⟨192 * n.val + 96 + b.val, by omega⟩ f))) (v34 (ix2 ⟨192 * n.val + 144 + b.val, by omega⟩ f)) := by
  unfold slabV
  rw [truncf_apply, maximumf_apply, maximumf_apply, maximumf_apply,
    ess_apply v34 (192 * n.val) _ b f (by omega), ess_apply v34 (192 * n.val + 48) _ b f (by omega),
    ess_apply v34 (192 * n.val + 96) _ b f (by omega), ess_apply v34 (192 * n.val + 144) _ b f (by omega)]

/-- Pooled slab `n` of the tile's activations at (b, f): the pooled value of window `n` of sample `b`. -/
theorem pool_apply (x0 : Vec Ideal S1x12288x128 .bf16) (x1 : Vec Ideal S5x128x128 .bf16) (x2 : Vec Ideal S1x128 .f32)
    (n : Fin 63) (b : Fin 48) (f : Fin 128) :
    slabV (actV x0 x1 x2) n (ix2 b f)
      = TextCnn.pool (fun h d => rowR x0 (h * 48 + b.val) d) (tapR x1) (fun f => x2 (ix2 0 f)) n.val f := by
  rw [slab_apply,
    act_apply x0 x1 x2 ⟨192 * n.val + b.val, by omega⟩ (4 * n.val) b f (by show 192 * n.val + b.val = 4 * n.val * 48 + b.val; omega),
    act_apply x0 x1 x2 ⟨192 * n.val + 48 + b.val, by omega⟩ (4 * n.val + 1) b f
      (by show 192 * n.val + 48 + b.val = (4 * n.val + 1) * 48 + b.val; omega),
    act_apply x0 x1 x2 ⟨192 * n.val + 96 + b.val, by omega⟩ (4 * n.val + 2) b f
      (by show 192 * n.val + 96 + b.val = (4 * n.val + 2) * 48 + b.val; omega),
    act_apply x0 x1 x2 ⟨192 * n.val + 144 + b.val, by omega⟩ (4 * n.val + 3) b f
      (by show 192 * n.val + 144 + b.val = (4 * n.val + 3) * 48 + b.val; omega)]
  rfl

/-- Window `n`'s product at (b, c): the pooled slab's row `b` against column `c` of the weight's slab `n`. -/
theorem part_apply (v34 : FVec Ideal S12096x128 .f32) (x3 : Vec Ideal S63x128x128 .bf16) (n : Fin 63) (b : Fin 48) (c : Fin 128) :
    partV v34 x3 n (ix2 b c) = ∑ f : Fin 128, slabV v34 n (ix2 b f) * wlR x3 c n.val f := by
  unfold partV
  rw [mm2_apply]
  exact Finset.sum_congr rfl fun f _ => by rw [wld_apply]

/-- The running sum after window `n` at (b, c), for pooled values `P` that the slabs' row `b` equals. -/
theorem acc_apply (v34 : FVec Ideal S12096x128 .f32) (x3 : Vec Ideal S63x128x128 .bf16) (b : Fin 48) (c : Fin 128)
    (P : Nat → Fin 128 → EReal) (hP : ∀ (j : Fin 63) (f : Fin 128), slabV v34 j (ix2 b f) = P j.val f) :
    ∀ (n : Nat) (h : n < 63),
      accV v34 x3 n h (ix2 b c) = ∑ j ∈ Finset.range (n + 1), ∑ f : Fin 128, P j f * wlR x3 c j f
  | 0, h => by
    rw [Finset.sum_range_succ, Finset.range_zero, Finset.sum_empty, zero_add]
    show partV v34 x3 ⟨0, h⟩ (ix2 b c) = _
    rw [part_apply]
    exact Finset.sum_congr rfl fun f _ => by rw [hP]
  | n + 1, h => by
    rw [Finset.sum_range_succ]
    show addf (accV v34 x3 n (Nat.lt_of_succ_lt h)) (partV v34 x3 ⟨n + 1, h⟩) (ix2 b c) = _
    rw [addf_apply, acc_apply v34 x3 b c P hP n (Nat.lt_of_succ_lt h), part_apply]
    congr 1
    exact Finset.sum_congr rfl fun f _ => by rw [hP]

/-- Entry `(b, c)` of the stored block is the score of the tile's sample `b` at class lane `c`. -/
theorem block_apply (x0 : Vec Ideal S1x12288x128 .bf16) (x1 : Vec Ideal S5x128x128 .bf16) (x2 : Vec Ideal S1x128 .f32)
    (x3 : Vec Ideal S63x128x128 .bf16) (x4 : Vec Ideal S1x128 .f32) (b : Fin 48) (c : Fin 128) :
    out0_5 x0 x1 x2 x3 x4 (ix2 b c)
      = TextCnn.sample (fun h d => rowR x0 (h * 48 + b.val) d) (tapR x1) (fun f => x2 (ix2 0 f)) (wlR x3 c) (x4 (ix2 0 c)) := by
  rw [out0_5_eq, View.canon_unit_zero (by funext a; match a with | ⟨0, _⟩ => rfl | ⟨1, _⟩ => rfl)]
  unfold headV TextCnn.sample TextCnn.head
  rw [addf_apply, acc_apply (actV x0 x1 x2) x3 b c _ (fun j f => pool_apply x0 x1 x2 j b f) 62 (by decide), bias_apply]

end Cert.ReferenceIdeal.Hand

end
-- ==== Proof.RHost.lean ====
/-
  The arrays the reference's region is launched on, entry by entry, as the program's arguments.

  Before the region the program lays the input out tile by tile (drop the last row, put a zero row in
  front, pad the 512 samples with 16 zero samples, split into 11 tiles of 48, and order a tile's rows by
  (row, sample)), puts the convolution weight tap by tap with the input lane first, and lays the linear
  weight out as 63 slabs (window j) of 128 x 128 (feature f, class lane), the 16 classes padded to 128 lanes.
-/
import proofs.«118798_g2000302331999779_pallasbulk_1131_2_alg».proof.Proof.Gen.ReferenceIdeal.Frame
import proofs.«118798_g2000302331999779_pallasbulk_1131_2_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

/-- The five argument arrays on core `c`. -/
abbrev argX (c : Dev nD) : TextCnn.SX.Idx → EReal := m ((c.tc : Thread nD τ).loc main_arg0)
abbrev argCW (c : Dev nD) : TextCnn.SCW.Idx → EReal := m ((c.tc : Thread nD τ).loc main_arg1)
abbrev argCB (c : Dev nD) : TextCnn.SCB.Idx → EReal := m ((c.tc : Thread nD τ).loc main_arg2)
abbrev argLW (c : Dev nD) : TextCnn.SLW.Idx → EReal := m ((c.tc : Thread nD τ).loc main_arg3)
abbrev argLB (c : Dev nD) : TextCnn.SLB.Idx → EReal := m ((c.tc : Thread nD τ).loc main_arg4)

/-! ### The input's layout, one operation at a time -/

/-- The input with its last row dropped. -/
private theorem v0_eq (c : Dev nD) : (V m c main_v0 : S512x1x255x128.Idx → EReal) = extractStridedSlice S512x1x255x128 ![0, 0, 0, 0] (argX m c) slices_S512x1x256x128_S512x1x255x128_0_0_0_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... with the unit axis dropped. -/
private theorem v1_eq (c : Dev nD) : (V m c main_v1 : S512x255x128.Idx → EReal) = shapeCast S512x255x128 (V m c main_v0 : S512x1x255x128.Idx → EReal) shapeCasts_S512x1x255x128_S512x255x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... converted to 16-bit precision (the identity over the extended reals). -/
private theorem v2_eq (c : Dev nD) : (V m c main_v2 : S512x255x128.Idx → EReal) = truncf (F := Ideal) .bf16 (V m c main_v1 : S512x255x128.Idx → EReal) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... padded: one zero row in front of each sample, 16 zero samples behind. -/
private theorem v3_eq (c : Dev nD) : (V m c main_v3 : S528x256x128.Idx → EReal) = pad S528x256x128 ![0, 1, 0] ![16, 0, 0] ![0, 0, 0] (V m c main_v2 : S512x255x128.Idx → EReal) (sitofp (F := Ideal) .bf16 (constantI S_ 32 0#32)) pads_S512x255x128_S528x256x128_0160_100_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... split into 11 tiles of 48 samples. -/
private theorem v4_eq (c : Dev nD) : (V m c main_v4 : S11x48x256x128.Idx → EReal) = shapeCast S11x48x256x128 (V m c main_v3 : S528x256x128.Idx → EReal) shapeCasts_S528x256x128_S11x48x256x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... each tile ordered by (row, sample). -/
private theorem v5_eq (c : Dev nD) : (V m c main_v5 : S11x256x48x128.Idx → EReal) = transpose S11x256x48x128 [0, 2, 1, 3] (V m c main_v4 : S11x48x256x128.Idx → EReal) transposes_S11x48x256x128_S11x256x48x128_0_2_1_3 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- ... and (row, sample) flattened to one axis of 256 * 48 rows. -/
private theorem v6_eq (c : Dev nD) : (V m c main_v6 : S11x12288x128.Idx → EReal) = shapeCast S11x12288x128 (V m c main_v5 : S11x256x48x128.Idx → EReal) shapeCasts_S11x256x48x128_S11x12288x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results
  all_goals rfl

/-- The input with its last row dropped, as a rank-3 array in 16-bit precision: sample `B`, row `r`, lane `d`. -/
private theorem v2_apply (c : Dev nD) (B : Fin 512) (r : Fin 255) (d : Fin 128) :
    (V m c main_v2 : S512x255x128.Idx → EReal) (ix3 B r d)
      = argX m c (ix4 B 0 ⟨r.val, by have := r.isLt; omega⟩ d) := by
  have hr := r.isLt
  rw [v2_eq, truncf_apply, v1_eq]
  refine (shapeCast_apply _ _ _ (ix4 B (0 : Fin 1) r d) (by
    rw [Shape.rowMajor_val_four, Shape.rowMajor_val_three]
    show ((B.val * 1 + 0) * 255 + r.val) * 128 + d.val = (B.val * 255 + r.val) * 128 + d.val
    omega)).trans ?_
  rw [v0_eq]
  exact extractStridedSlice_apply _ _ _ _ (ix4 B (0 : Fin 1) (⟨r.val, by omega⟩ : Fin 256) d) (fun a => match a with
    | ⟨0, _⟩ => by show B.val = 0 + B.val; omega
    | ⟨1, _⟩ => by show (0 : Nat) = 0 + 0; rfl
    | ⟨2, _⟩ => by show r.val = 0 + r.val; omega
    | ⟨3, _⟩ => by show d.val = 0 + d.val; omega)

/-- The padded batch at a real sample `B < 512`: row `h ≥ 1` is the input's row `h - 1`. -/
private theorem v3_apply_pos (c : Dev nD) (B : Fin 528) (h : Fin 256) (d : Fin 128) (hB : B.val < 512) (h0 : 1 ≤ h.val) :
    (V m c main_v3 : S528x256x128.Idx → EReal) (ix3 B h d)
      = argX m c (ix4 ⟨B.val, hB⟩ 0 ⟨h.val - 1, by have := h.isLt; omega⟩ d) := by
  have hh := h.isLt
  rw [v3_eq]
  refine (pad_apply_of_inside _ _ _ _ _ _ _ _ (ix3 (⟨B.val, hB⟩ : Fin 512) (⟨h.val - 1, by omega⟩ : Fin 255) d) (fun a => match a with
    | ⟨0, _⟩ => by show B.val = 0 + B.val * (0 + 1); omega
    | ⟨1, _⟩ => by show h.val = 1 + (h.val - 1) * (0 + 1); omega
    | ⟨2, _⟩ => by show d.val = 0 + d.val * (0 + 1); omega)).trans ?_
  exact v2_apply m c _ _ _

/-- The padded batch at row 0: the zero row put in front. -/
private theorem v3_apply_zero (c : Dev nD) (B : Fin 528) (h : Fin 256) (d : Fin 128) (h0 : ¬ 1 ≤ h.val) :
    (V m c main_v3 : S528x256x128.Idx → EReal) (ix3 B h d) = (0 : EReal) := by
  rw [v3_eq]
  refine (pad_apply_of_not_inside _ _ _ _ _ _ _ _ (1 : Fin 3) (fun hin => h0 hin.1)).trans ?_
  rw [sitofp_apply]
  show (((0#32 : BitVec 32).toInt : ℝ) : EReal) = 0
  rw [BitVec.toInt_zero, Int.cast_zero, EReal.coe_zero]

/-- The laid-out input at tile `t`, row `h * 48 + bl` is the padded batch at sample `48 t + bl`, row `h`. -/
private theorem v6_apply_v3 (c : Dev nD) (t : Fin 11) (h : Fin 256) (bl : Fin 48) (d : Fin 128) :
    (V m c main_v6 : S11x12288x128.Idx → EReal) (ix3 t ⟨h.val * 48 + bl.val, by have := h.isLt; have := bl.isLt; omega⟩ d)
      = (V m c main_v3 : S528x256x128.Idx → EReal) (ix3 ⟨48 * t.val + bl.val, by have := t.isLt; have := bl.isLt; omega⟩ h d) := by
  have ht := t.isLt
  have hh := h.isLt
  have hbl := bl.isLt
  rw [v6_eq]
  -- row h * 48 + bl of tile t is entry (t, h, bl) of the tile split by (row, sample)
  refine (shapeCast_apply _ _ _ (ix4 t h bl d) (by
    rw [Shape.rowMajor_val_four, Shape.rowMajor_val_three]
    show ((t.val * 256 + h.val) * 48 + bl.val) * 128 + d.val = (t.val * 12288 + (h.val * 48 + bl.val)) * 128 + d.val
    omega)).trans ?_
  rw [v5_eq]
  -- the transpose swaps (row, sample) back to (sample, row)
  refine (transpose_apply _ _ _ _ (ix4 t bl h d) (fun b => match b with
    | ⟨0, _⟩ => rfl | ⟨1, _⟩ => rfl | ⟨2, _⟩ => rfl | ⟨3, _⟩ => rfl)).trans ?_
  rw [v4_eq]
  -- sample bl of tile t is sample 48 t + bl of the padded batch
  exact shapeCast_apply _ _ _ (ix3 (⟨48 * t.val + bl.val, by omega⟩ : Fin 528) h d) (by
    rw [Shape.rowMajor_val_three, Shape.rowMajor_val_four]
    show ((48 * t.val + bl.val) * 256 + h.val) * 128 + d.val = ((t.val * 48 + bl.val) * 256 + h.val) * 128 + d.val
    omega)

/-- The laid-out input: tile `t`, row `h * 48 + bl`, lane `d` is row `h` of sample `48 t + bl` (one of the 512 real
    samples) with the zero row in front. -/
theorem v6_apply (c : Dev nD) (t : Fin 11) (h : Fin 256) (bl : Fin 48) (d : Fin 128) (hB : 48 * t.val + bl.val < 512) :
    (V m c main_v6 : S11x12288x128.Idx → EReal) (ix3 t ⟨h.val * 48 + bl.val, by have := h.isLt; have := bl.isLt; omega⟩ d)
      = TextCnn.xrow (argX m c) ⟨48 * t.val + bl.val, hB⟩ h.val d := by
  rw [v6_apply_v3]
  unfold TextCnn.xrow
  by_cases h0 : 1 ≤ h.val
  · rw [dif_pos ⟨h0, h.isLt⟩]
    exact v3_apply_pos m c _ h d hB h0
  · rw [dif_neg (fun hh' => h0 hh'.1)]
    exact v3_apply_zero m c _ h d h0

/-- The five taps' weights. -/
theorem v10_apply (c : Dev nD) (k : Fin 5) (d f : Fin 128) :
    (V m c main_v10 : S5x128x128.Idx → EReal) (ix3 k d f) = TextCnn.wtap (argCW m c) k d f := by
  have e : (V m c main_v10 : S5x128x128.Idx → EReal) = truncf (F := Ideal) .bf16 (pad S5x128x128 ![0, 0, 0] ![0, 0, 0] ![0, 0, 0] (transpose S5x128x128 [1, 2, 0] (shapeCast S128x5x128 (argCW m c) shapeCasts_S128x1x5x128_S128x5x128) transposes_S128x5x128_S5x128x128_1_2_0) (sitofp (F := Ideal) .f32 (constantI S_ 32 0#32)) pads_S5x128x128_S5x128x128_000_000_000 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results
    rfl

  rw [e, truncf_apply]
  -- the pad adds nothing: every index is inside
  refine (pad_apply_of_inside _ _ _ _ _ _ _ _ (ix3 k d f) (fun a => match a with
    | ⟨0, _⟩ => by show k.val = 0 + k.val * (0 + 1); omega
    | ⟨1, _⟩ => by show d.val = 0 + d.val * (0 + 1); omega
    | ⟨2, _⟩ => by show f.val = 0 + f.val * (0 + 1); omega)).trans ?_
  -- (tap, lane, feature) is read at (feature, tap, lane)
  refine (transpose_apply _ _ _ _ (ix3 f k d) (fun b => match b with | ⟨0, _⟩ => rfl | ⟨1, _⟩ => rfl | ⟨2, _⟩ => rfl)).trans ?_
  unfold TextCnn.wtap
  exact shapeCast_apply _ _ _ (ix4 f 0 k d) (by
    rw [Shape.rowMajor_val_three, Shape.rowMajor_val_four]
    show ((f.val * 1 + 0) * 5 + k.val) * 128 + d.val = (f.val * 5 + k.val) * 128 + d.val
    omega)

/-- The convolution bias as a row. -/
theorem v12_apply (c : Dev nD) (f : Fin 128) :
    (V m c main_v12 : S1x128.Idx → EReal) (ix2 0 f) = argCB m c (ix1 f) := by
  have e : (V m c main_v12 : S1x128.Idx → EReal) = pad S1x128 ![0, 0] ![0, 0] ![0, 0] (shapeCast S1x128 (argCB m c) shapeCasts_S128_S1x128) (sitofp (F := Ideal) .f32 (constantI S_ 32 0#32)) pads_S1x128_S1x128_000_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results
    rfl

  rw [e]
  -- the pad adds nothing: every index is inside
  refine (pad_apply_of_inside _ _ _ _ _ _ _ (ix2 0 f) (ix2 0 f) (fun a => match a with
    | ⟨0, _⟩ => by show (0:Nat) = 0 + 0 * (0+1); rfl
    | ⟨1, _⟩ => by show f.val = 0 + f.val * (0 + 1); omega)).trans ?_
  exact shapeCast_apply _ _ _ (ix1 f) (by rw [Shape.rowMajor_val_one, Shape.rowMajor_val_two]; show f.val = 0 * 128 + f.val; omega)

/-- The laid-out linear weight at a class lane below 16. -/
theorem v16_apply (c : Dev nD) (j : Fin 63) (f : Fin 128) (cc : Fin 16) :
    (V m c main_v16 : S63x128x128.Idx → EReal) (ix3 j f ⟨cc.val, by have := cc.isLt; omega⟩)
      = argLW m c (ix2 cc ⟨f.val * 63 + j.val, by have := j.isLt; have := f.isLt; omega⟩) := by
  have e : (V m c main_v16 : S63x128x128.Idx → EReal) = truncf (F := Ideal) .bf16 (pad S63x128x128 ![0, 0, 0] ![0, 0, 112] ![0, 0, 0] (transpose S63x128x16 [2, 1, 0] (shapeCast S16x128x63 (argLW m c) shapeCasts_S16x8064_S16x128x63) transposes_S16x128x63_S63x128x16_2_1_0) (sitofp (F := Ideal) .f32 (constantI S_ 32 0#32)) pads_S63x128x16_S63x128x128_000_000_01120 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results
    rfl

  rw [e, truncf_apply]
  -- lane cc < 16 lies inside the 16 real class lanes
  refine (pad_apply_of_inside _ _ _ _ _ _ _ _ (ix3 j f cc) (fun a => match a with
    | ⟨0, _⟩ => by show j.val = 0 + j.val * (0 + 1); omega
    | ⟨1, _⟩ => by show f.val = 0 + f.val * (0 + 1); omega
    | ⟨2, _⟩ => by show cc.val = 0 + cc.val * (0 + 1); omega)).trans ?_
  -- (window, feature, class) is read at (class, feature, window)
  refine (transpose_apply _ _ _ _ (ix3 cc f j) (fun b => match b with | ⟨0, _⟩ => rfl | ⟨1, _⟩ => rfl | ⟨2, _⟩ => rfl)).trans ?_
  -- the flattened position of (feature, window) is f * 63 + j
  exact shapeCast_apply _ _ _ (ix2 cc ⟨f.val * 63 + j.val, by have := j.isLt; have := f.isLt; omega⟩) (by
    rw [Shape.rowMajor_val_two, Shape.rowMajor_val_three]
    show cc.val * 8064 + (f.val * 63 + j.val) = (cc.val * 128 + f.val) * 63 + j.val
    omega)

/-- The class bias as a row, at a class lane below 16. -/
theorem v18_apply (c : Dev nD) (cc : Fin 16) :
    (V m c main_v18 : S1x128.Idx → EReal) (ix2 0 ⟨cc.val, by have := cc.isLt; omega⟩) = argLB m c (ix1 cc) := by
  have e : (V m c main_v18 : S1x128.Idx → EReal) = pad S1x128 ![0, 0] ![0, 112] ![0, 0] (shapeCast S1x16 (argLB m c) shapeCasts_S16_S1x16) (sitofp (F := Ideal) .f32 (constantI S_ 32 0#32)) pads_S1x16_S1x128_000_01120 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
    after_results
    rfl

  rw [e]
  -- lane cc < 16 lies inside the 16 real lanes
  refine (pad_apply_of_inside _ _ _ _ _ _ _ _ (ix2 0 cc) (fun a => match a with
    | ⟨0, _⟩ => by show (0:Nat) = 0 + 0 * (0+1); rfl
    | ⟨1, _⟩ => by show cc.val = 0 + cc.val * (0 + 1); omega)).trans ?_
  exact shapeCast_apply _ _ _ (ix1 cc) (by rw [Shape.rowMajor_val_one, Shape.rowMajor_val_two]; show cc.val = 0 * 16 + cc.val; omega)

end Cert.ReferenceIdeal.Hand

end
-- ==== Proof.RValue.lean ====
/-
  A tile's stored block, entry by entry, as the network's scores of the program's arguments.

  Tile t, local sample b is sample B = 48 t + b (one of the 512 real samples): the rows of the tile's input block are that sample's
  rows with the zero row in front, the taps, biases and linear weight the region is launched on are the
  arguments' entries, so entry (b, c) of the block is `TextCnn.G` at (B, c) for a class c below 16.
-/
import proofs.«118798_g2000302331999779_pallasbulk_1131_2_alg».proof.Proof.RIndex
import proofs.«118798_g2000302331999779_pallasbulk_1131_2_alg».proof.Proof.RHost
import Idealize.ShloMosaic.Lib.Pipeline.Value

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ)

/-- The grid has 11 points. -/
private theorem pt_lt (t : Fin cfg0.N) : t.val < 11 := by
  exact Nat.lt_of_lt_of_eq t.isLt (N_0 : cfg0.N = 11)

/-- The input window's block index at point `t` is `(t, 0, 0)`; the other input windows' are zero. -/
private theorem widx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
private theorem widx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
private theorem widx2 : ∀ t : Fin cfg0.N, win0_2.index t 0 = 0 ∧ win0_2.index t 1 = 0 :=
  (by decide +kernel : ∀ t : Fin grid0.N, win0_2.index t 0 = 0 ∧ win0_2.index t 1 = 0)
private theorem widx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
private theorem widx4 : ∀ t : Fin cfg0.N, win0_4.index t 0 = 0 ∧ win0_4.index t 1 = 0 :=
  (by decide +kernel : ∀ t : Fin grid0.N, win0_4.index t 0 = 0 ∧ win0_4.index t 1 = 0)

/-- Reading any 11 x 12288 x 128 array through point `t`'s block of the input window: entry (0, r, d) is the array's (t, r, d). -/
private theorem read_blk0 (G : S11x12288x128.Idx → EReal) (t : Fin cfg0.N) (r : Fin 12288) (d : Fin 128) :
    ((cfg0.win 0).blk t).view.read (Elt Ideal) G (ix3 0 r d) = G (ix3 ⟨t.val, pt_lt t⟩ r d) := by
  obtain ⟨e0, e1, e2⟩ := widx0 t
  rw [View.read_apply]
  show G _ = G _
  congr 1
  funext a; apply Fin.ext
  match a with
  | ⟨0, _⟩ => show win0_0.index t 0 * 1 + 1 * 0 = t.val; rw [e0]; omega
  | ⟨1, _⟩ => show win0_0.index t 1 * 12288 + 1 * r.val = r.val; rw [e1]; omega
  | ⟨2, _⟩ => show win0_0.index t 2 * 128 + 1 * d.val = d.val; rw [e2]; omega

/-- The tap weight's window hands every point the whole array. -/
private theorem read_blk1 (G : S5x128x128.Idx → EReal) (t : Fin cfg0.N) (k : Fin 5) (d f : Fin 128) :
    ((cfg0.win 1).blk t).view.read (Elt Ideal) G (ix3 k d f) = G (ix3 k d f) := by
  obtain ⟨e0, e1, e2⟩ := widx1 t
  rw [View.read_apply]
  show G _ = G _
  congr 1
  funext a; apply Fin.ext
  match a with
  | ⟨0, _⟩ => show win0_1.index t 0 * 5 + 1 * k.val = k.val; rw [e0]; omega
  | ⟨1, _⟩ => show win0_1.index t 1 * 128 + 1 * d.val = d.val; rw [e1]; omega
  | ⟨2, _⟩ => show win0_1.index t 2 * 128 + 1 * f.val = f.val; rw [e2]; omega

/-- The convolution bias row's window hands every point the whole row. -/
private theorem read_blk2 (G : S1x128.Idx → EReal) (t : Fin cfg0.N) (u : Fin 1) (f : Fin 128) :
    ((cfg0.win 2).blk t).view.read (Elt Ideal) G (ix2 u f) = G (ix2 u f) := by
  obtain ⟨e0, e1⟩ := widx2 t
  rw [View.read_apply]
  show G _ = G _
  congr 1
  funext a; apply Fin.ext
  match a with
  | ⟨0, _⟩ => show win0_2.index t 0 * 1 + 1 * u.val = u.val; rw [e0]; omega
  | ⟨1, _⟩ => show win0_2.index t 1 * 128 + 1 * f.val = f.val; rw [e1]; omega

/-- The linear weight's window hands every point the whole array. -/
private theorem read_blk3 (G : S63x128x128.Idx → EReal) (t : Fin cfg0.N) (j : Fin 63) (f l : Fin 128) :
    ((cfg0.win 3).blk t).view.read (Elt Ideal) G (ix3 j f l) = G (ix3 j f l) := by
  obtain ⟨e0, e1, e2⟩ := widx3 t
  rw [View.read_apply]
  show G _ = G _
  congr 1
  funext a; apply Fin.ext
  match a with
  | ⟨0, _⟩ => show win0_3.index t 0 * 63 + 1 * j.val = j.val; rw [e0]; omega
  | ⟨1, _⟩ => show win0_3.index t 1 * 128 + 1 * f.val = f.val; rw [e1]; omega
  | ⟨2, _⟩ => show win0_3.index t 2 * 128 + 1 * l.val = l.val; rw [e2]; omega

/-- The class bias row's window hands every point the whole row. -/
private theorem read_blk4 (G : S1x128.Idx → EReal) (t : Fin cfg0.N) (u : Fin 1) (l : Fin 128) :
    ((cfg0.win 4).blk t).view.read (Elt Ideal) G (ix2 u l) = G (ix2 u l) := by
  obtain ⟨e0, e1⟩ := widx4 t
  rw [View.read_apply]
  show G _ = G _
  congr 1
  funext a; apply Fin.ext
  match a with
  | ⟨0, _⟩ => show win0_4.index t 0 * 1 + 1 * u.val = u.val; rw [e0]; omega
  | ⟨1, _⟩ => show win0_4.index t 1 * 128 + 1 * l.val = l.val; rw [e1]; omega

/-- Point `t`'s input block at (0, r, d) is the laid-out input at (t, r, d). -/
private theorem iblk0_apply (c : Dev nD) (t : Fin cfg0.N) (r : Fin 12288) (d : Fin 128) :
    (iblk m c 0 t : Vec Ideal S1x12288x128 .bf16) (ix3 0 r d)
      = (V m c main_v6 : S11x12288x128.Idx → EReal) (ix3 ⟨t.val, pt_lt t⟩ r d) :=
  read_blk0 (V m c main_v6) t r d

/-- The tap weight's block is the whole array. -/
private theorem iblk1_apply (c : Dev nD) (t : Fin cfg0.N) (k : Fin 5) (d f : Fin 128) :
    (iblk m c 1 t : Vec Ideal S5x128x128 .bf16) (ix3 k d f) = (V m c main_v10 : S5x128x128.Idx → EReal) (ix3 k d f) :=
  read_blk1 (V m c main_v10) t k d f

/-- The convolution bias row's block is the whole row. -/
private theorem iblk2_apply (c : Dev nD) (t : Fin cfg0.N) (u : Fin 1) (f : Fin 128) :
    (iblk m c 2 t : Vec Ideal S1x128 .f32) (ix2 u f) = (V m c main_v12 : S1x128.Idx → EReal) (ix2 u f) :=
  read_blk2 (V m c main_v12) t u f

/-- The linear weight's block is the whole array. -/
private theorem iblk3_apply (c : Dev nD) (t : Fin cfg0.N) (j : Fin 63) (f l : Fin 128) :
    (iblk m c 3 t : Vec Ideal S63x128x128 .bf16) (ix3 j f l) = (V m c main_v16 : S63x128x128.Idx → EReal) (ix3 j f l) :=
  read_blk3 (V m c main_v16) t j f l

/-- The class bias row's block is the whole row. -/
private theorem iblk4_apply (c : Dev nD) (t : Fin cfg0.N) (u : Fin 1) (l : Fin 128) :
    (iblk m c 4 t : Vec Ideal S1x128 .f32) (ix2 u l) = (V m c main_v18 : S1x128.Idx → EReal) (ix2 u l) :=
  read_blk4 (V m c main_v18) t u l

/-- Entry `(b, cc)` of the block point `t` stores is the score of sample `B = 48 t + b` for class `cc`. -/
theorem block_value (c : Dev nD) (t : Fin cfg0.N) (b : Fin 48) (cc : Fin 16) (B : Fin 512) (hB : B.val = 48 * t.val + b.val) :
    out0_5 (iblk m c 0 t) (iblk m c 1 t) (iblk m c 2 t) (iblk m c 3 t) (iblk m c 4 t)
        (ix2 b ⟨cc.val, by have := cc.isLt; omega⟩)
      = TextCnn.G (argX m c) (argCW m c) (argCB m c) (argLW m c) (argLB m c) (ix2 B cc) := by
  have ht := pt_lt t
  have hBlt : 48 * t.val + b.val < 512 := hB ▸ B.isLt
  have hBeq : B = ⟨48 * t.val + b.val, hBlt⟩ := Fin.ext hB
  refine (block_apply (iblk m c 0 t) (iblk m c 1 t) (iblk m c 2 t) (iblk m c 3 t) (iblk m c 4 t) b
    ⟨cc.val, by have := cc.isLt; omega⟩).trans ?_
  show TextCnn.sample _ _ _ _ _
    = TextCnn.sample (TextCnn.xrow (argX m c) B) (TextCnn.wtap (argCW m c)) (fun f => argCB m c (ix1 f))
        (TextCnn.wlin (argLW m c) cc) (argLB m c (ix1 cc))
  refine TextCnn.sample_congr (fun h hh d => ?_) (fun k d f => ?_) (fun f => ?_) (fun j hj f => ?_) ?_
  · show rowR (iblk m c 0 t) (h * 48 + b.val) d = _
    rw [rowR, dif_pos (by have := b.isLt; omega), iblk0_apply, v6_apply m c ⟨t.val, ht⟩ ⟨h, hh⟩ b d hBlt, hBeq]
  · rw [tapR, iblk1_apply, v10_apply]
  · show iblk m c 2 t (ix2 0 f) = _
    rw [iblk2_apply, v12_apply]
  · rw [wlR, dif_pos hj, TextCnn.wlin, dif_pos hj, iblk3_apply, v16_apply m c ⟨j, hj⟩ f cc]
  · rw [iblk4_apply, v18_apply]

end Cert.ReferenceIdeal.Hand

end
-- ==== Proof.RFinal.lean ====
/-
  The reference's whole run, read: the result array holds the network's scores.

  Tile t's output block is rows 48 t .. 48 t + 47 of the 528 x 128 array the region writes, the eleven
  blocks cover it, and each block's entry (b, c) is the score of sample 48 t + b at class lane c (for the
  512 real samples); the program then keeps the first 512 rows and 16 lanes.
-/
import proofs.«118798_g2000302331999779_pallasbulk_1131_2_alg».proof.Proof.RValue
import proofs.«118798_g2000302331999779_pallasbulk_1131_2_alg».proof.Proof.RIndex
import proofs.«118798_g2000302331999779_pallasbulk_1131_2_alg».proof.Proof.RHost
import Idealize.ShloMosaic.Lib.Pipeline.Value
import Idealize.ShloMosaic.Lib.StableHlo.Run

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- Grid point number `n`. -/
private def pt (n : Nat) (h : n < 11) : Fin cfg0.N := ⟨n, by rw [show cfg0.N = 11 from N_0]; exact h⟩

/-- The output window's block index at point `t` is `(t, 0)`, decided over the eleven points. -/
private theorem idx5 : ∀ t : Fin cfg0.N, win0_5.index t 0 = t.val ∧ win0_5.index t 1 = 0 :=
  (by decide +kernel : ∀ t : Fin grid0.N, win0_5.index t 0 = t.val ∧ win0_5.index t 1 = 0)

/-- The tile a row of the 528 x 128 array lies in, its row inside the tile, and its lane. -/
private def tileOf (i : S528x128.Idx) : Fin cfg0.N :=
  pt ((i 0).val / 48) (by have h : (i 0).val < 528 := (i 0).isLt; omega)
private def rowOf (i : S528x128.Idx) : Fin 48 := ⟨(i 0).val % 48, Nat.mod_lt _ (by decide)⟩
private def laneOf (i : S528x128.Idx) : Fin 128 := i 1

/-- The whole 528 x 128 array as one function: row `48 t + b` is row `b` of the block tile `t` stores. -/
private def Gfull (c : Dev nD) : S528x128.Idx → EReal := fun i =>
  out0_5 (iblk m c 0 (tileOf i)) (iblk m c 1 (tileOf i)) (iblk m c 2 (tileOf i)) (iblk m c 3 (tileOf i)) (iblk m c 4 (tileOf i))
    (ix2 (rowOf i) (laneOf i))

/-- At row `48 t + b`, lane `l`, it is entry `(b, l)` of tile `t`'s block. -/
private theorem Gfull_apply (c : Dev nD) (t : Fin cfg0.N) (y : S48x128.Idx) (i : S528x128.Idx)
    (h0 : (i 0).val = 48 * t.val + (y 0).val) (h1 : (i 1).val = (y 1).val) :
    Gfull m c i = out0_5 (iblk m c 0 t) (iblk m c 1 t) (iblk m c 2 t) (iblk m c 3 t) (iblk m c 4 t) y := by
  have hy0 : (y 0).val < 48 := (y 0).isLt
  have ht : tileOf i = t := Fin.ext (by show (i 0).val / 48 = t.val; omega)
  have hy : ix2 (rowOf i) (laneOf i) = y := by
    funext a
    match a with
    | ⟨0, _⟩ => exact Fin.ext (by show (i 0).val % 48 = (y 0).val; omega)
    | ⟨1, _⟩ => exact Fin.ext h1
  show out0_5 (iblk m c 0 (tileOf i)) (iblk m c 1 (tileOf i)) (iblk m c 2 (tileOf i)) (iblk m c 3 (tileOf i)) (iblk m c 4 (tileOf i))
    (ix2 (rowOf i) (laneOf i)) = _
  rw [ht, hy]

/-- Reading any 528 x 128 array through tile `t`'s block: entry `(b, l)` is the array's entry `(48 t + b, l)`. -/
private theorem read_blk5 (G : S528x128.Idx → EReal) (t : Fin cfg0.N) (y : S48x128.Idx) (i : S528x128.Idx)
    (h0 : (i 0).val = 48 * t.val + (y 0).val) (h1 : (i 1).val = (y 1).val) :
    ((cfg0.win 5).blk t).view.read (Elt Ideal) G y = G i := by
  obtain ⟨e0, e1⟩ := idx5 t
  rw [View.read_apply]
  show G _ = G i
  congr 1
  funext a
  apply Fin.ext
  match a with
  | ⟨0, _⟩ => show win0_5.index t 0 * 48 + 1 * (y 0).val = (i 0).val; rw [e0, h0]; omega
  | ⟨1, _⟩ => show win0_5.index t 1 * 128 + 1 * (y 1).val = (i 1).val; rw [e1, h1]; omega

/-- What tile `t` writes back is block `t` of the whole-array function. -/
private theorem flushed5_eq (c : Dev nD) (t : Fin cfg0.N) :
    (dats m 0 c).flushed 5 t = ((cfg0.win 5).blk t).view.read (Elt Ideal) (Gfull m c) := by
  show (cfg0.win 5).cut (grid0.coords t) ((dats m 0 c).after 5 t) = _
  rw [after0_5]
  funext y
  have hy0 : (y 0).val < 48 := (y 0).isLt
  have ht : t.val < 11 := by have h : cfg0.N = 11 := N_0; have := t.isLt; omega
  refine Eq.trans ?_ (read_blk5 (Gfull m c) t y (ix2 ⟨48 * t.val + (y 0).val, by omega⟩ (y 1)) rfl rfl).symm
  exact (Gfull_apply m c t y _ rfl rfl).symm

/-- Every row of the array lies in the block of its tile. -/
private theorem cover5 (i : S528x128.Idx) :
    ∃ t : Fin cfg0.N, (cfg0.win 5).flush t = true ∧ i ∈ ((cfg0.win 5).blk t).view.set := by
  have h0 : (i 0).val < 528 := (i 0).isLt
  have h1 : (i 1).val < 128 := (i 1).isLt
  obtain ⟨e0, e1⟩ := idx5 (tileOf i)
  have et : (tileOf i).val = (i 0).val / 48 := rfl
  refine ⟨tileOf i, flush0_5 _, ?_⟩
  show i ∈ ((View.whole main_v19).slice (win0_5.rect (tileOf i))).set
  rw [View.set_slice_whole, Rect.mem_set_unit]
  intro a
  match a with
  | ⟨0, _⟩ =>
    show win0_5.index (tileOf i) 0 * 48 ≤ (i 0).val ∧ (i 0).val < win0_5.index (tileOf i) 0 * 48 + 48
    rw [e0, et]; omega
  | ⟨1, _⟩ =>
    show win0_5.index (tileOf i) 1 * 128 ≤ (i 1).val ∧ (i 1).val < win0_5.index (tileOf i) 1 * 128 + 128
    rw [e1]; omega

/-- So the region leaves the array at the whole-array function. -/
private theorem final5 (c : Dev nD) : (dats m 0 c).arrAt 5 cfg0.N = Gfull m c :=
  (dats m 0 c).arrAt_eq_of_cover 5 (Gfull m c) (fun t _ => flushed5_eq m c t) cover5

/-- The program's last line keeps the first 512 rows and 16 lanes of what the region left. -/
private theorem tail_eq (c : Dev nD) :
    Pipeline.afterTail₀ cfgs (dats m) 0 (V0 m) [hostOps1] c main_v20
      = extractStridedSlice S512x16 ![0, 0] (Gfull m c) slices_S528x128_S512x16_0_0 := by
  unfold Pipeline.afterTail₀
  show StableHlo.after hostOps1 _ (Proc.devRef .tc main_v20) = _
  after_results
  have h19 : Pipeline.withArrays spec0 c (V0 m c) (fun w => (dats m 0 c).arrAt w cfg0.N) (Proc.devRef .tc main_v19) = Gfull m c :=
    (Pipeline.withArrays_arr spec0 launch0.win.arr_inj c (V0 m c) (fun w => (dats m 0 c).arrAt w cfg0.N) 5).trans (final5 m c)
  exact congrArg (fun x => extractStridedSlice S512x16 ![0, 0] x slices_S528x128_S512x16_0_0) h19

/-- Entry `(B, cc)` of the kept part is entry `(B % 48, cc)` of tile `B / 48`'s block: the network's score. -/
private theorem value_eq (c : Dev nD) :
    extractStridedSlice S512x16 ![0, 0] (Gfull m c) slices_S528x128_S512x16_0_0
      = TextCnn.G (argX m c) (argCW m c) (argCB m c) (argLW m c) (argLB m c) := by
  funext i
  obtain ⟨B, cc, rfl⟩ : ∃ (B : Fin 512) (cc : Fin 16), i = ix2 B cc := ⟨i 0, i 1, eq_ix2 i⟩
  have hB := B.isLt
  have hcc := cc.isLt
  rw [extractStridedSlice_apply ![0, 0] (Gfull m c) slices_S528x128_S512x16_0_0 (ix2 B cc)
    (ix2 ⟨B.val, by omega⟩ ⟨cc.val, by omega⟩) (fun a => by
      match a with
      | ⟨0, _⟩ => show B.val = 0 + B.val; omega
      | ⟨1, _⟩ => show cc.val = 0 + cc.val; omega)]
  rw [Gfull_apply m c (pt (B.val / 48) (by omega)) (ix2 ⟨B.val % 48, Nat.mod_lt _ (by decide)⟩ ⟨cc.val, by omega⟩) _
    (by show B.val = 48 * (B.val / 48) + B.val % 48; omega) rfl]
  exact block_value m c _ ⟨B.val % 48, Nat.mod_lt _ (by decide)⟩ cc B (by show B.val = 48 * (B.val / 48) + B.val % 48; omega)

/-- Every weakly fair execution of the reference's program ends with the result array at the network's
    scores of the argument arrays, and the arguments unchanged. -/
theorem run : θ_run (defs (F := Ideal)) (onTc (τ := τ) (main (F := Ideal))) ⟨m, fun _ => 0, ρ⟩ (fun r => ∀ c : Dev nD,
      r.2.mem ((c.tc : Thread nD τ).loc main_v20) = TextCnn.G (argX m c) (argCW m c) (argCB m c) (argLW m c) (argLB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v20 (Pipeline.mem_restRefs_of main_v20 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.lean ====
/-
  Equivalence over the extended reals of a fused text-convolution kernel and its reference.

  Both programs compute, for each of 512 samples and 16 classes, the same network: a five-tap
  full-width convolution over the sample's rows (a zero row in front), bias and rectification,
  maximum over windows of four positions, and a linear layer over the 63 x 128 pooled values.
  The kernel tiles the batch by 64, pairs the taps two to a double-width product and multiplies
  the 63 pooled slabs, laid side by side, by the linear weight in one product; the reference tiles
  the batch by 48 (after padding it with zero samples), takes the taps one at a time and adds up
  63 per-window products. Over the extended reals both are the same sums: the two runs are read
  back entry by entry as the one function `TextCnn.G` of the argument arrays
  (the kernel's in `Cert.KernelIdeal.Hand.run`, the reference's in `Cert.ReferenceIdeal.Hand.run`).
  The three frames are the generated ones; the idealization rewrote nothing.
-/
import proofs.«118798_g2000302331999779_pallasbulk_1131_2_alg».proof.Defs
import proofs.«118798_g2000302331999779_pallasbulk_1131_2_alg».proof.Proof.Gen.Kernel
import proofs.«118798_g2000302331999779_pallasbulk_1131_2_alg».proof.Proof.Gen.Kernel.Skeleton
import proofs.«118798_g2000302331999779_pallasbulk_1131_2_alg».proof.Proof.Gen.Kernel.Launch
import proofs.«118798_g2000302331999779_pallasbulk_1131_2_alg».proof.Proof.Gen.Kernel.Points
import proofs.«118798_g2000302331999779_pallasbulk_1131_2_alg».proof.Proof.Gen.Kernel.Frame
import proofs.«118798_g2000302331999779_pallasbulk_1131_2_alg».proof.Proof.Gen.KernelIdeal
import proofs.«118798_g2000302331999779_pallasbulk_1131_2_alg».proof.Proof.Gen.KernelIdeal.Skeleton
import proofs.«118798_g2000302331999779_pallasbulk_1131_2_alg».proof.Proof.Gen.KernelIdeal.Launch
import proofs.«118798_g2000302331999779_pallasbulk_1131_2_alg».proof.Proof.Gen.KernelIdeal.Points
import proofs.«118798_g2000302331999779_pallasbulk_1131_2_alg».proof.Proof.Gen.KernelIdeal.Frame
import proofs.«118798_g2000302331999779_pallasbulk_1131_2_alg».proof.Proof.Gen.ReferenceIdeal
import proofs.«118798_g2000302331999779_pallasbulk_1131_2_alg».proof.Proof.Gen.ReferenceIdeal.Skeleton
import proofs.«118798_g2000302331999779_pallasbulk_1131_2_alg».proof.Proof.Gen.ReferenceIdeal.Launch
import proofs.«118798_g2000302331999779_pallasbulk_1131_2_alg».proof.Proof.Gen.ReferenceIdeal.Points
import proofs.«118798_g2000302331999779_pallasbulk_1131_2_alg».proof.Proof.Gen.ReferenceIdeal.Frame
import proofs.«118798_g2000302331999779_pallasbulk_1131_2_alg».proof.Proof.Gen.Pre_finite_inputs
import proofs.«118798_g2000302331999779_pallasbulk_1131_2_alg».proof.Proof.KFinal
import proofs.«118798_g2000302331999779_pallasbulk_1131_2_alg».proof.Proof.RFinal
import Idealize.ShloMosaic.Adequacy
import Idealize.ShloMosaic.Init

noncomputable section

namespace Cert.Proof

open Idealize.ShloMosaic Idealize.SL.Sem

/-- From memories agreeing on the arguments both programs end with the result array at the network's
    scores of those arguments. -/
theorem algebraic : Cert.algebraic_KernelIdeal_ReferenceIdeal := by
  intro m ρ m' ρ' _ hagree
  refine ⟨fun c => TextCnn.G (Cert.KernelIdeal.Hand.argX m c) (Cert.KernelIdeal.Hand.argCW m c) (Cert.KernelIdeal.Hand.argCB m c)
    (Cert.KernelIdeal.Hand.argLW m c) (Cert.KernelIdeal.Hand.argLB m c), Cert.KernelIdeal.Hand.run m ρ, ?_⟩
  refine (θ_run Cert.ReferenceIdeal.defs _ _).mono (fun r h c => ?_) (Cert.ReferenceIdeal.Hand.run m' ρ')
  obtain ⟨h0, h1, h2, h3, h4, h5⟩ := h c
  obtain ⟨e0, e1, e2, e3, e4⟩ := hagree c
  refine ⟨h0.trans ?_, h1, h2, h3, h4, h5⟩
  dsimp only [Cert.ReferenceIdeal.Hand.argX, Cert.ReferenceIdeal.Hand.argCW, Cert.ReferenceIdeal.Hand.argCB, Cert.ReferenceIdeal.Hand.argLW,
    Cert.ReferenceIdeal.Hand.argLB, Cert.KernelIdeal.Hand.argX, Cert.KernelIdeal.Hand.argCW, Cert.KernelIdeal.Hand.argCB, Cert.KernelIdeal.Hand.argLW,
    Cert.KernelIdeal.Hand.argLB]
  rw [e0, e1, e2, e3, e4]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
